-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S10000x64 : Shape := ⟨2, ![10000, 64]⟩
abbrev S1100000x64 : Shape := ⟨2, ![1100000, 64]⟩
abbrev S1x64 : Shape := ⟨2, ![1, 64]⟩
abbrev S2x64 : Shape := ⟨2, ![2, 64]⟩

abbrev nBuf : Space → Nat
  | .hbm => 80
  | .vmem => 21
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000, .i32⟩
  | .hbm, ⟨7, _⟩ => ⟨S1x1000000, .i32⟩
  | .hbm, ⟨8, _⟩ => ⟨S1000000, .i32⟩
  | .hbm, ⟨9, _⟩ => ⟨S1100000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S_, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000, .f32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S100000x64, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x64, .f32⟩
  | .hbm, ⟨57, _⟩ => ⟨S1100000x1, .f32⟩
  | .hbm, ⟨58, _⟩ => ⟨S1100000x64, .f32⟩
  | .hbm, ⟨59, _⟩ => ⟨S1100000x64, .f32⟩
  | .hbm, ⟨60, _⟩ => ⟨S_, .f32⟩
  | .hbm, ⟨61, _⟩ => ⟨S100000x64, .f32⟩
  | .hbm, ⟨62, _⟩ => ⟨S1100000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S2x64, .f32⟩
  | .hbm, ⟨67, _⟩ => ⟨S1x64, .f32⟩
  | .hbm, ⟨68, _⟩ => ⟨S_, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S_, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S2x64, .f32⟩
  | .local _ .vmem, ⟨11, _⟩ => ⟨S1x64, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_16 : BitVec 32 := 0#32
  let v29 : BitVec 1 := Scalar.cmpi .ne v28 c0_i32_16
  v29

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S10000x64_S10000x64 : S10000x64.ShapeCasts S10000x64
  broadcasts_S1x64_S10000x64 : S1x64.Broadcasts S10000x64
  reduces_S10000x64_S64 : S10000x64.Reduces [0] S64
  shapeCasts_S1x64_S64 : S1x64.ShapeCasts S64
  inb_S2x64_S1x64_0_0 : ∀ a, (![0, 0] : Fin 2 → Nat) a + S1x64.size a ≤ S2x64.size a
  inb_S2x64_S1x64_1_0 : ∀ a, (![1, 0] : Fin 2 → Nat) a + S1x64.size a ≤ S2x64.size a
  slices_S2x64_S1x64_0_0 : S2x64.Slices ![0, 0] S1x64
  bcast_S_S1x64 : S_.BroadcastsInDim S1x64 (![] : Fin 0 → Fin S1x64.rank)
  slices_S2x64_S1x64_1_0 : S2x64.Slices ![1, 0] S1x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x64_S10000x64_1_0_0_1_n_n_wf : DotDims.WF S10000x64 S64x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x64.size a ≤ S2x64.size a
  hwx1_3 : ∀ i : grid1.Coords, EltTy.bits .f32 = 32 ∨ (Rect.block (s := S2x64) S2x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S10000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S2x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v46_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000, .i32⟩
  | .hbm, ⟨7, _⟩ => ⟨S1x1000000, .i32⟩
  | .hbm, ⟨8, _⟩ => ⟨S1000000, .i32⟩
  | .hbm, ⟨9, _⟩ => ⟨S1100000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S_, .f32⟩
  | .hbm, ⟨14, _⟩ => ⟨S1100000, .f32⟩
  | .hbm, ⟨15, _⟩ => ⟨S_, .f32⟩
  | .hbm, ⟨16, _⟩ => ⟨S100000, .f32⟩
  | .hbm, ⟨17, _⟩ => ⟨S1100000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000, .f32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S100000x64, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x64, .f32⟩
  | .hbm, ⟨57, _⟩ => ⟨S1100000x1, .f32⟩
  | .hbm, ⟨58, _⟩ => ⟨S1100000x64, .f32⟩
  | .hbm, ⟨59, _⟩ => ⟨S1100000x64, .f32⟩
  | .hbm, ⟨60, _⟩ => ⟨S_, .f32⟩
  | .hbm, ⟨61, _⟩ => ⟨S100000x64, .f32⟩
  | .hbm, ⟨62, _⟩ => ⟨S1100000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.KbR0.lean ====
/-
  Region 0 of @main: the dense linear transform, one block of 10000 rows of `x` against the whole 64 × 64 weight
  matrix per grid point. Stated at a parameter `V`, the buffer contents the region is entered from: each window's
  block at a point, what the body leaves in the output window's staging buffer (the matrix product of the point's
  row block with the weights, as one piece covering the buffer), the body's triple, the proof data of the pipeline
  and the body obligation at every point.
-/
import proofs.«162183_j53549652247107_1_alg».proof.Proof.Gen.Kernel.Launch
import proofs.«162183_j53549652247107_1_alg».proof.Proof.Gen.Kernel.Skeleton
import proofs.«162183_j53549652247107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched its block index has not moved. The row-block window: -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the weight window (one block, resident): -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole row block and the whole weight matrix, as the body's loads and its store address them. -/
abbrev rX0 : Rect S10000x64 := Rect.unit (s := S10000x64) ![0, 0] S10000x64.size inb_S10000x64_S10000x64_0_0
abbrev rW0 : Rect S64x64 := Rect.unit (s := S64x64) ![0, 0] S64x64.size inb_S64x64_S64x64_0_0

/-- The output window's staging buffer after the body: one piece, the product of the row block with the weights. -/
def out0_2 (x0 : Vec F S10000x64 .f32) (x1 : Vec F S64x64 .f32) : Vec F S10000x64 .f32 :=
  View.canon [⟨rX0, k0_pay1 (View.ld x0 rX0) (View.ld x1 rW0)⟩]

/-- The one store covers the buffer. -/
theorem cover0_2 (p0 : Vec F S10000x64 .f32) (y : S10000x64.Idx) :
    ∃ pc ∈ ([⟨rX0, p0⟩] : List (View.Piece (Elt F) S10000x64 .f32)), y ∈ pc.1.set :=
  View.cover_of_tiled [⟨rX0, p0⟩] S10000x64.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KbR1.lean ====
/-
  Region 1 of @main: bias, rectifier and the column statistics. Per grid point the body adds the bias row to a block
  of 10000 rows, clamps at zero, stores the block, and adds the block's column sums and column sums of squares into two
  one-row accumulators it keeps between points (cleared at the first point); at the last point it copies the two
  accumulators into the two rows of the statistics output.
-/
import proofs.«162183_j53549652247107_1_alg».proof.Proof.Gen.Kernel.Launch
import proofs.«162183_j53549652247107_1_alg».proof.Proof.Gen.Kernel.Skeleton
import proofs.«162183_j53549652247107_1_alg».proof.Proof.Gen.Kernel.Points
import Idealize.ShloMosaic.Lib.ValueIdx
import Idealize.ShloMosaic.Lib.Pipeline.FrameBody
import Idealize.ShloMosaic.Lib.Pipeline.Value
import Idealize.ShloMosaic.Lib.Pipeline.Kit
import Idealize.ShloMosaic.Lib.Pipeline.RegionsLoop
import Idealize.ShloMosaic.Lib.Pipeline.FrameSuffix
import Idealize.ShloMosaic.Lib.Memref
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators, whole scoped buffers of the kernel's own. -/
abbrev scM1_0 : Memref sig .tc .vmem S1x64 .f32 := Memref.whole cc1_scratch0
abbrev scM1_1 : Memref sig .tc .vmem S1x64 .f32 := Memref.whole cc1_scratch1

/-! ## The two conditionals and the idle window -/

/-- The first conditional's test, from the grid coordinate: the point is the first. -/
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's test: the point is the last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem live1_3 : ∀ t : Fin cfg1.N, cond1_1 (grid1.coords t) → cfg1.idle 3 (grid1.coords t) = false := by decide +kernel

/-! ## What the body's stores leave -/

/-- The rectangles the body loads and stores through: the whole block, a whole row, and the two rows of the
    statistics buffer. -/
abbrev rX1 : Rect S10000x64 := Rect.unit (s := S10000x64) ![0, 0] S10000x64.size inb_S10000x64_S10000x64_0_0
abbrev rB1 : Rect S1x64 := Rect.unit (s := S1x64) ![0, 0] S1x64.size inb_S1x64_S1x64_0_0
abbrev rS1_0 : Rect S2x64 := Rect.unit (s := S2x64) ![0, 0] S1x64.size inb_S2x64_S1x64_0_0
abbrev rS1_1 : Rect S2x64 := Rect.unit (s := S2x64) ![1, 0] S1x64.size inb_S2x64_S1x64_1_0

/-- The activation block the body stores: the rectified sum of the input block and the bias row. -/
def aOut (x : Vec F S10000x64 .f32) (b : Vec F S1x64 .f32) : Vec F S10000x64 .f32 :=
  View.canon [⟨rX1, k1_pay3 (View.ld x rX1) (View.ld b rB1)⟩]
/-- An accumulator as the first point's clearing leaves it. -/
def zero1 : Vec F S1x64 .f32 := View.canon [⟨rB1, k1_pay1 (F := F)⟩]
/-- The sum accumulator after the body, from its contents `s` when the body reads it. -/
def sumOut (x : Vec F S10000x64 .f32) (b : Vec F S1x64 .f32) (s : Vec F S1x64 .f32) : Vec F S1x64 .f32 :=
  View.canon [⟨rB1, k1_pay4 (View.ld x rX1) (View.ld b rB1) (View.ld s rB1)⟩]
/-- The sum-of-squares accumulator after the body, likewise. -/
def sqOut (x : Vec F S10000x64 .f32) (b : Vec F S1x64 .f32) (s : Vec F S1x64 .f32) : Vec F S1x64 .f32 :=
  View.canon [⟨rB1, k1_pay5 (View.ld x rX1) (View.ld b rB1) (View.ld s rB1)⟩]
/-- The statistics block the last point stores: row 0 the sum accumulator, row 1 the sum-of-squares accumulator
    (the later store first). -/
def statsOut (s0 s1 : Vec F S1x64 .f32) : Vec F S2x64 .f32 :=
  View.canon [⟨rS1_1, k1_pay7 (View.ld s1 rB1)⟩, ⟨rS1_0, k1_pay6 (View.ld s0 rB1)⟩]

/-- The offsets of a whole-buffer rectangle are zero on both axes. -/
theorem zeros1 : (![0, 0] : Fin 2 → ℕ) = fun _ => 0 := by funext a; fin_cases a <;> rfl

/-- One store through the whole block covers it; -/
theorem coverX1 (p : Vec F S10000x64 .f32) (y : S10000x64.Idx) :
    ∃ pc ∈ ([⟨rX1, p⟩] : List (View.Piece (Elt F) S10000x64 .f32)), y ∈ pc.1.set :=
  View.cover_of_tiled [⟨rX1, p⟩] S10000x64.size (by rfl) y
/-- one store through a whole row covers it, -/
theorem coverB1 (p : Vec F S1x64 .f32) (y : S1x64.Idx) :
    ∃ pc ∈ ([⟨rB1, p⟩] : List (View.Piece (Elt F) S1x64 .f32)), y ∈ pc.1.set :=
  View.cover_of_tiled [⟨rB1, p⟩] S1x64.size (by rfl) y
/-- and so does it before an earlier store; -/
theorem coverB1' (p q : Vec F S1x64 .f32) (y : S1x64.Idx) :
    ∃ pc ∈ ([⟨rB1, p⟩, ⟨rB1, q⟩] : List (View.Piece (Elt F) S1x64 .f32)), y ∈ pc.1.set :=
  let ⟨pc, hm, hy⟩ := coverB1 p y
  ⟨pc, List.mem_cons.mpr (Or.inl (List.mem_singleton.mp hm)), hy⟩
/-- the two row stores cover the statistics buffer. -/
theorem coverS1 (p q : Vec F S1x64 .f32) (y : S2x64.Idx) :
    ∃ pc ∈ ([⟨rS1_1, p⟩, ⟨rS1_0, q⟩] : List (View.Piece (Elt F) S2x64 .f32)), y ∈ pc.1.set :=
  View.cover_of_tiledL [⟨rS1_1, p⟩, ⟨rS1_0, q⟩] S1x64.size (by rfl) y

/-- A load of a whole row after one store through it reads what that store leaves. -/
theorem readCovB1 {κ : Kind} {sp : Space} (v : View sig κ sp S1x64 .f32) (w : Vec F S1x64 .f32) :
    v.readCov [(⟨rB1, w⟩ : View.Piece (Elt F) S1x64 .f32)] rB1.toLoadRect = View.ld (View.canon [(⟨rB1, w⟩ : View.Piece (Elt F) S1x64 .f32)]) rB1 :=
  View.readCov_eq_canon_ld v _ rB1 (coverB1 w)

/-- The two clearing stores write the same row of zeros. -/
theorem pay2_eq_pay1 : (k1_pay2 : FVec F S1x64 .f32) = k1_pay1 := rfl

/-! ## The stored pieces as the body's payloads -/

/-- The stored pieces as the payloads of the body (each store covers its buffer, each load reads a whole buffer). -/
theorem aOut_eq (x : Vec F S10000x64 .f32) (b : Vec F S1x64 .f32) : aOut x b = k1_pay3 x b := by
  unfold aOut
  rw [View.canon_unit_zero (Val := Elt F) (S := S10000x64) (e := .f32) zeros1, View.ld_unit_zero (Val := Elt F) (S := S10000x64) (e := .f32) zeros1,
    View.ld_unit_zero (Val := Elt F) (S := S1x64) (e := .f32) zeros1]
theorem zero1_eq : (zero1 : Vec F S1x64 .f32) = k1_pay1 := by
  unfold zero1
  rw [View.canon_unit_zero (Val := Elt F) (S := S1x64) (e := .f32) zeros1]
theorem zero1_eq' : (zero1 : Vec F S1x64 .f32) = k1_pay2 := zero1_eq.trans pay2_eq_pay1.symm
theorem sumOut_eq (x : Vec F S10000x64 .f32) (b s : Vec F S1x64 .f32) : sumOut x b s = k1_pay4 x b s := by
  unfold sumOut
  rw [View.canon_unit_zero (Val := Elt F) (S := S1x64) (e := .f32) zeros1, View.ld_unit_zero (Val := Elt F) (S := S10000x64) (e := .f32) zeros1,
    View.ld_unit_zero (Val := Elt F) (S := S1x64) (e := .f32) zeros1, View.ld_unit_zero (Val := Elt F) (S := S1x64) (e := .f32) zeros1]
theorem sqOut_eq (x : Vec F S10000x64 .f32) (b s : Vec F S1x64 .f32) : sqOut x b s = k1_pay5 x b s := by
  unfold sqOut
  rw [View.canon_unit_zero (Val := Elt F) (S := S1x64) (e := .f32) zeros1, View.ld_unit_zero (Val := Elt F) (S := S10000x64) (e := .f32) zeros1,
    View.ld_unit_zero (Val := Elt F) (S := S1x64) (e := .f32) zeros1, View.ld_unit_zero (Val := Elt F) (S := S1x64) (e := .f32) zeros1]

/-- Row 0 of the statistics buffer, as an index of the buffer, is the row-0 store's rectangle at the same column; -/
theorem embS1_0 (j : Fin 64) : rS1_0.emb (ValueIdx.ix2 (0 : Fin 1) j) = (ValueIdx.ix2 (0 : Fin 2) j : S2x64.Idx) := by
  funext a; apply Fin.ext
  match a with
  | ⟨0, _⟩ => rfl
  | ⟨1, _⟩ => simp [Rect.emb_apply]
/-- row 1 likewise; -/
theorem embS1_1 (j : Fin 64) : rS1_1.emb (ValueIdx.ix2 (0 : Fin 1) j) = (ValueIdx.ix2 (1 : Fin 2) j : S2x64.Idx) := by
  funext a; apply Fin.ext
  match a with
  | ⟨0, _⟩ => rfl
  | ⟨1, _⟩ => simp [Rect.emb_apply]
/-- and row 0 is off the row-1 store's rectangle. -/
theorem not_memS1_1 (j : Fin 64) : (ValueIdx.ix2 (0 : Fin 2) j : S2x64.Idx) ∉ rS1_1.set := by
  intro h
  obtain ⟨k, hk, e⟩ := (rS1_1.toLoadRect.mem_set.mp h) 0
  have e' : (0 : ℕ) = 1 + 1 * k := e
  omega

/-- The statistics block index by index: its two rows are the two accumulators' rows. -/
theorem statsOut_row0 (s0 s1 : Vec F S1x64 .f32) (j : Fin 64) : statsOut s0 s1 (ValueIdx.ix2 (0 : Fin 2) j) = k1_pay6 s0 (ValueIdx.ix2 (0 : Fin 1) j) := by
  unfold statsOut
  refine (View.canon_cons_of_not_mem (Val := Elt F) (⟨rS1_1, k1_pay7 (View.ld s1 rB1)⟩ : View.Piece (Elt F) S2x64 .f32)
    [⟨rS1_0, k1_pay6 (View.ld s0 rB1)⟩] (not_memS1_1 j)).trans ?_
  refine (congrArg _ (embS1_0 j).symm).trans ?_
  refine (View.canon_cons_emb (Val := Elt F) (s := S2x64) (e := .f32) rS1_0 (k1_pay6 (View.ld s0 rB1)) [] (ValueIdx.ix2 (0 : Fin 1) j)).trans ?_
  rw [View.ld_unit_zero (Val := Elt F) (S := S1x64) (e := .f32) zeros1]
theorem statsOut_row1 (s0 s1 : Vec F S1x64 .f32) (j : Fin 64) : statsOut s0 s1 (ValueIdx.ix2 (1 : Fin 2) j) = k1_pay7 s1 (ValueIdx.ix2 (0 : Fin 1) j) := by
  unfold statsOut
  refine (congrArg _ (embS1_1 j).symm).trans ?_
  refine (View.canon_cons_emb (Val := Elt F) (s := S2x64) (e := .f32) rS1_1 (k1_pay7 (View.ld s1 rB1)) [⟨rS1_0, k1_pay6 (View.ld s0 rB1)⟩] (ValueIdx.ix2 (0 : Fin 1) j)).trans ?_
  rw [View.ld_unit_zero (Val := Elt F) (S := S1x64) (e := .f32) zeros1]

/-! ## The body on whole memrefs, case by case -/

set_option maxHeartbeats 1000000 in
/-- THE FIRST POINT (the first conditional taken, the second not): from the inputs' memrefs at `x0`, `x1`, the
    statistics buffer at `xi3`, the output block's and both accumulators' at anything, the body runs to the
    continuation holding the inputs' and the statistics buffer as they were, the output block at `aOut` and the
    accumulators at the sums over this block alone, taken from the cleared row. -/
theorem run1_A (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (arg4 : Memref sig .tc .vmem S2x64 .f32) (harg4 : arg4.IsWhole) (arg5 : Memref sig .tc .vmem S1x64 .f32) (harg5 : arg5.IsWhole)
    (arg6 : Memref sig .tc .vmem S1x64 .f32) (harg6 : arg6.IsWhole) (hc0 : cond1_0 i) (hc1 : ¬cond1_1 i)
    (x0 : Vec F S10000x64 .f32) (x1 : Vec F S1x64 .f32) (xi3 : Vec F S2x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (aOut x0 x1)
            ∗ owns (c : Thread nD τ) arg4 fullShare xi3 ∗ owns (c : Thread nD τ) arg5 fullShare (sumOut x0 x1 zero1) ∗ owns (c : Thread nD τ) arg6 fullShare (sqOut x0 x1 zero1)) -∗ K ⟨⟩))
      ⊢ wp frame (wpE (defs₀ (F := F)) Variants.none c none) E (cc1__relu_stats_kernel i arg1 harg1 arg2 harg2 arg3 harg3 arg4 harg4 arg5 harg5 arg6 harg6) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%f3, %hf3, H3⟩, ⟨%d4, %f4, -, H4⟩, ⟨%d5, %f5, -, H5⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverX1 _)
  isplitl [H3]
  · iexists f3; isplitr; · ipureintro; rfl
    iexact H3
  isplitl [H4]
  · iexists _; isplitr
    swap; · iexact H4
    ipureintro
    sl_unfold_run_names
    refine (View.read_writes_eq_canon _ _ _ (coverB1' _ _)).trans ?_
    rw [readCovB1]
    refine (View.canon_cons_unit_zero (Val := Elt F) (S := S1x64) (e := .f32) zeros1 _ _ _).trans ?_
    unfold sumOut zero1
    exact (View.canon_unit_zero (Val := Elt F) (S := S1x64) (e := .f32) zeros1 _ _).symm
  iexists _; isplitr
  swap; · iexact H5
  ipureintro
  sl_unfold_run_names
  refine (View.read_writes_eq_canon _ _ _ (coverB1' _ _)).trans ?_
  rw [readCovB1, pay2_eq_pay1]
  refine (View.canon_cons_unit_zero (Val := Elt F) (S := S1x64) (e := .f32) zeros1 _ _ _).trans ?_
  unfold sqOut zero1
  exact (View.canon_unit_zero (Val := Elt F) (S := S1x64) (e := .f32) zeros1 _ _).symm

set_option maxHeartbeats 1000000 in
/-- A MIDDLE POINT (neither conditional taken): as at the first point, but the accumulators come in at `s0`, `s1`
    and go out with this block's sums added. -/
theorem run1_B (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (arg4 : Memref sig .tc .vmem S2x64 .f32) (harg4 : arg4.IsWhole) (arg5 : Memref sig .tc .vmem S1x64 .f32) (harg5 : arg5.IsWhole)
    (arg6 : Memref sig .tc .vmem S1x64 .f32) (harg6 : arg6.IsWhole) (hc0 : ¬cond1_0 i) (hc1 : ¬cond1_1 i)
    (x0 : Vec F S10000x64 .f32) (x1 : Vec F S1x64 .f32) (xi3 : Vec F S2x64 .f32) (s0 s1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare (aOut x0 x1)
            ∗ owns (c : Thread nD τ) arg4 fullShare xi3 ∗ owns (c : Thread nD τ) arg5 fullShare (sumOut x0 x1 s0) ∗ owns (c : Thread nD τ) arg6 fullShare (sqOut x0 x1 s1)) -∗ K ⟨⟩))
      ⊢ wp frame (wpE (defs₀ (F := F)) Variants.none c none) E (cc1__relu_stats_kernel i arg1 harg1 arg2 harg2 arg3 harg3 arg4 harg4 arg5 harg5 arg6 harg6) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
  subst hf0; subst hf1; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverX1 _)
  isplitl [H3]
  · iexists f3; isplitr; · ipureintro; rfl
    iexact H3
  isplitl [H4]
  · iexists _; isplitr
    swap; · iexact H4
    ipureintro
    exact View.read_writes_eq_canon _ _ _ (coverB1 _)
  iexists _; isplitr
  swap; · iexact H5
  ipureintro
  exact View.read_writes_eq_canon _ _ _ (coverB1 _)

set_option maxHeartbeats 1000000 in
/-- THE LAST POINT (the second conditional taken, the first not): as at a middle point, and the statistics buffer,
    at anything before, goes out holding the two updated accumulators in its two rows. -/
theorem run1_C (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (arg4 : Memref sig .tc .vmem S2x64 .f32) (harg4 : arg4.IsWhole) (arg5 : Memref sig .tc .vmem S1x64 .f32) (harg5 : arg5.IsWhole)
    (arg6 : Memref sig .tc .vmem S1x64 .f32) (harg6 : arg6.IsWhole) (hc0 : ¬cond1_0 i) (hc1 : cond1_1 i)
    (x0 : Vec F S10000x64 .f32) (x1 : Vec F S1x64 .f32) (s0 s1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare (aOut x0 x1)
            ∗ owns (c : Thread nD τ) arg4 fullShare (statsOut (sumOut x0 x1 s0) (sqOut x0 x1 s1)) ∗ owns (c : Thread nD τ) arg5 fullShare (sumOut x0 x1 s0) ∗ owns (c : Thread nD τ) arg6 fullShare (sqOut x0 x1 s1)) -∗ K ⟨⟩))
      ⊢ wp frame (wpE (defs₀ (F := F)) Variants.none c none) E (cc1__relu_stats_kernel i arg1 harg1 arg2 harg2 arg3 harg3 arg4 harg4 arg5 harg5 arg6 harg6) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverX1 _)
  isplitl [H3]
  · iexists _; isplitr
    swap; · iexact H3
    ipureintro
    sl_unfold_run_names
    refine (View.read_writes_eq_canon _ _ _ (coverS1 _ _)).trans ?_
    rw [readCovB1, readCovB1]
    rfl
  isplitl [H4]
  · iexists _; isplitr
    swap; · iexact H4
    ipureintro
    sl_unfold_run_names
    exact View.read_writes_eq_canon _ _ _ (coverB1 _)
  iexists _; isplitr
  swap; · iexact H5
  ipureintro
  sl_unfold_run_names
  exact View.read_writes_eq_canon _ _ _ (coverB1 _)

/-! ## The accumulation over the grid -/

/-- THE ACCUMULATION. The two accumulators after the body at position `n`: the first point starts from the cleared
    accumulators, every later point from what the point before left. -/
def scAt1 (c : Dev nD) : (n : ℕ) → n < cfg1.N → Vec F S1x64 .f32 × Vec F S1x64 .f32
  | 0, hn => (sumOut (iblk1 V c 0 ⟨0, hn⟩) (iblk1 V c 1 ⟨0, hn⟩) zero1, sqOut (iblk1 V c 0 ⟨0, hn⟩) (iblk1 V c 1 ⟨0, hn⟩) zero1)
  | n + 1, hn => (sumOut (iblk1 V c 0 ⟨n + 1, hn⟩) (iblk1 V c 1 ⟨n + 1, hn⟩) (scAt1 c n (Nat.lt_of_succ_lt hn)).1,
      sqOut (iblk1 V c 0 ⟨n + 1, hn⟩) (iblk1 V c 1 ⟨n + 1, hn⟩) (scAt1 c n (Nat.lt_of_succ_lt hn)).2)

/-- At the first point: this block's sums from the cleared row. -/
theorem scAt1_first (c : Dev nD) (t : Fin cfg1.N) (h0 : t.val = 0) :
    scAt1 V c t.val t.isLt = (sumOut (iblk1 V c 0 t) (iblk1 V c 1 t) zero1, sqOut (iblk1 V c 0 t) (iblk1 V c 1 t) zero1) := by
  obtain ⟨n, hn⟩ := t
  cases n with
  | zero => rfl
  | succ n => exact absurd h0 (Nat.succ_ne_zero n)

/-- At a later point: this block's sums added to what the point before left. -/
theorem scAt1_later (c : Dev nD) (t : Fin cfg1.N) (h0 : t.val ≠ 0) :
    scAt1 V c t.val t.isLt
      = (sumOut (iblk1 V c 0 t) (iblk1 V c 1 t) (scAt1 V c (t.val - 1) (Nat.lt_of_le_of_lt (Nat.sub_le _ _) t.isLt)).1,
         sqOut (iblk1 V c 0 t) (iblk1 V c 1 t) (scAt1 V c (t.val - 1) (Nat.lt_of_le_of_lt (Nat.sub_le _ _) t.isLt)).2) := by
  obtain ⟨n, hn⟩ := t
  cases n with
  | zero => exact absurd rfl h0
  | succ n => rfl

/-! ## The invariant -/

/-- The scoped buffers of the core that are neither a staging buffer of this call nor one of its accumulators, at
    some contents each: carried unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two accumulators as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ rest1 c) ∗ (∃ r, prngReg c r)) := by
  unfold Pipeline.ΦA
  rw [Pipeline.scopedRest_split_of_list spec1 c [cc1_scratch0, cc1_scratch1] (by decide) (by decide)]
  simp only [scM1_0, scM1_1, owns_whole, bigSepL_cons_cons, bigSepL_singleton]; try rfl

/-- The invariant before position `n`: before the first point what the launch hands over; afterwards the two
    accumulators at what the point before left in them, the other scoped buffers and the generator register at
    something. -/
def Phi1 (c : Dev nD) : (n : ℕ) → n ≤ cfg1.N → sProp 𝕄
  | 0, _ => Pipeline.ΦA spec1 c
  | n + 1, hn => iprop(owns (c : Thread nD τ) scM1_0 fullShare (scAt1 V c n hn).1 ∗ owns (c : Thread nD τ) scM1_1 fullShare (scAt1 V c n hn).2
      ∗ rest1 c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1_0 fullShare (scAt1 V c n hn).1 ∗ owns (c : Thread nD τ) scM1_1 fullShare (scAt1 V c n hn).2
      ∗ rest1 c ∗ (∃ r, prngReg c r)) := rfl

theorem Phi1_pos (c : Dev nD) (n : ℕ) (h : n ≤ cfg1.N) (hz : n ≠ 0) :
    Phi1 V c n h = iprop(owns (c : Thread nD τ) scM1_0 fullShare (scAt1 V c (n - 1) (by omega)).1 ∗ owns (c : Thread nD τ) scM1_1 fullShare (scAt1 V c (n - 1) (by omega)).2
      ∗ rest1 c ∗ (∃ r, prngReg c r)) := by
  cases n with
  | zero => exact absurd rfl hz
  | succ n => rfl

/-! ## The pipeline's proof data -/

/-- The proof data of pipeline 1 on core `c`: the arrays as the region finds them; after the body at point `t`
    each input's buffer at its block, the activation window's at `aOut` of the input blocks, the statistics
    window's at the two accumulators as they then stand (written back at the last point only); the invariant
    `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => aOut (iblk1 V c 0 t) (iblk1 V c 1 t)
    | ⟨3, _⟩ => statsOut (scAt1 V c t.val t.isLt).1 (scAt1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = aOut (iblk1 V c 0 t) (iblk1 V c 1 t) := by dsimp only [dat1]
theorem after1_3 (c : Dev nD) (t : Fin cfg1.N) : (dat1 V c).after 3 t = statsOut (scAt1 V c t.val t.isLt).1 (scAt1 V c t.val t.isLt).2 := by dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- An input window's current staging buffer holds its block at every point, fetched there or not: where it is
    not fetched its block index has not moved. The row-block window: -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- the bias window (one block, resident): -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: each window's buffer at what the body leaves, the statistics window's untouched where the
    point is not the last. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The three windows that are never idle are left at what the proof data names. -/
theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [live1_0 t], after1_0]
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [live1_1 t], after1_1]
theorem leaves1_2 (c : Dev nD) (t : Fin cfg1.N) :
    (dat1 V c).leavesExact 2 t = owns (c : Thread nD τ) (st1_2 t) fullShare (aOut (iblk1 V c 0 t) (iblk1 V c 1 t)) := by
  rw [show (dat1 V c).leavesExact 2 t = owns (c : Thread nD τ) (st1_2 t) fullShare ((dat1 V c).after 2 t) from by
    unfold Dat.leavesExact; rw [live1_2 t], after1_2]

set_option maxHeartbeats 4000000 in
/-- The body at the first point: the invariant is what the launch handed over, so both accumulators are at anything;
    the body clears them and leaves this block's sums. -/
theorem sound_body1_A (c : Dev nD) (t : Fin cfg1.N) (h0 : t.val = 0) :
    bodyPre1 V c t ⊢ wp frame (wpE (defs₀ (F := F)) Variants.none c none) Set.univ (bodyAt1 t) (fun _ => bodyPost1 V c t) := by
  have hN : t.val < 10 := lt_of_lt_of_eq t.isLt (show cfg1.N = 10 from N_1)
  have hc0 : cond1_0 (grid1.coords t) := (hcond1_0 t).mpr h0
  have hc1 : ¬cond1_1 (grid1.coords t) := fun h => by have := (hcond1_1 t).mp h; omega
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, Dat.leavesExact_idle (dat1 V c) 3 t (idle1_3 t hc1) (noFlush1_3 t hc1)]
  rw [scAt1_first V c t h0]; dsimp only
  rw [Phi1_castSucc V c t, Phi1_zero V c _ _ h0, PhiA1_eq]
  iintro ⟨⟨⟨⟨HS0, HS1⟩, HR⟩, Hg⟩, Ho, ⟨%d0, H0⟩, ⟨%d1, H1⟩, ⟨%d2, H2⟩, ⟨%d3, H3⟩⟩
  iapply (run1_A c Set.univ _ _ _ _ _ _ _ _ _ _ _ _ _ hc0 hc1 (iblk1 V c 0 t) (iblk1 V c 1 t) _ _)
  isplitl [H0]; · iexact H0
  isplitl [H1]; · iexact H1
  isplitl [H2]; · iexists _; iexact H2
  isplitl [H3]; · iexact H3
  isplitl [HS0]; · iexact HS0
  isplitl [HS1]; · iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  iexists _; iexact H3

set_option maxHeartbeats 4000000 in
/-- The body at a middle point: the invariant holds the accumulators at what the point before left; the body adds this
    block's sums. -/
theorem sound_body1_B (c : Dev nD) (t : Fin cfg1.N) (h0 : t.val ≠ 0) (h9 : t.val ≠ 9) :
    bodyPre1 V c t ⊢ wp frame (wpE (defs₀ (F := F)) Variants.none c none) Set.univ (bodyAt1 t) (fun _ => bodyPost1 V c t) := by
  have hc0 : ¬cond1_0 (grid1.coords t) := fun h => h0 ((hcond1_0 t).mp h)
  have hc1 : ¬cond1_1 (grid1.coords t) := fun h => h9 ((hcond1_1 t).mp h)
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, Dat.leavesExact_idle (dat1 V c) 3 t (idle1_3 t hc1) (noFlush1_3 t hc1)]
  rw [scAt1_later V c t h0]; dsimp only
  rw [Phi1_castSucc V c t, Phi1_pos V c _ _ h0]
  iintro ⟨⟨HS0, HS1, HR, Hg⟩, Ho, ⟨%d0, H0⟩, ⟨%d1, H1⟩, ⟨%d2, H2⟩, ⟨%d3, H3⟩⟩
  iapply (run1_B c Set.univ _ _ _ _ _ _ _ _ _ _ _ _ _ hc0 hc1 (iblk1 V c 0 t) (iblk1 V c 1 t) _ _ _ _)
  isplitl [H0]; · iexact H0
  isplitl [H1]; · iexact H1
  isplitl [H2]; · iexists _; iexact H2
  isplitl [H3]; · iexact H3
  isplitl [HS0]; · iexact HS0
  isplitl [HS1]; · iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  iexists _; iexact H3

set_option maxHeartbeats 4000000 in
/-- The body at the last point: as at a middle point, and the statistics window, live here, is left at the two
    accumulators' final contents. -/
theorem sound_body1_C (c : Dev nD) (t : Fin cfg1.N) (h9 : t.val = 9) :
    bodyPre1 V c t ⊢ wp frame (wpE (defs₀ (F := F)) Variants.none c none) Set.univ (bodyAt1 t) (fun _ => bodyPost1 V c t) := by
  have h0 : t.val ≠ 0 := by omega
  have hc0 : ¬cond1_0 (grid1.coords t) := fun h => h0 ((hcond1_0 t).mp h)
  have hc1 : cond1_1 (grid1.coords t) := (hcond1_1 t).mpr h9
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2]
  rw [show (dat1 V c).leavesExact 3 t = owns (c : Thread nD τ) (st1_3 t) fullShare ((dat1 V c).after 3 t) from by
    unfold Dat.leavesExact; rw [live1_3 t hc1], after1_3]
  rw [scAt1_later V c t h0]; dsimp only
  rw [Phi1_castSucc V c t, Phi1_pos V c _ _ h0]
  iintro ⟨⟨HS0, HS1, HR, Hg⟩, Ho, ⟨%d0, H0⟩, ⟨%d1, H1⟩, ⟨%d2, H2⟩, ⟨%d3, H3⟩⟩
  iapply (run1_C c Set.univ _ _ _ _ _ _ _ _ _ _ _ _ _ hc0 hc1 (iblk1 V c 0 t) (iblk1 V c 1 t) _ _ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  iexact H3

/-- The body at any point: the point's position says which of the three cases it is. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val = 0
  · exact sound_body1_A V c t h0
  · by_cases h9 : t.val = 9
    · exact sound_body1_C V c t h9
    · exact sound_body1_B V c t h0 h9

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- and after the last point the invariant gives it back, the accumulators' named contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega), PhiA1_eq]
  iintro ⟨HS0, HS1, HR, Hg⟩
  isplitr [Hg]
  · isplitr [HR]
    · isplitl [HS0]
      · iexists _; iexact HS0
      iexists _; iexact HS1
    iexact HR
  iexact Hg

end Region1

end Cert.Kernel.Hand

end
-- ==== Proof.KbR2.lean ====
/-
  Region 2 of @main: the affine normalisation. Per grid point the body reads a block of 10000 activation rows and the
  four resident rows (mean, variance, scale, shift) and stores scale · (a − mean) · (variance + ε)^(−1/2) + shift,
  one piece covering the output block. Stated at a parameter `V`, the buffer contents the region is entered from.
-/
import proofs.«162183_j53549652247107_1_alg».proof.Proof.Gen.Kernel.Launch
import proofs.«162183_j53549652247107_1_alg».proof.Proof.Gen.Kernel.Skeleton
import proofs.«162183_j53549652247107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is
    not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole activation block and a whole resident row, as the body's loads and its store address them. -/
abbrev rX2 : Rect S10000x64 := Rect.unit (s := S10000x64) ![0, 0] S10000x64.size inb_S10000x64_S10000x64_0_0
abbrev rB2 : Rect S1x64 := Rect.unit (s := S1x64) ![0, 0] S1x64.size inb_S1x64_S1x64_0_0

/-- The output window's staging buffer after the body, from the activation block `x0` and the rows mean `x1`,
    variance `x2`, scale `x3`, shift `x4`: one piece. -/
def out2_5 (x0 : Vec F S10000x64 .f32) (x1 x2 x3 x4 : Vec F S1x64 .f32) : Vec F S10000x64 .f32 :=
  View.canon [⟨rX2, k2_pay1 (View.ld x2 rB2) (View.ld x3 rB2) (View.ld x0 rX2) (View.ld x1 rB2) (View.ld x4 rB2)⟩]

/-- The one store covers the buffer. -/
theorem cover2_5 (p0 : Vec F S10000x64 .f32) (y : S10000x64.Idx) :
    ∃ pc ∈ ([⟨rX2, p0⟩] : List (View.Piece (Elt F) S10000x64 .f32)), y ∈ pc.1.set :=
  View.cover_of_tiled [⟨rX2, p0⟩] S10000x64.size (by rfl) y

set_option maxHeartbeats 1000000 in
/-- The body on whole staging memrefs, the inputs' at their contents and the output's at anything, runs to the
    continuation holding the inputs' as they were and the output's at `out2_5` of them. -/
theorem sound_kernel2 (c : Dev nD) (E : Set ℕ) (i : grid2.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KbRun.lean ====
/-
  The run of @main: three kernel regions among five stretches of host operations. The buffer contents at every
  boundary are a fold from the launch memory (a host stretch applies its operations; a region leaves its arrays at what
  its write-backs fold to and everything else as entered); every pipeline's proof data sit at their region's entry
  contents; the launch runs the segments in order and the last thread state is read against the final memory: every
  unscoped buffer ends at the last boundary's contents. The frame (each argument array ends as launched) and the
  result array's contents are read off that.
-/
import proofs.«162183_j53549652247107_1_alg».proof.Proof.Gen.Kernel.Launch
import proofs.«162183_j53549652247107_1_alg».proof.Proof.Gen.Kernel.Skeleton
import proofs.«162183_j53549652247107_1_alg».proof.Proof.Gen.Kernel.Points
import proofs.«162183_j53549652247107_1_alg».proof.Proof.Gen.Kernel.Regions
import proofs.«162183_j53549652247107_1_alg».proof.Proof.KbR0
import proofs.«162183_j53549652247107_1_alg».proof.Proof.KbR1
import proofs.«162183_j53549652247107_1_alg».proof.Proof.KbR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)

/-- After `hostOps0`. -/
abbrev B1 : Dev nD → Valuation τ sig (Elt F) := fun c => StableHlo.after hostOps0 (B0 m ρ c)

theorem B1_of (c : Dev nD) (r : Ref sig .tc) (h : r ∉ Gen.hostOps0_W) : B1 m ρ c r = B0 m ρ c r :=
  StableHlo.after_of_writes_sub hostOps0 _ Gen.hostOps0_writes h

/-- After `hostOps0_1`. -/
abbrev B2 : Dev nD → Valuation τ sig (Elt F) := fun c => StableHlo.after hostOps0_1 (B1 m ρ c)

theorem B2_of (c : Dev nD) (r : Ref sig .tc) (h : r ∉ Gen.hostOps0_1_W) : B2 m ρ c r = B1 m ρ c r :=
  StableHlo.after_of_writes_sub hostOps0_1 _ Gen.hostOps0_1_writes h

/-- After `hostOps0_2`. -/
abbrev B3 : Dev nD → Valuation τ sig (Elt F) := fun c => StableHlo.after hostOps0_2 (B2 m ρ c)
/-- The same read at the TensorCore's references (what the next region's proof data take). -/
abbrev E3 : (c : Dev nD) → (b : Ref sig .tc) → Buf (Elt F) ((c : Thread nD τ).loc b) := fun c b => B3 m ρ c b
theorem B3_of (c : Dev nD) (r : Ref sig .tc) (h : r ∉ Gen.hostOps0_2_W) : B3 m ρ c r = B2 m ρ c r :=
  StableHlo.after_of_writes_sub hostOps0_2 _ Gen.hostOps0_2_writes h

/-- At region 0's exit: its arrays at what the pipeline leaves (an input as entered, each output's write-backs
    folded), every other buffer as entered. -/
def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- The same read at the TensorCore's references. -/
abbrev E4 : (c : Dev nD) → (b : Ref sig .tc) → Buf (Elt F) ((c : Thread nD τ).loc b) := fun c b => B4 m ρ c b
theorem hF0 (c : Dev nD) (w : Fin cfg0.W) : (dat0 (E3 m ρ) c).arrAt w cfg0.N = E4 m ρ c (Pipeline.arrRef spec0 w) :=
  (B4_arr m ρ c w).symm
theorem hrest0 (c : Dev nD) : ∀ b, b ∉ Finset.univ.image (Pipeline.arrRef spec0) → E4 m ρ c b = E3 m ρ c b :=
  fun b hb => B4_of_ne m ρ c b fun w e => hb (Finset.mem_image.mpr ⟨w, Finset.mem_univ _, e⟩)

/-- After `hostOps1`. -/
abbrev B5 : Dev nD → Valuation τ sig (Elt F) := fun c => StableHlo.after hostOps1 (B4 m ρ c)
/-- The same read at the TensorCore's references (what the next region's proof data take). -/
abbrev E5 : (c : Dev nD) → (b : Ref sig .tc) → Buf (Elt F) ((c : Thread nD τ).loc b) := fun c b => B5 m ρ c b
theorem B5_of (c : Dev nD) (r : Ref sig .tc) (h : r ∉ Gen.hostOps1_W) : B5 m ρ c r = B4 m ρ c r :=
  StableHlo.after_of_writes_sub hostOps1 _ Gen.hostOps1_writes h

/-- At region 1's exit: its arrays at what the pipeline leaves (an input as entered, each output's write-backs
    folded), every other buffer as entered. -/
def B6 (c : Dev nD) : Valuation τ sig (Elt F) :=
  Pipeline.withArrays spec1 c (B5 m ρ c) fun w => (dat1 (E5 m ρ) c).arrAt w cfg1.N
theorem B6_arr (c : Dev nD) (w : Fin cfg1.W) :
    B6 m ρ c (Proc.devRef .tc (Pipeline.arrRef spec1 w)) = (dat1 (E5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
/-- The same read at the TensorCore's references. -/
abbrev E6 : (c : Dev nD) → (b : Ref sig .tc) → Buf (Elt F) ((c : Thread nD τ).loc b) := fun c b => B6 m ρ c b
theorem hF1 (c : Dev nD) (w : Fin cfg1.W) : (dat1 (E5 m ρ) c).arrAt w cfg1.N = E6 m ρ c (Pipeline.arrRef spec1 w) :=
  (B6_arr m ρ c w).symm
theorem hrest1 (c : Dev nD) : ∀ b, b ∉ Finset.univ.image (Pipeline.arrRef spec1) → E6 m ρ c b = E5 m ρ c b :=
  fun b hb => B6_of_ne m ρ c b fun w e => hb (Finset.mem_image.mpr ⟨w, Finset.mem_univ _, e⟩)

/-- After `hostOps2`. -/
abbrev B7 : Dev nD → Valuation τ sig (Elt F) := fun c => StableHlo.after hostOps2 (B6 m ρ c)
/-- The same read at the TensorCore's references (what the next region's proof data take). -/
abbrev E7 : (c : Dev nD) → (b : Ref sig .tc) → Buf (Elt F) ((c : Thread nD τ).loc b) := fun c b => B7 m ρ c b
theorem B7_of (c : Dev nD) (r : Ref sig .tc) (h : r ∉ Gen.hostOps2_W) : B7 m ρ c r = B6 m ρ c r :=
  StableHlo.after_of_writes_sub hostOps2 _ Gen.hostOps2_writes h

/-- At region 2's exit: its arrays at what the pipeline leaves (an input as entered, each output's write-backs
    folded), every other buffer as entered. -/
def B8 (c : Dev nD) : Valuation τ sig (Elt F) :=
  Pipeline.withArrays spec2 c (B7 m ρ c) fun w => (dat2 (E7 m ρ) c).arrAt w cfg2.N
theorem B8_arr (c : Dev nD) (w : Fin cfg2.W) :
    B8 m ρ c (Proc.devRef .tc (Pipeline.arrRef spec2 w)) = (dat2 (E7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
/-- The same read at the TensorCore's references. -/
abbrev E8 : (c : Dev nD) → (b : Ref sig .tc) → Buf (Elt F) ((c : Thread nD τ).loc b) := fun c b => B8 m ρ c b
theorem hF2 (c : Dev nD) (w : Fin cfg2.W) : (dat2 (E7 m ρ) c).arrAt w cfg2.N = E8 m ρ c (Pipeline.arrRef spec2 w) :=
  (B8_arr m ρ c w).symm
theorem hrest2 (c : Dev nD) : ∀ b, b ∉ Finset.univ.image (Pipeline.arrRef spec2) → E8 m ρ c b = E7 m ρ c b :=
  fun b hb => B8_of_ne m ρ c b fun w e => hb (Finset.mem_image.mpr ⟨w, Finset.mem_univ _, e⟩)

/-! ## The proof data family and the thread state -/

/-- No pipeline has a prefetched table. -/
abbrev hadm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) hadm p) c
  | ⟨0, _⟩ => fun c => dat0 (E3 m ρ) c
  | ⟨1, _⟩ => fun c => dat1 (E5 m ρ) c
  | ⟨2, _⟩ => fun c => dat2 (E7 m ρ) c
abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the generator register at some state and the core's dues, none. -/
abbrev Rh (c : Dev nD) : sProp 𝕄 := iprop((∃ r, prngReg c r) ∗ ∃ W, owes (c : Thread nD τ) (0 : CellTallies nD τ sig Unit) W)
/-- A host stretch as a segment over the unscoped references from the contents `W`, `Rh` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tfin (c : Dev nD) : sProp 𝕄 := iprop(StableHlo.held (c : Thread nD τ) (Pipeline.ucRefs τ sig) (B8 m ρ c) ∗ ∃ r, prngReg c r)

/-- Region 1's invariant before its first point, from the generator register and the scoped rest (whatever rides between), -/
theorem hin1' (c : Dev nD) (P : sProp 𝕄) :
    iprop((∃ r, prngReg c r) ∗ P ∗ Pipeline.scopedRest (Ix := Unit) (Name := ℕ) (U := UR sig nD τ) (Lvl := ℕ) (Val := Elt F) spec1 c)
      ⊢ (dat1 (E5 m ρ) c).Φ 0 :=
  (show iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) from by
    unfold Pipeline.ΦA
    iintro ⟨Hp, -, Hr⟩
    isplitl [Hr]; · iexact Hr
    iexact Hp).trans (hin1 (E5 m ρ) c)
/-- and after its last point the invariant gives both back. -/
theorem hout1' (c : Dev nD) :
    (dat1 (E5 m ρ) c).Φ (Fin.last cfg1.N)
      ⊢ iprop((∃ r, prngReg c r) ∗ (BI.emp : sProp 𝕄) ∗ Pipeline.scopedRest (Ix := Unit) (Name := ℕ) (U := UR sig nD τ) (Lvl := ℕ) (Val := Elt F) spec1 c) :=
  (hout1 (E5 m ρ) c).trans (show (Pipeline.ΦA spec1 c : sProp 𝕄)
      ⊢ iprop((∃ r, prngReg c r) ∗ (BI.emp : sProp 𝕄) ∗ Pipeline.scopedRest (Ix := Unit) (Name := ℕ) (U := UR sig nD τ) (Lvl := ℕ) (Val := Elt F) spec1 c) from by
    unfold Pipeline.ΦA
    iintro ⟨Hr, Hp⟩
    isplitl [Hp]; · iexact Hp
    isplitr; · iempintro
    iexact Hr)

/-! ## The regions as segments -/

set_option backward.isDefEq.respectTransparency.types false in
/-- REGION 0 over the thread state: entered from every unscoped buffer at `B3`, left at `B4`. Its arrays are split
    out of the unscoped buffers and put back at the exit contents; the generator register goes into the region's
    invariant and comes out; nothing is owed; the kernel has no semaphore of its own. -/
def reg0 : Pipeline.RegionSeg (pcfgs (F := F)) hadm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ Lh lvh 0 fun _ _ => rfl
  pre c := iprop(StableHlo.held (c : Thread nD τ) (Pipeline.ucRefs τ sig) (B3 m ρ c) ∗ Rh c)
  post c := iprop(StableHlo.held (c : Thread nD τ) (Pipeline.ucRefs τ sig) (B4 m ρ c) ∗ Rh c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (E3 m ρ c) (A_eq0 (E3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (E3 m ρ c) (E4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B5`, left at `B6`. Its arrays are split
    out of the unscoped buffers and put back at the exit contents; the generator register goes into the region's
    invariant and comes out; nothing is owed; the kernel has no semaphore of its own. -/
def reg1 : Pipeline.RegionSeg (pcfgs (F := F)) hadm (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E5 m ρ) c).loose
  hwaits := Pipeline.hwaits_of_owed_zero _ _ _ _ Lh lvh 1 fun _ _ => rfl
  pre c := iprop(StableHlo.held (c : Thread nD τ) (Pipeline.ucRefs τ sig) (B5 m ρ c) ∗ Rh c)
  post c := iprop(StableHlo.held (c : Thread nD τ) (Pipeline.ucRefs τ sig) (B6 m ρ c) ∗ Rh c)
  X c := iprop(∃ r, prngReg c r)
  Y c := iprop(∃ r, prngReg c r)
  Z c := Pipeline.unscopedRest (Ix := Unit) (Name := ℕ) (U := UR sig nD τ) (Lvl := ℕ) spec1 c (E5 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (E5 m ρ c) (A_eq1 (E5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact hin1' m ρ c _
  hout c := by
    rw [Pipeline.ownSems0_none]
    exact hout1' m ρ c
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (E5 m ρ c) (E6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `B7`, left at `B8`. Its arrays are split
    out of the unscoped buffers and put back at the exit contents; the generator register goes into the region's
    invariant and comes out; nothing is owed; the kernel has no semaphore of its own. -/
def reg2 : Pipeline.RegionSeg (pcfgs (F := F)) hadm (pdats m ρ) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (E7 m ρ) c).loose
  hwaits := Pipeline.hwaits_of_owed_zero _ _ _ _ Lh lvh 2 fun _ _ => rfl
  pre c := iprop(StableHlo.held (c : Thread nD τ) (Pipeline.ucRefs τ sig) (B7 m ρ c) ∗ Rh c)
  post c := iprop(Tfin m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E7 m ρ c)
  hentry c := by
    rw [Pipeline.ownSems0_none]
    have hsplit := Pipeline.arrays_of_unscopedBufs (p := 2) (pcfgs (F := F)) hadm (pdats m ρ) launch2.win launch2.arr_whole c
      ((pdats m ρ 2 c).share_full fun _ => rfl) (E7 m ρ c) (A_eq2 (E7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m ρ) ((pdats m ρ 2 c).share_full fun _ => rfl)
      (E7 m ρ c) (E8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev hsegs : List (Pipeline.Seg (pcfgs (F := F)) hadm (pdats m ρ) () defs₀ 𝒱h Lh lvh) :=
  [ .host (hseg hostOps0 hostOps0_sub Gen.hostOps0_fresh (B0 m ρ)),
    .host (hseg hostOps0_1 hostOps0_1_sub Gen.hostOps0_1_fresh (B1 m ρ)),
    .host (hseg hostOps0_2 hostOps0_2_sub Gen.hostOps0_2_fresh (B2 m ρ)),
    .region (reg0 m ρ),
    .host (hseg hostOps1 hostOps1_sub Gen.hostOps1_fresh (B4 m ρ)),
    .region (reg1 m ρ),
    .host (hseg hostOps2 hostOps2_sub Gen.hostOps2_fresh (B6 m ρ)),
    .region (reg2 m ρ) ]
/-- @main IS the run of the segments. -/
theorem main_run (c : Dev nD) : main (F := F) c = Pipeline.Seg.run (hsegs m ρ) := (main_chain c).trans (by chain_rfl)

set_option backward.isDefEq.respectTransparency.types false in
/-- THE RUN: from any memory with zero counters every weakly fair execution of @main on the TensorCores terminates,
    nothing faulting, and in every final state every unscoped buffer holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B8 m ρ c b) :=
  Pipeline.θ_run_regions_kit (pcfgs (F := F)) hadm (pdats m ρ) () cellOf_inj emb₁ defs₀ 𝒱h Lh lvh m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rh c)) (Tₙ := Tfin m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h => h)

/-! ## The arguments end as launched, and the result array -/

/-- Through the first three host stretches a buffer none of them writes keeps its launch contents. -/
theorem B3_of_B0 (c : Dev nD) (r : Ref sig .tc) (h0 : r ∉ Gen.hostOps0_W) (h1 : r ∉ Gen.hostOps0_1_W) (h2 : r ∉ Gen.hostOps0_2_W) :
    B3 m ρ c r = B0 m ρ c r :=
  (B3_of m ρ c r h2).trans ((B2_of m ρ c r h1).trans (B1_of m ρ c r h0))

/-- Region 0 leaves an INPUT window's array as it found it. -/
theorem B4_in (c : Dev nD) (w : Fin cfg0.W) (hw : (cfg0.win w).isOut = false) :
    B4 m ρ c (Proc.devRef .tc (Pipeline.arrRef spec0 w)) = B3 m ρ c (Proc.devRef .tc (Pipeline.arrRef spec0 w)) :=
  (B4_arr m ρ c w).trans (((dat0 (E3 m ρ) c).arrAt_in w hw _).trans (A_eq0 (E3 m ρ) c w))

/-- A buffer that no host stretch writes, that region 0 leaves as found, and that is no array of regions 1 and 2 ends at
    its launch contents. -/
theorem B8_of_launch (c : Dev nD) (r : Ref sig .tc) (h0 : r ∉ Gen.hostOps0_W) (h1 : r ∉ Gen.hostOps0_1_W) (h2 : r ∉ Gen.hostOps0_2_W)
    (h4 : r ∉ Gen.hostOps1_W) (h6 : r ∉ Gen.hostOps2_W)
    (hr0 : B4 m ρ c (Proc.devRef .tc r) = B3 m ρ c (Proc.devRef .tc r)) (hr1 : ∀ w, Pipeline.arrRef spec1 w ≠ r) (hr2 : ∀ w, Pipeline.arrRef spec2 w ≠ r) :
    B8 m ρ c (Proc.devRef .tc r) = m ((c : Thread nD τ).loc r) :=
  (B8_of_ne m ρ c r hr2).trans <| (B7_of m ρ c r h6).trans <| (B6_of_ne m ρ c r hr1).trans <| (B5_of m ρ c r h4).trans <|
    hr0.trans <| (B3_of_B0 m ρ c r h0 h1 h2).trans rfl

theorem B8_main_arg0 (c : Dev nD) : B8 m ρ c (Proc.devRef .tc main_arg0) = m ((c : Thread nD τ).loc main_arg0) :=
  B8_of_launch m ρ c main_arg0 (by decide) (by decide) (by decide) (by decide) (by decide) (B4_in m ρ c 0 rfl) (by decide) (by decide)
theorem B8_main_arg1 (c : Dev nD) : B8 m ρ c (Proc.devRef .tc main_arg1) = m ((c : Thread nD τ).loc main_arg1) :=
  B8_of_launch m ρ c main_arg1 (by decide) (by decide) (by decide) (by decide) (by decide) (B4_of_ne m ρ c main_arg1 (by decide)) (by decide) (by decide)
theorem B8_main_arg2 (c : Dev nD) : B8 m ρ c (Proc.devRef .tc main_arg2) = m ((c : Thread nD τ).loc main_arg2) :=
  B8_of_launch m ρ c main_arg2 (by decide) (by decide) (by decide) (by decide) (by decide) (B4_in m ρ c 1 rfl) (by decide) (by decide)
theorem B8_main_arg3 (c : Dev nD) : B8 m ρ c (Proc.devRef .tc main_arg3) = m ((c : Thread nD τ).loc main_arg3) :=
  B8_of_launch m ρ c main_arg3 (by decide) (by decide) (by decide) (by decide) (by decide) (B4_of_ne m ρ c main_arg3 (by decide)) (by decide) (by decide)
theorem B8_main_arg4 (c : Dev nD) : B8 m ρ c (Proc.devRef .tc main_arg4) = m ((c : Thread nD τ).loc main_arg4) :=
  B8_of_launch m ρ c main_arg4 (by decide) (by decide) (by decide) (by decide) (by decide) (B4_of_ne m ρ c main_arg4 (by decide)) (by decide) (by decide)
theorem B8_main_arg5 (c : Dev nD) : B8 m ρ c (Proc.devRef .tc main_arg5) = m ((c : Thread nD τ).loc main_arg5) :=
  B8_of_launch m ρ c main_arg5 (by decide) (by decide) (by decide) (by decide) (by decide) (B4_of_ne m ρ c main_arg5 (by decide)) (by decide) (by decide)

/-- The result array at the end: what region 2's write-backs fold to. -/
theorem B8_main_v57 (c : Dev nD) : B8 m ρ c (Proc.devRef .tc main_v57) = (dat2 (E7 m ρ) c).arrAt 5 cfg2.N :=
  B8_arr m ρ c 5

/-- THE FRAME, at any `F`: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun r h c => ⟨(h c _ (mem_uc main_arg0 (by decide))).trans (B8_main_arg0 m ρ c),
    (h c _ (mem_uc main_arg1 (by decide))).trans (B8_main_arg1 m ρ c),
    (h c _ (mem_uc main_arg2 (by decide))).trans (B8_main_arg2 m ρ c),
    (h c _ (mem_uc main_arg3 (by decide))).trans (B8_main_arg3 m ρ c),
    (h c _ (mem_uc main_arg4 (by decide))).trans (B8_main_arg4 m ρ c),
    (h c _ (mem_uc main_arg5 (by decide))).trans (B8_main_arg5 m ρ c)⟩) (run_all m ρ)

/-- THE RUN WITH THE RESULT NAMED: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v57) = B8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h c _ (mem_uc main_v57 (by decide)),
    (h c _ (mem_uc main_arg0 (by decide))).trans (B8_main_arg0 m ρ c),
    (h c _ (mem_uc main_arg1 (by decide))).trans (B8_main_arg1 m ρ c),
    (h c _ (mem_uc main_arg2 (by decide))).trans (B8_main_arg2 m ρ c),
    (h c _ (mem_uc main_arg3 (by decide))).trans (B8_main_arg3 m ρ c),
    (h c _ (mem_uc main_arg4 (by decide))).trans (B8_main_arg4 m ρ c),
    (h c _ (mem_uc main_arg5 (by decide))).trans (B8_main_arg5 m ρ c)⟩) (run_all m ρ)

end Cert.Kernel.Hand

end
-- ==== Proof.KiR0.lean ====
/-
  Region 0 of @main: the dense linear transform, one block of 10000 rows of `x` against the whole 64 × 64 weight
  matrix per grid point. Stated at a parameter `V`, the buffer contents the region is entered from: each window's
  block at a point, what the body leaves in the output window's staging buffer (the matrix product of the point's
  row block with the weights, as one piece covering the buffer), the body's triple, the proof data of the pipeline
  and the body obligation at every point.
-/
import proofs.«162183_j53549652247107_1_alg».proof.Proof.Gen.KernelIdeal.Launch
import proofs.«162183_j53549652247107_1_alg».proof.Proof.Gen.KernelIdeal.Skeleton
import proofs.«162183_j53549652247107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is
    not fetched its block index has not moved. The row-block window: -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the weight window (one block, resident): -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole row block and the whole weight matrix, as the body's loads and its store address them. -/
abbrev rX0 : Rect S10000x64 := Rect.unit (s := S10000x64) ![0, 0] S10000x64.size inb_S10000x64_S10000x64_0_0
abbrev rW0 : Rect S64x64 := Rect.unit (s := S64x64) ![0, 0] S64x64.size inb_S64x64_S64x64_0_0

/-- The output window's staging buffer after the body: one piece, the product of the row block with the weights. -/
def out0_2 (x0 : Vec F S10000x64 .f32) (x1 : Vec F S64x64 .f32) : Vec F S10000x64 .f32 :=
  View.canon [⟨rX0, k0_pay1 (View.ld x0 rX0) (View.ld x1 rW0)⟩]

/-- The one store covers the buffer. -/
theorem cover0_2 (p0 : Vec F S10000x64 .f32) (y : S10000x64.Idx) :
    ∃ pc ∈ ([⟨rX0, p0⟩] : List (View.Piece (Elt F) S10000x64 .f32)), y ∈ pc.1.set :=
  View.cover_of_tiled [⟨rX0, p0⟩] S10000x64.size (by rfl) y

set_option maxHeartbeats 1000000 in
/-- The body on whole staging memrefs, the inputs' at contents `x0`, `x1` and the output's at anything, runs to the
    continuation holding the inputs' as they were and the output's at `out0_2 x0 x1`. -/
theorem sound_kernel0 (c : Dev nD) (E : Set ℕ) (i : grid0.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiR1.lean ====
/-
  Region 1 of @main: bias, rectifier and the column statistics. Per grid point the body adds the bias row to a block
  of 10000 rows, clamps at zero, stores the block, and adds the block's column sums and column sums of squares into two
  one-row accumulators it keeps between points (cleared at the first point); at the last point it copies the two
  accumulators into the two rows of the statistics output.
-/
import proofs.«162183_j53549652247107_1_alg».proof.Proof.Gen.KernelIdeal.Launch
import proofs.«162183_j53549652247107_1_alg».proof.Proof.Gen.KernelIdeal.Skeleton
import proofs.«162183_j53549652247107_1_alg».proof.Proof.Gen.KernelIdeal.Points
import Idealize.ShloMosaic.Lib.ValueIdx
import Idealize.ShloMosaic.Lib.Pipeline.FrameBody
import Idealize.ShloMosaic.Lib.Pipeline.Value
import Idealize.ShloMosaic.Lib.Pipeline.Kit
import Idealize.ShloMosaic.Lib.Pipeline.RegionsLoop
import Idealize.ShloMosaic.Lib.Pipeline.FrameSuffix
import Idealize.ShloMosaic.Lib.Memref
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two accumulators, whole scoped buffers of the kernel's own. -/
abbrev scM1_0 : Memref sig .tc .vmem S1x64 .f32 := Memref.whole cc1_scratch0
abbrev scM1_1 : Memref sig .tc .vmem S1x64 .f32 := Memref.whole cc1_scratch1

/-! ## The two conditionals and the idle window -/

/-- The first conditional's test, from the grid coordinate: the point is the first. -/
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's test: the point is the last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem live1_3 : ∀ t : Fin cfg1.N, cond1_1 (grid1.coords t) → cfg1.idle 3 (grid1.coords t) = false := by decide +kernel

/-! ## What the body's stores leave -/

/-- The rectangles the body loads and stores through: the whole block, a whole row, and the two rows of the
    statistics buffer. -/
abbrev rX1 : Rect S10000x64 := Rect.unit (s := S10000x64) ![0, 0] S10000x64.size inb_S10000x64_S10000x64_0_0
abbrev rB1 : Rect S1x64 := Rect.unit (s := S1x64) ![0, 0] S1x64.size inb_S1x64_S1x64_0_0
abbrev rS1_0 : Rect S2x64 := Rect.unit (s := S2x64) ![0, 0] S1x64.size inb_S2x64_S1x64_0_0
abbrev rS1_1 : Rect S2x64 := Rect.unit (s := S2x64) ![1, 0] S1x64.size inb_S2x64_S1x64_1_0

/-- The activation block the body stores: the rectified sum of the input block and the bias row. -/
def aOut (x : Vec F S10000x64 .f32) (b : Vec F S1x64 .f32) : Vec F S10000x64 .f32 :=
  View.canon [⟨rX1, k1_pay3 (View.ld x rX1) (View.ld b rB1)⟩]
/-- An accumulator as the first point's clearing leaves it. -/
def zero1 : Vec F S1x64 .f32 := View.canon [⟨rB1, k1_pay1 (F := F)⟩]
/-- The sum accumulator after the body, from its contents `s` when the body reads it. -/
def sumOut (x : Vec F S10000x64 .f32) (b : Vec F S1x64 .f32) (s : Vec F S1x64 .f32) : Vec F S1x64 .f32 :=
  View.canon [⟨rB1, k1_pay4 (View.ld x rX1) (View.ld b rB1) (View.ld s rB1)⟩]
/-- The sum-of-squares accumulator after the body, likewise. -/
def sqOut (x : Vec F S10000x64 .f32) (b : Vec F S1x64 .f32) (s : Vec F S1x64 .f32) : Vec F S1x64 .f32 :=
  View.canon [⟨rB1, k1_pay5 (View.ld x rX1) (View.ld b rB1) (View.ld s rB1)⟩]
/-- The statistics block the last point stores: row 0 the sum accumulator, row 1 the sum-of-squares accumulator
    (the later store first). -/
def statsOut (s0 s1 : Vec F S1x64 .f32) : Vec F S2x64 .f32 :=
  View.canon [⟨rS1_1, k1_pay7 (View.ld s1 rB1)⟩, ⟨rS1_0, k1_pay6 (View.ld s0 rB1)⟩]

/-- The offsets of a whole-buffer rectangle are zero on both axes. -/
theorem zeros1 : (![0, 0] : Fin 2 → ℕ) = fun _ => 0 := by funext a; fin_cases a <;> rfl

/-- One store through the whole block covers it; -/
theorem coverX1 (p : Vec F S10000x64 .f32) (y : S10000x64.Idx) :
    ∃ pc ∈ ([⟨rX1, p⟩] : List (View.Piece (Elt F) S10000x64 .f32)), y ∈ pc.1.set :=
  View.cover_of_tiled [⟨rX1, p⟩] S10000x64.size (by rfl) y
/-- one store through a whole row covers it, -/
theorem coverB1 (p : Vec F S1x64 .f32) (y : S1x64.Idx) :
    ∃ pc ∈ ([⟨rB1, p⟩] : List (View.Piece (Elt F) S1x64 .f32)), y ∈ pc.1.set :=
  View.cover_of_tiled [⟨rB1, p⟩] S1x64.size (by rfl) y
/-- and so does it before an earlier store; -/
theorem coverB1' (p q : Vec F S1x64 .f32) (y : S1x64.Idx) :
    ∃ pc ∈ ([⟨rB1, p⟩, ⟨rB1, q⟩] : List (View.Piece (Elt F) S1x64 .f32)), y ∈ pc.1.set :=
  let ⟨pc, hm, hy⟩ := coverB1 p y
  ⟨pc, List.mem_cons.mpr (Or.inl (List.mem_singleton.mp hm)), hy⟩
/-- the two row stores cover the statistics buffer. -/
theorem coverS1 (p q : Vec F S1x64 .f32) (y : S2x64.Idx) :
    ∃ pc ∈ ([⟨rS1_1, p⟩, ⟨rS1_0, q⟩] : List (View.Piece (Elt F) S2x64 .f32)), y ∈ pc.1.set :=
  View.cover_of_tiledL [⟨rS1_1, p⟩, ⟨rS1_0, q⟩] S1x64.size (by rfl) y

/-- A load of a whole row after one store through it reads what that store leaves. -/
theorem readCovB1 {κ : Kind} {sp : Space} (v : View sig κ sp S1x64 .f32) (w : Vec F S1x64 .f32) :
    v.readCov [(⟨rB1, w⟩ : View.Piece (Elt F) S1x64 .f32)] rB1.toLoadRect = View.ld (View.canon [(⟨rB1, w⟩ : View.Piece (Elt F) S1x64 .f32)]) rB1 :=
  View.readCov_eq_canon_ld v _ rB1 (coverB1 w)

/-- The two clearing stores write the same row of zeros. -/
theorem pay2_eq_pay1 : (k1_pay2 : FVec F S1x64 .f32) = k1_pay1 := rfl

/-! ## The stored pieces as the body's payloads -/

/-- The stored pieces as the payloads of the body (each store covers its buffer, each load reads a whole buffer). -/
theorem aOut_eq (x : Vec F S10000x64 .f32) (b : Vec F S1x64 .f32) : aOut x b = k1_pay3 x b := by
  unfold aOut
  rw [View.canon_unit_zero (Val := Elt F) (S := S10000x64) (e := .f32) zeros1, View.ld_unit_zero (Val := Elt F) (S := S10000x64) (e := .f32) zeros1,
    View.ld_unit_zero (Val := Elt F) (S := S1x64) (e := .f32) zeros1]
theorem zero1_eq : (zero1 : Vec F S1x64 .f32) = k1_pay1 := by
  unfold zero1
  rw [View.canon_unit_zero (Val := Elt F) (S := S1x64) (e := .f32) zeros1]
theorem zero1_eq' : (zero1 : Vec F S1x64 .f32) = k1_pay2 := zero1_eq.trans pay2_eq_pay1.symm
theorem sumOut_eq (x : Vec F S10000x64 .f32) (b s : Vec F S1x64 .f32) : sumOut x b s = k1_pay4 x b s := by
  unfold sumOut
  rw [View.canon_unit_zero (Val := Elt F) (S := S1x64) (e := .f32) zeros1, View.ld_unit_zero (Val := Elt F) (S := S10000x64) (e := .f32) zeros1,
    View.ld_unit_zero (Val := Elt F) (S := S1x64) (e := .f32) zeros1, View.ld_unit_zero (Val := Elt F) (S := S1x64) (e := .f32) zeros1]
theorem sqOut_eq (x : Vec F S10000x64 .f32) (b s : Vec F S1x64 .f32) : sqOut x b s = k1_pay5 x b s := by
  unfold sqOut
  rw [View.canon_unit_zero (Val := Elt F) (S := S1x64) (e := .f32) zeros1, View.ld_unit_zero (Val := Elt F) (S := S10000x64) (e := .f32) zeros1,
    View.ld_unit_zero (Val := Elt F) (S := S1x64) (e := .f32) zeros1, View.ld_unit_zero (Val := Elt F) (S := S1x64) (e := .f32) zeros1]

/-- Row 0 of the statistics buffer, as an index of the buffer, is the row-0 store's rectangle at the same column; -/
theorem embS1_0 (j : Fin 64) : rS1_0.emb (ValueIdx.ix2 (0 : Fin 1) j) = (ValueIdx.ix2 (0 : Fin 2) j : S2x64.Idx) := by
  funext a; apply Fin.ext
  match a with
  | ⟨0, _⟩ => rfl
  | ⟨1, _⟩ => simp [Rect.emb_apply]
/-- row 1 likewise; -/
theorem embS1_1 (j : Fin 64) : rS1_1.emb (ValueIdx.ix2 (0 : Fin 1) j) = (ValueIdx.ix2 (1 : Fin 2) j : S2x64.Idx) := by
  funext a; apply Fin.ext
  match a with
  | ⟨0, _⟩ => rfl
  | ⟨1, _⟩ => simp [Rect.emb_apply]
/-- and row 0 is off the row-1 store's rectangle. -/
theorem not_memS1_1 (j : Fin 64) : (ValueIdx.ix2 (0 : Fin 2) j : S2x64.Idx) ∉ rS1_1.set := by
  intro h
  obtain ⟨k, hk, e⟩ := (rS1_1.toLoadRect.mem_set.mp h) 0
  have e' : (0 : ℕ) = 1 + 1 * k := e
  omega

/-- The statistics block index by index: its two rows are the two accumulators' rows. -/
theorem statsOut_row0 (s0 s1 : Vec F S1x64 .f32) (j : Fin 64) : statsOut s0 s1 (ValueIdx.ix2 (0 : Fin 2) j) = k1_pay6 s0 (ValueIdx.ix2 (0 : Fin 1) j) := by
  unfold statsOut
  refine (View.canon_cons_of_not_mem (Val := Elt F) (⟨rS1_1, k1_pay7 (View.ld s1 rB1)⟩ : View.Piece (Elt F) S2x64 .f32)
    [⟨rS1_0, k1_pay6 (View.ld s0 rB1)⟩] (not_memS1_1 j)).trans ?_
  refine (congrArg _ (embS1_0 j).symm).trans ?_
  refine (View.canon_cons_emb (Val := Elt F) (s := S2x64) (e := .f32) rS1_0 (k1_pay6 (View.ld s0 rB1)) [] (ValueIdx.ix2 (0 : Fin 1) j)).trans ?_
  rw [View.ld_unit_zero (Val := Elt F) (S := S1x64) (e := .f32) zeros1]
theorem statsOut_row1 (s0 s1 : Vec F S1x64 .f32) (j : Fin 64) : statsOut s0 s1 (ValueIdx.ix2 (1 : Fin 2) j) = k1_pay7 s1 (ValueIdx.ix2 (0 : Fin 1) j) := by
  unfold statsOut
  refine (congrArg _ (embS1_1 j).symm).trans ?_
  refine (View.canon_cons_emb (Val := Elt F) (s := S2x64) (e := .f32) rS1_1 (k1_pay7 (View.ld s1 rB1)) [⟨rS1_0, k1_pay6 (View.ld s0 rB1)⟩] (ValueIdx.ix2 (0 : Fin 1) j)).trans ?_
  rw [View.ld_unit_zero (Val := Elt F) (S := S1x64) (e := .f32) zeros1]

/-! ## The body on whole memrefs, case by case -/

set_option maxHeartbeats 1000000 in
/-- THE FIRST POINT (the first conditional taken, the second not): from the inputs' memrefs at `x0`, `x1`, the
    statistics buffer at `xi3`, the output block's and both accumulators' at anything, the body runs to the
    continuation holding the inputs' and the statistics buffer as they were, the output block at `aOut` and the
    accumulators at the sums over this block alone, taken from the cleared row. -/
theorem run1_A (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (arg4 : Memref sig .tc .vmem S2x64 .f32) (harg4 : arg4.IsWhole) (arg5 : Memref sig .tc .vmem S1x64 .f32) (harg5 : arg5.IsWhole)
    (arg6 : Memref sig .tc .vmem S1x64 .f32) (harg6 : arg6.IsWhole) (hc0 : cond1_0 i) (hc1 : ¬cond1_1 i)
    (x0 : Vec F S10000x64 .f32) (x1 : Vec F S1x64 .f32) (xi3 : Vec F S2x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (aOut x0 x1)
            ∗ owns (c : Thread nD τ) arg4 fullShare xi3 ∗ owns (c : Thread nD τ) arg5 fullShare (sumOut x0 x1 zero1) ∗ owns (c : Thread nD τ) arg6 fullShare (sqOut x0 x1 zero1)) -∗ K ⟨⟩))
      ⊢ wp frame (wpE (defs₀ (F := F)) Variants.none c none) E (cc1__relu_stats_kernel i arg1 harg1 arg2 harg2 arg3 harg3 arg4 harg4 arg5 harg5 arg6 harg6) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%f3, %hf3, H3⟩, ⟨%d4, %f4, -, H4⟩, ⟨%d5, %f5, -, H5⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverX1 _)
  isplitl [H3]
  · iexists f3; isplitr; · ipureintro; rfl
    iexact H3
  isplitl [H4]
  · iexists _; isplitr
    swap; · iexact H4
    ipureintro
    sl_unfold_run_names
    refine (View.read_writes_eq_canon _ _ _ (coverB1' _ _)).trans ?_
    rw [readCovB1]
    refine (View.canon_cons_unit_zero (Val := Elt F) (S := S1x64) (e := .f32) zeros1 _ _ _).trans ?_
    unfold sumOut zero1
    exact (View.canon_unit_zero (Val := Elt F) (S := S1x64) (e := .f32) zeros1 _ _).symm
  iexists _; isplitr
  swap; · iexact H5
  ipureintro
  sl_unfold_run_names
  refine (View.read_writes_eq_canon _ _ _ (coverB1' _ _)).trans ?_
  rw [readCovB1, pay2_eq_pay1]
  refine (View.canon_cons_unit_zero (Val := Elt F) (S := S1x64) (e := .f32) zeros1 _ _ _).trans ?_
  unfold sqOut zero1
  exact (View.canon_unit_zero (Val := Elt F) (S := S1x64) (e := .f32) zeros1 _ _).symm

set_option maxHeartbeats 1000000 in
/-- A MIDDLE POINT (neither conditional taken): as at the first point, but the accumulators come in at `s0`, `s1`
    and go out with this block's sums added. -/
theorem run1_B (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (arg4 : Memref sig .tc .vmem S2x64 .f32) (harg4 : arg4.IsWhole) (arg5 : Memref sig .tc .vmem S1x64 .f32) (harg5 : arg5.IsWhole)
    (arg6 : Memref sig .tc .vmem S1x64 .f32) (harg6 : arg6.IsWhole) (hc0 : ¬cond1_0 i) (hc1 : ¬cond1_1 i)
    (x0 : Vec F S10000x64 .f32) (x1 : Vec F S1x64 .f32) (xi3 : Vec F S2x64 .f32) (s0 s1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare (aOut x0 x1)
            ∗ owns (c : Thread nD τ) arg4 fullShare xi3 ∗ owns (c : Thread nD τ) arg5 fullShare (sumOut x0 x1 s0) ∗ owns (c : Thread nD τ) arg6 fullShare (sqOut x0 x1 s1)) -∗ K ⟨⟩))
      ⊢ wp frame (wpE (defs₀ (F := F)) Variants.none c none) E (cc1__relu_stats_kernel i arg1 harg1 arg2 harg2 arg3 harg3 arg4 harg4 arg5 harg5 arg6 harg6) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
  subst hf0; subst hf1; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverX1 _)
  isplitl [H3]
  · iexists f3; isplitr; · ipureintro; rfl
    iexact H3
  isplitl [H4]
  · iexists _; isplitr
    swap; · iexact H4
    ipureintro
    exact View.read_writes_eq_canon _ _ _ (coverB1 _)
  iexists _; isplitr
  swap; · iexact H5
  ipureintro
  exact View.read_writes_eq_canon _ _ _ (coverB1 _)

set_option maxHeartbeats 1000000 in
/-- THE LAST POINT (the second conditional taken, the first not): as at a middle point, and the statistics buffer,
    at anything before, goes out holding the two updated accumulators in its two rows. -/
theorem run1_C (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (arg4 : Memref sig .tc .vmem S2x64 .f32) (harg4 : arg4.IsWhole) (arg5 : Memref sig .tc .vmem S1x64 .f32) (harg5 : arg5.IsWhole)
    (arg6 : Memref sig .tc .vmem S1x64 .f32) (harg6 : arg6.IsWhole) (hc0 : ¬cond1_0 i) (hc1 : cond1_1 i)
    (x0 : Vec F S10000x64 .f32) (x1 : Vec F S1x64 .f32) (s0 s1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare (aOut x0 x1)
            ∗ owns (c : Thread nD τ) arg4 fullShare (statsOut (sumOut x0 x1 s0) (sqOut x0 x1 s1)) ∗ owns (c : Thread nD τ) arg5 fullShare (sumOut x0 x1 s0) ∗ owns (c : Thread nD τ) arg6 fullShare (sqOut x0 x1 s1)) -∗ K ⟨⟩))
      ⊢ wp frame (wpE (defs₀ (F := F)) Variants.none c none) E (cc1__relu_stats_kernel i arg1 harg1 arg2 harg2 arg3 harg3 arg4 harg4 arg5 harg5 arg6 harg6) K := by
  simp only [cc1__relu_stats_kernel_eq_skeleton]; unfold cc1__relu_stats_kernel_skel
  unfold owns
  iintro ⟨⟨%f0, %hf0, H0⟩, ⟨%f1, %hf1, H1⟩, ⟨%d2, %f2, -, H2⟩, ⟨%d3, %f3, -, H3⟩, ⟨%f4, %hf4, H4⟩, ⟨%f5, %hf5, H5⟩, Hk⟩
  subst hf0; subst hf1; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverX1 _)
  isplitl [H3]
  · iexists _; isplitr
    swap; · iexact H3
    ipureintro
    sl_unfold_run_names
    refine (View.read_writes_eq_canon _ _ _ (coverS1 _ _)).trans ?_
    rw [readCovB1, readCovB1]
    rfl
  isplitl [H4]
  · iexists _; isplitr
    swap; · iexact H4
    ipureintro
    sl_unfold_run_names
    exact View.read_writes_eq_canon _ _ _ (coverB1 _)
  iexists _; isplitr
  swap; · iexact H5
  ipureintro
  sl_unfold_run_names
  exact View.read_writes_eq_canon _ _ _ (coverB1 _)

/-! ## The accumulation over the grid -/

/-- THE ACCUMULATION. The two accumulators after the body at position `n`: the first point starts from the cleared
    accumulators, every later point from what the point before left. -/
def scAt1 (c : Dev nD) : (n : ℕ) → n < cfg1.N → Vec F S1x64 .f32 × Vec F S1x64 .f32
  | 0, hn => (sumOut (iblk1 V c 0 ⟨0, hn⟩) (iblk1 V c 1 ⟨0, hn⟩) zero1, sqOut (iblk1 V c 0 ⟨0, hn⟩) (iblk1 V c 1 ⟨0, hn⟩) zero1)
  | n + 1, hn => (sumOut (iblk1 V c 0 ⟨n + 1, hn⟩) (iblk1 V c 1 ⟨n + 1, hn⟩) (scAt1 c n (Nat.lt_of_succ_lt hn)).1,
      sqOut (iblk1 V c 0 ⟨n + 1, hn⟩) (iblk1 V c 1 ⟨n + 1, hn⟩) (scAt1 c n (Nat.lt_of_succ_lt hn)).2)

/-- At the first point: this block's sums from the cleared row. -/
theorem scAt1_first (c : Dev nD) (t : Fin cfg1.N) (h0 : t.val = 0) :
    scAt1 V c t.val t.isLt = (sumOut (iblk1 V c 0 t) (iblk1 V c 1 t) zero1, sqOut (iblk1 V c 0 t) (iblk1 V c 1 t) zero1) := by
  obtain ⟨n, hn⟩ := t
  cases n with
  | zero => rfl
  | succ n => exact absurd h0 (Nat.succ_ne_zero n)

/-- At a later point: this block's sums added to what the point before left. -/
theorem scAt1_later (c : Dev nD) (t : Fin cfg1.N) (h0 : t.val ≠ 0) :
    scAt1 V c t.val t.isLt
      = (sumOut (iblk1 V c 0 t) (iblk1 V c 1 t) (scAt1 V c (t.val - 1) (Nat.lt_of_le_of_lt (Nat.sub_le _ _) t.isLt)).1,
         sqOut (iblk1 V c 0 t) (iblk1 V c 1 t) (scAt1 V c (t.val - 1) (Nat.lt_of_le_of_lt (Nat.sub_le _ _) t.isLt)).2) := by
  obtain ⟨n, hn⟩ := t
  cases n with
  | zero => exact absurd rfl h0
  | succ n => rfl

/-! ## The invariant -/

/-- The scoped buffers of the core that are neither a staging buffer of this call nor one of its accumulators, at
    some contents each: carried unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two accumulators as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ rest1 c) ∗ (∃ r, prngReg c r)) := by
  unfold Pipeline.ΦA
  rw [Pipeline.scopedRest_split_of_list spec1 c [cc1_scratch0, cc1_scratch1] (by decide) (by decide)]
  simp only [scM1_0, scM1_1, owns_whole, bigSepL_cons_cons, bigSepL_singleton]; try rfl

/-- The invariant before position `n`: before the first point what the launch hands over; afterwards the two
    accumulators at what the point before left in them, the other scoped buffers and the generator register at
    something. -/
def Phi1 (c : Dev nD) : (n : ℕ) → n ≤ cfg1.N → sProp 𝕄
  | 0, _ => Pipeline.ΦA spec1 c
  | n + 1, hn => iprop(owns (c : Thread nD τ) scM1_0 fullShare (scAt1 V c n hn).1 ∗ owns (c : Thread nD τ) scM1_1 fullShare (scAt1 V c n hn).2
      ∗ rest1 c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1_0 fullShare (scAt1 V c n hn).1 ∗ owns (c : Thread nD τ) scM1_1 fullShare (scAt1 V c n hn).2
      ∗ rest1 c ∗ (∃ r, prngReg c r)) := rfl

theorem Phi1_pos (c : Dev nD) (n : ℕ) (h : n ≤ cfg1.N) (hz : n ≠ 0) :
    Phi1 V c n h = iprop(owns (c : Thread nD τ) scM1_0 fullShare (scAt1 V c (n - 1) (by omega)).1 ∗ owns (c : Thread nD τ) scM1_1 fullShare (scAt1 V c (n - 1) (by omega)).2
      ∗ rest1 c ∗ (∃ r, prngReg c r)) := by
  cases n with
  | zero => exact absurd rfl hz
  | succ n => rfl

/-! ## The pipeline's proof data -/

/-- The proof data of pipeline 1 on core `c`: the arrays as the region finds them; after the body at point `t`
    each input's buffer at its block, the activation window's at `aOut` of the input blocks, the statistics
    window's at the two accumulators as they then stand (written back at the last point only); the invariant
    `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => aOut (iblk1 V c 0 t) (iblk1 V c 1 t)
    | ⟨3, _⟩ => statsOut (scAt1 V c t.val t.isLt).1 (scAt1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = aOut (iblk1 V c 0 t) (iblk1 V c 1 t) := by dsimp only [dat1]
theorem after1_3 (c : Dev nD) (t : Fin cfg1.N) : (dat1 V c).after 3 t = statsOut (scAt1 V c t.val t.isLt).1 (scAt1 V c t.val t.isLt).2 := by dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- An input window's current staging buffer holds its block at every point, fetched there or not: where it is
    not fetched its block index has not moved. The row-block window: -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- the bias window (one block, resident): -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: each window's buffer at what the body leaves, the statistics window's untouched where the
    point is not the last. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The three windows that are never idle are left at what the proof data names. -/
theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [live1_0 t], after1_0]
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [live1_1 t], after1_1]
theorem leaves1_2 (c : Dev nD) (t : Fin cfg1.N) :
    (dat1 V c).leavesExact 2 t = owns (c : Thread nD τ) (st1_2 t) fullShare (aOut (iblk1 V c 0 t) (iblk1 V c 1 t)) := by
  rw [show (dat1 V c).leavesExact 2 t = owns (c : Thread nD τ) (st1_2 t) fullShare ((dat1 V c).after 2 t) from by
    unfold Dat.leavesExact; rw [live1_2 t], after1_2]

set_option maxHeartbeats 4000000 in
/-- The body at the first point: the invariant is what the launch handed over, so both accumulators are at anything;
    the body clears them and leaves this block's sums. -/
theorem sound_body1_A (c : Dev nD) (t : Fin cfg1.N) (h0 : t.val = 0) :
    bodyPre1 V c t ⊢ wp frame (wpE (defs₀ (F := F)) Variants.none c none) Set.univ (bodyAt1 t) (fun _ => bodyPost1 V c t) := by
  have hN : t.val < 10 := lt_of_lt_of_eq t.isLt (show cfg1.N = 10 from N_1)
  have hc0 : cond1_0 (grid1.coords t) := (hcond1_0 t).mpr h0
  have hc1 : ¬cond1_1 (grid1.coords t) := fun h => by have := (hcond1_1 t).mp h; omega
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, Dat.leavesExact_idle (dat1 V c) 3 t (idle1_3 t hc1) (noFlush1_3 t hc1)]
  rw [scAt1_first V c t h0]; dsimp only
  rw [Phi1_castSucc V c t, Phi1_zero V c _ _ h0, PhiA1_eq]
  iintro ⟨⟨⟨⟨HS0, HS1⟩, HR⟩, Hg⟩, Ho, ⟨%d0, H0⟩, ⟨%d1, H1⟩, ⟨%d2, H2⟩, ⟨%d3, H3⟩⟩
  iapply (run1_A c Set.univ _ _ _ _ _ _ _ _ _ _ _ _ _ hc0 hc1 (iblk1 V c 0 t) (iblk1 V c 1 t) _ _)
  isplitl [H0]; · iexact H0
  isplitl [H1]; · iexact H1
  isplitl [H2]; · iexists _; iexact H2
  isplitl [H3]; · iexact H3
  isplitl [HS0]; · iexact HS0
  isplitl [HS1]; · iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  iexists _; iexact H3

set_option maxHeartbeats 4000000 in
/-- The body at a middle point: the invariant holds the accumulators at what the point before left; the body adds this
    block's sums. -/
theorem sound_body1_B (c : Dev nD) (t : Fin cfg1.N) (h0 : t.val ≠ 0) (h9 : t.val ≠ 9) :
    bodyPre1 V c t ⊢ wp frame (wpE (defs₀ (F := F)) Variants.none c none) Set.univ (bodyAt1 t) (fun _ => bodyPost1 V c t) := by
  have hc0 : ¬cond1_0 (grid1.coords t) := fun h => h0 ((hcond1_0 t).mp h)
  have hc1 : ¬cond1_1 (grid1.coords t) := fun h => h9 ((hcond1_1 t).mp h)
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, Dat.leavesExact_idle (dat1 V c) 3 t (idle1_3 t hc1) (noFlush1_3 t hc1)]
  rw [scAt1_later V c t h0]; dsimp only
  rw [Phi1_castSucc V c t, Phi1_pos V c _ _ h0]
  iintro ⟨⟨HS0, HS1, HR, Hg⟩, Ho, ⟨%d0, H0⟩, ⟨%d1, H1⟩, ⟨%d2, H2⟩, ⟨%d3, H3⟩⟩
  iapply (run1_B c Set.univ _ _ _ _ _ _ _ _ _ _ _ _ _ hc0 hc1 (iblk1 V c 0 t) (iblk1 V c 1 t) _ _ _ _)
  isplitl [H0]; · iexact H0
  isplitl [H1]; · iexact H1
  isplitl [H2]; · iexists _; iexact H2
  isplitl [H3]; · iexact H3
  isplitl [HS0]; · iexact HS0
  isplitl [HS1]; · iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  iexists _; iexact H3

set_option maxHeartbeats 4000000 in
/-- The body at the last point: as at a middle point, and the statistics window, live here, is left at the two
    accumulators' final contents. -/
theorem sound_body1_C (c : Dev nD) (t : Fin cfg1.N) (h9 : t.val = 9) :
    bodyPre1 V c t ⊢ wp frame (wpE (defs₀ (F := F)) Variants.none c none) Set.univ (bodyAt1 t) (fun _ => bodyPost1 V c t) := by
  have h0 : t.val ≠ 0 := by omega
  have hc0 : ¬cond1_0 (grid1.coords t) := fun h => h0 ((hcond1_0 t).mp h)
  have hc1 : cond1_1 (grid1.coords t) := (hcond1_1 t).mpr h9
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2]
  rw [show (dat1 V c).leavesExact 3 t = owns (c : Thread nD τ) (st1_3 t) fullShare ((dat1 V c).after 3 t) from by
    unfold Dat.leavesExact; rw [live1_3 t hc1], after1_3]
  rw [scAt1_later V c t h0]; dsimp only
  rw [Phi1_castSucc V c t, Phi1_pos V c _ _ h0]
  iintro ⟨⟨HS0, HS1, HR, Hg⟩, Ho, ⟨%d0, H0⟩, ⟨%d1, H1⟩, ⟨%d2, H2⟩, ⟨%d3, H3⟩⟩
  iapply (run1_C c Set.univ _ _ _ _ _ _ _ _ _ _ _ _ _ hc0 hc1 (iblk1 V c 0 t) (iblk1 V c 1 t) _ _ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, H2, H3, HS0, HS1⟩
  isplitl [HS0 HS1 HR Hg]
  · isplitl [HS0]; · iexact HS0
    isplitl [HS1]; · iexact HS1
    isplitl [HR]; · iexact HR
    iexact Hg
  isplitl [Ho]; · iexact Ho
  isplitl [H0]; · iexact H0
  isplitl [H1]; · iexact H1
  isplitl [H2]; · iexact H2
  iexact H3

/-- The body at any point: the point's position says which of the three cases it is. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val = 0
  · exact sound_body1_A V c t h0
  · by_cases h9 : t.val = 9
    · exact sound_body1_C V c t h9
    · exact sound_body1_B V c t h0 h9

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- and after the last point the invariant gives it back, the accumulators' named contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega), PhiA1_eq]
  iintro ⟨HS0, HS1, HR, Hg⟩
  isplitr [Hg]
  · isplitr [HR]
    · isplitl [HS0]
      · iexists _; iexact HS0
      iexists _; iexact HS1
    iexact HR
  iexact Hg

end Region1

end Cert.KernelIdeal.Hand

end
-- ==== Proof.KiR2.lean ====
/-
  Region 2 of @main: the affine normalisation. Per grid point the body reads a block of 10000 activation rows and the
  four resident rows (mean, variance, scale, shift) and stores scale · (a − mean) · (variance + ε)^(−1/2) + shift,
  one piece covering the output block. Stated at a parameter `V`, the buffer contents the region is entered from.
-/
import proofs.«162183_j53549652247107_1_alg».proof.Proof.Gen.KernelIdeal.Launch
import proofs.«162183_j53549652247107_1_alg».proof.Proof.Gen.KernelIdeal.Skeleton
import proofs.«162183_j53549652247107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is
    not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole activation block and a whole resident row, as the body's loads and its store address them. -/
abbrev rX2 : Rect S10000x64 := Rect.unit (s := S10000x64) ![0, 0] S10000x64.size inb_S10000x64_S10000x64_0_0
abbrev rB2 : Rect S1x64 := Rect.unit (s := S1x64) ![0, 0] S1x64.size inb_S1x64_S1x64_0_0

/-- The output window's staging buffer after the body, from the activation block `x0` and the rows mean `x1`,
    variance `x2`, scale `x3`, shift `x4`: one piece. -/
def out2_5 (x0 : Vec F S10000x64 .f32) (x1 x2 x3 x4 : Vec F S1x64 .f32) : Vec F S10000x64 .f32 :=
  View.canon [⟨rX2, k2_pay1 (View.ld x2 rB2) (View.ld x3 rB2) (View.ld x0 rX2) (View.ld x1 rB2) (View.ld x4 rB2)⟩]

/-- The one store covers the buffer. -/
theorem cover2_5 (p0 : Vec F S10000x64 .f32) (y : S10000x64.Idx) :
    ∃ pc ∈ ([⟨rX2, p0⟩] : List (View.Piece (Elt F) S10000x64 .f32)), y ∈ pc.1.set :=
  View.cover_of_tiled [⟨rX2, p0⟩] S10000x64.size (by rfl) y

set_option maxHeartbeats 1000000 in
/-- The body on whole staging memrefs, the inputs' at their contents and the output's at anything, runs to the
    continuation holding the inputs' as they were and the output's at `out2_5` of them. -/
theorem sound_kernel2 (c : Dev nD) (E : Set ℕ) (i : grid2.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_kernel i arg1 harg1 arg2 harg2 arg3 harg3 arg4 harg4 arg5 harg5 arg6 harg6) K := by
  simp only [cc2__bn_kernel_eq_skeleton]; unfold cc2__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t`
    each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KiRun.lean ====
/-
  The run of @main: three kernel regions among five stretches of host operations. The buffer contents at every
  boundary are a fold from the launch memory (a host stretch applies its operations; a region leaves its arrays at what
  its write-backs fold to and everything else as entered); every pipeline's proof data sit at their region's entry
  contents; the launch runs the segments in order and the last thread state is read against the final memory: every
  unscoped buffer ends at the last boundary's contents. The frame (each argument array ends as launched) and the
  result array's contents are read off that.
-/
import proofs.«162183_j53549652247107_1_alg».proof.Proof.Gen.KernelIdeal.Launch
import proofs.«162183_j53549652247107_1_alg».proof.Proof.Gen.KernelIdeal.Skeleton
import proofs.«162183_j53549652247107_1_alg».proof.Proof.Gen.KernelIdeal.Points
import proofs.«162183_j53549652247107_1_alg».proof.Proof.Gen.KernelIdeal.Regions
import proofs.«162183_j53549652247107_1_alg».proof.Proof.KiR0
import proofs.«162183_j53549652247107_1_alg».proof.Proof.KiR1
import proofs.«162183_j53549652247107_1_alg».proof.Proof.KiR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)

/-- After `hostOps0`. -/
abbrev B1 : Dev nD → Valuation τ sig (Elt F) := fun c => StableHlo.after hostOps0 (B0 m ρ c)

theorem B1_of (c : Dev nD) (r : Ref sig .tc) (h : r ∉ Gen.hostOps0_W) : B1 m ρ c r = B0 m ρ c r :=
  StableHlo.after_of_writes_sub hostOps0 _ Gen.hostOps0_writes h

/-- After `hostOps0_1`. -/
abbrev B2 : Dev nD → Valuation τ sig (Elt F) := fun c => StableHlo.after hostOps0_1 (B1 m ρ c)

theorem B2_of (c : Dev nD) (r : Ref sig .tc) (h : r ∉ Gen.hostOps0_1_W) : B2 m ρ c r = B1 m ρ c r :=
  StableHlo.after_of_writes_sub hostOps0_1 _ Gen.hostOps0_1_writes h

/-- After `hostOps0_2`. -/
abbrev B3 : Dev nD → Valuation τ sig (Elt F) := fun c => StableHlo.after hostOps0_2 (B2 m ρ c)
/-- The same read at the TensorCore's references (what the next region's proof data take). -/
abbrev E3 : (c : Dev nD) → (b : Ref sig .tc) → Buf (Elt F) ((c : Thread nD τ).loc b) := fun c b => B3 m ρ c b
theorem B3_of (c : Dev nD) (r : Ref sig .tc) (h : r ∉ Gen.hostOps0_2_W) : B3 m ρ c r = B2 m ρ c r :=
  StableHlo.after_of_writes_sub hostOps0_2 _ Gen.hostOps0_2_writes h

/-- At region 0's exit: its arrays at what the pipeline leaves (an input as entered, each output's write-backs
    folded), every other buffer as entered. -/
def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- The same read at the TensorCore's references. -/
abbrev E4 : (c : Dev nD) → (b : Ref sig .tc) → Buf (Elt F) ((c : Thread nD τ).loc b) := fun c b => B4 m ρ c b
theorem hF0 (c : Dev nD) (w : Fin cfg0.W) : (dat0 (E3 m ρ) c).arrAt w cfg0.N = E4 m ρ c (Pipeline.arrRef spec0 w) :=
  (B4_arr m ρ c w).symm
theorem hrest0 (c : Dev nD) : ∀ b, b ∉ Finset.univ.image (Pipeline.arrRef spec0) → E4 m ρ c b = E3 m ρ c b :=
  fun b hb => B4_of_ne m ρ c b fun w e => hb (Finset.mem_image.mpr ⟨w, Finset.mem_univ _, e⟩)

/-- After `hostOps1`. -/
abbrev B5 : Dev nD → Valuation τ sig (Elt F) := fun c => StableHlo.after hostOps1 (B4 m ρ c)
/-- The same read at the TensorCore's references (what the next region's proof data take). -/
abbrev E5 : (c : Dev nD) → (b : Ref sig .tc) → Buf (Elt F) ((c : Thread nD τ).loc b) := fun c b => B5 m ρ c b
theorem B5_of (c : Dev nD) (r : Ref sig .tc) (h : r ∉ Gen.hostOps1_W) : B5 m ρ c r = B4 m ρ c r :=
  StableHlo.after_of_writes_sub hostOps1 _ Gen.hostOps1_writes h

/-- At region 1's exit: its arrays at what the pipeline leaves (an input as entered, each output's write-backs
    folded), every other buffer as entered. -/
def B6 (c : Dev nD) : Valuation τ sig (Elt F) :=
  Pipeline.withArrays spec1 c (B5 m ρ c) fun w => (dat1 (E5 m ρ) c).arrAt w cfg1.N
theorem B6_arr (c : Dev nD) (w : Fin cfg1.W) :
    B6 m ρ c (Proc.devRef .tc (Pipeline.arrRef spec1 w)) = (dat1 (E5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
/-- The same read at the TensorCore's references. -/
abbrev E6 : (c : Dev nD) → (b : Ref sig .tc) → Buf (Elt F) ((c : Thread nD τ).loc b) := fun c b => B6 m ρ c b
theorem hF1 (c : Dev nD) (w : Fin cfg1.W) : (dat1 (E5 m ρ) c).arrAt w cfg1.N = E6 m ρ c (Pipeline.arrRef spec1 w) :=
  (B6_arr m ρ c w).symm
theorem hrest1 (c : Dev nD) : ∀ b, b ∉ Finset.univ.image (Pipeline.arrRef spec1) → E6 m ρ c b = E5 m ρ c b :=
  fun b hb => B6_of_ne m ρ c b fun w e => hb (Finset.mem_image.mpr ⟨w, Finset.mem_univ _, e⟩)

/-- After `hostOps2`. -/
abbrev B7 : Dev nD → Valuation τ sig (Elt F) := fun c => StableHlo.after hostOps2 (B6 m ρ c)
/-- The same read at the TensorCore's references (what the next region's proof data take). -/
abbrev E7 : (c : Dev nD) → (b : Ref sig .tc) → Buf (Elt F) ((c : Thread nD τ).loc b) := fun c b => B7 m ρ c b
theorem B7_of (c : Dev nD) (r : Ref sig .tc) (h : r ∉ Gen.hostOps2_W) : B7 m ρ c r = B6 m ρ c r :=
  StableHlo.after_of_writes_sub hostOps2 _ Gen.hostOps2_writes h

/-- At region 2's exit: its arrays at what the pipeline leaves (an input as entered, each output's write-backs
    folded), every other buffer as entered. -/
def B8 (c : Dev nD) : Valuation τ sig (Elt F) :=
  Pipeline.withArrays spec2 c (B7 m ρ c) fun w => (dat2 (E7 m ρ) c).arrAt w cfg2.N
theorem B8_arr (c : Dev nD) (w : Fin cfg2.W) :
    B8 m ρ c (Proc.devRef .tc (Pipeline.arrRef spec2 w)) = (dat2 (E7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
/-- The same read at the TensorCore's references. -/
abbrev E8 : (c : Dev nD) → (b : Ref sig .tc) → Buf (Elt F) ((c : Thread nD τ).loc b) := fun c b => B8 m ρ c b
theorem hF2 (c : Dev nD) (w : Fin cfg2.W) : (dat2 (E7 m ρ) c).arrAt w cfg2.N = E8 m ρ c (Pipeline.arrRef spec2 w) :=
  (B8_arr m ρ c w).symm
theorem hrest2 (c : Dev nD) : ∀ b, b ∉ Finset.univ.image (Pipeline.arrRef spec2) → E8 m ρ c b = E7 m ρ c b :=
  fun b hb => B8_of_ne m ρ c b fun w e => hb (Finset.mem_image.mpr ⟨w, Finset.mem_univ _, e⟩)

/-! ## The proof data family and the thread state -/

/-- No pipeline has a prefetched table. -/
abbrev hadm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) hadm p) c
  | ⟨0, _⟩ => fun c => dat0 (E3 m ρ) c
  | ⟨1, _⟩ => fun c => dat1 (E5 m ρ) c
  | ⟨2, _⟩ => fun c => dat2 (E7 m ρ) c
abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the generator register at some state and the core's dues, none. -/
abbrev Rh (c : Dev nD) : sProp 𝕄 := iprop((∃ r, prngReg c r) ∗ ∃ W, owes (c : Thread nD τ) (0 : CellTallies nD τ sig Unit) W)
/-- A host stretch as a segment over the unscoped references from the contents `W`, `Rh` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tfin (c : Dev nD) : sProp 𝕄 := iprop(StableHlo.held (c : Thread nD τ) (Pipeline.ucRefs τ sig) (B8 m ρ c) ∗ ∃ r, prngReg c r)

/-- Region 1's invariant before its first point, from the generator register and the scoped rest (whatever rides between), -/
theorem hin1' (c : Dev nD) (P : sProp 𝕄) :
    iprop((∃ r, prngReg c r) ∗ P ∗ Pipeline.scopedRest (Ix := Unit) (Name := ℕ) (U := UR sig nD τ) (Lvl := ℕ) (Val := Elt F) spec1 c)
      ⊢ (dat1 (E5 m ρ) c).Φ 0 :=
  (show iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) from by
    unfold Pipeline.ΦA
    iintro ⟨Hp, -, Hr⟩
    isplitl [Hr]; · iexact Hr
    iexact Hp).trans (hin1 (E5 m ρ) c)
/-- and after its last point the invariant gives both back. -/
theorem hout1' (c : Dev nD) :
    (dat1 (E5 m ρ) c).Φ (Fin.last cfg1.N)
      ⊢ iprop((∃ r, prngReg c r) ∗ (BI.emp : sProp 𝕄) ∗ Pipeline.scopedRest (Ix := Unit) (Name := ℕ) (U := UR sig nD τ) (Lvl := ℕ) (Val := Elt F) spec1 c) :=
  (hout1 (E5 m ρ) c).trans (show (Pipeline.ΦA spec1 c : sProp 𝕄)
      ⊢ iprop((∃ r, prngReg c r) ∗ (BI.emp : sProp 𝕄) ∗ Pipeline.scopedRest (Ix := Unit) (Name := ℕ) (U := UR sig nD τ) (Lvl := ℕ) (Val := Elt F) spec1 c) from by
    unfold Pipeline.ΦA
    iintro ⟨Hr, Hp⟩
    isplitl [Hp]; · iexact Hp
    isplitr; · iempintro
    iexact Hr)

/-! ## The regions as segments -/

set_option backward.isDefEq.respectTransparency.types false in
/-- REGION 0 over the thread state: entered from every unscoped buffer at `B3`, left at `B4`. Its arrays are split
    out of the unscoped buffers and put back at the exit contents; the generator register goes into the region's
    invariant and comes out; nothing is owed; the kernel has no semaphore of its own. -/
def reg0 : Pipeline.RegionSeg (pcfgs (F := F)) hadm (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ Lh lvh 0 fun _ _ => rfl
  pre c := iprop(StableHlo.held (c : Thread nD τ) (Pipeline.ucRefs τ sig) (B3 m ρ c) ∗ Rh c)
  post c := iprop(StableHlo.held (c : Thread nD τ) (Pipeline.ucRefs τ sig) (B4 m ρ c) ∗ Rh c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) hadm (pdats m ρ) launch0.win launch0.arr_whole c
      ((pdats m ρ 0 c).share_full fun _ => rfl) (E3 m ρ c) (A_eq0 (E3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m ρ) ((pdats m ρ 0 c).share_full fun _ => rfl)
      (E3 m ρ c) (E4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `B5`, left at `B6`. Its arrays are split
    out of the unscoped buffers and put back at the exit contents; the generator register goes into the region's
    invariant and comes out; nothing is owed; the kernel has no semaphore of its own. -/
def reg1 : Pipeline.RegionSeg (pcfgs (F := F)) hadm (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E5 m ρ) c).loose
  hwaits := Pipeline.hwaits_of_owed_zero _ _ _ _ Lh lvh 1 fun _ _ => rfl
  pre c := iprop(StableHlo.held (c : Thread nD τ) (Pipeline.ucRefs τ sig) (B5 m ρ c) ∗ Rh c)
  post c := iprop(StableHlo.held (c : Thread nD τ) (Pipeline.ucRefs τ sig) (B6 m ρ c) ∗ Rh c)
  X c := iprop(∃ r, prngReg c r)
  Y c := iprop(∃ r, prngReg c r)
  Z c := Pipeline.unscopedRest (Ix := Unit) (Name := ℕ) (U := UR sig nD τ) (Lvl := ℕ) spec1 c (E5 m ρ c)
  hentry c := by
    rw [Pipeline.ownSems0_none]
    have hsplit := Pipeline.arrays_of_unscopedBufs (p := 1) (pcfgs (F := F)) hadm (pdats m ρ) launch1.win launch1.arr_whole c
      ((pdats m ρ 1 c).share_full fun _ => rfl) (E5 m ρ c) (A_eq1 (E5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact hin1' m ρ c _
  hout c := by
    rw [Pipeline.ownSems0_none]
    exact hout1' m ρ c
  hexit c := by
    have hjoin := Pipeline.unscopedBufs_of_arrays (p := 1) (pcfgs (F := F)) hadm (Ix := Unit) (Name := ℕ) (U := UR sig nD τ) (Lvl := ℕ)
      launch1.win launch1.arr_whole c (pdats m ρ) ((pdats m ρ 1 c).share_full fun _ => rfl)
      (E5 m ρ c) (E6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `B7`, left at `B8`. Its arrays are split
    out of the unscoped buffers and put back at the exit contents; the generator register goes into the region's
    invariant and comes out; nothing is owed; the kernel has no semaphore of its own. -/
def reg2 : Pipeline.RegionSeg (pcfgs (F := F)) hadm (pdats m ρ) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (E7 m ρ) c).loose
  hwaits := Pipeline.hwaits_of_owed_zero _ _ _ _ Lh lvh 2 fun _ _ => rfl
  pre c := iprop(StableHlo.held (c : Thread nD τ) (Pipeline.ucRefs τ sig) (B7 m ρ c) ∗ Rh c)
  post c := iprop(Tfin m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E7 m ρ c)
  hentry c := by
    rw [Pipeline.ownSems0_none]
    have hsplit := Pipeline.arrays_of_unscopedBufs (p := 2) (pcfgs (F := F)) hadm (pdats m ρ) launch2.win launch2.arr_whole c
      ((pdats m ρ 2 c).share_full fun _ => rfl) (E7 m ρ c) (A_eq2 (E7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m ρ) ((pdats m ρ 2 c).share_full fun _ => rfl)
      (E7 m ρ c) (E8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order. -/
abbrev hsegs : List (Pipeline.Seg (pcfgs (F := F)) hadm (pdats m ρ) () defs₀ 𝒱h Lh lvh) :=
  [ .host (hseg hostOps0 hostOps0_sub Gen.hostOps0_fresh (B0 m ρ)),
    .host (hseg hostOps0_1 hostOps0_1_sub Gen.hostOps0_1_fresh (B1 m ρ)),
    .host (hseg hostOps0_2 hostOps0_2_sub Gen.hostOps0_2_fresh (B2 m ρ)),
    .region (reg0 m ρ),
    .host (hseg hostOps1 hostOps1_sub Gen.hostOps1_fresh (B4 m ρ)),
    .region (reg1 m ρ),
    .host (hseg hostOps2 hostOps2_sub Gen.hostOps2_fresh (B6 m ρ)),
    .region (reg2 m ρ) ]
/-- @main IS the run of the segments. -/
theorem main_run (c : Dev nD) : main (F := F) c = Pipeline.Seg.run (hsegs m ρ) := (main_chain c).trans (by chain_rfl)

set_option backward.isDefEq.respectTransparency.types false in
/-- THE RUN: from any memory with zero counters every weakly fair execution of @main on the TensorCores terminates,
    nothing faulting, and in every final state every unscoped buffer holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B8 m ρ c b) :=
  Pipeline.θ_run_regions_kit (pcfgs (F := F)) hadm (pdats m ρ) () cellOf_inj emb₁ defs₀ 𝒱h Lh lvh m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rh c)) (Tₙ := Tfin m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h => h)

/-! ## The arguments end as launched, and the result array -/

/-- Through the first three host stretches a buffer none of them writes keeps its launch contents. -/
theorem B3_of_B0 (c : Dev nD) (r : Ref sig .tc) (h0 : r ∉ Gen.hostOps0_W) (h1 : r ∉ Gen.hostOps0_1_W) (h2 : r ∉ Gen.hostOps0_2_W) :
    B3 m ρ c r = B0 m ρ c r :=
  (B3_of m ρ c r h2).trans ((B2_of m ρ c r h1).trans (B1_of m ρ c r h0))

/-- Region 0 leaves an INPUT window's array as it found it. -/
theorem B4_in (c : Dev nD) (w : Fin cfg0.W) (hw : (cfg0.win w).isOut = false) :
    B4 m ρ c (Proc.devRef .tc (Pipeline.arrRef spec0 w)) = B3 m ρ c (Proc.devRef .tc (Pipeline.arrRef spec0 w)) :=
  (B4_arr m ρ c w).trans (((dat0 (E3 m ρ) c).arrAt_in w hw _).trans (A_eq0 (E3 m ρ) c w))

/-- A buffer that no host stretch writes, that region 0 leaves as found, and that is no array of regions 1 and 2 ends at
    its launch contents. -/
theorem B8_of_launch (c : Dev nD) (r : Ref sig .tc) (h0 : r ∉ Gen.hostOps0_W) (h1 : r ∉ Gen.hostOps0_1_W) (h2 : r ∉ Gen.hostOps0_2_W)
    (h4 : r ∉ Gen.hostOps1_W) (h6 : r ∉ Gen.hostOps2_W)
    (hr0 : B4 m ρ c (Proc.devRef .tc r) = B3 m ρ c (Proc.devRef .tc r)) (hr1 : ∀ w, Pipeline.arrRef spec1 w ≠ r) (hr2 : ∀ w, Pipeline.arrRef spec2 w ≠ r) :
    B8 m ρ c (Proc.devRef .tc r) = m ((c : Thread nD τ).loc r) :=
  (B8_of_ne m ρ c r hr2).trans <| (B7_of m ρ c r h6).trans <| (B6_of_ne m ρ c r hr1).trans <| (B5_of m ρ c r h4).trans <|
    hr0.trans <| (B3_of_B0 m ρ c r h0 h1 h2).trans rfl

theorem B8_main_arg0 (c : Dev nD) : B8 m ρ c (Proc.devRef .tc main_arg0) = m ((c : Thread nD τ).loc main_arg0) :=
  B8_of_launch m ρ c main_arg0 (by decide) (by decide) (by decide) (by decide) (by decide) (B4_in m ρ c 0 rfl) (by decide) (by decide)
theorem B8_main_arg1 (c : Dev nD) : B8 m ρ c (Proc.devRef .tc main_arg1) = m ((c : Thread nD τ).loc main_arg1) :=
  B8_of_launch m ρ c main_arg1 (by decide) (by decide) (by decide) (by decide) (by decide) (B4_of_ne m ρ c main_arg1 (by decide)) (by decide) (by decide)
theorem B8_main_arg2 (c : Dev nD) : B8 m ρ c (Proc.devRef .tc main_arg2) = m ((c : Thread nD τ).loc main_arg2) :=
  B8_of_launch m ρ c main_arg2 (by decide) (by decide) (by decide) (by decide) (by decide) (B4_in m ρ c 1 rfl) (by decide) (by decide)
theorem B8_main_arg3 (c : Dev nD) : B8 m ρ c (Proc.devRef .tc main_arg3) = m ((c : Thread nD τ).loc main_arg3) :=
  B8_of_launch m ρ c main_arg3 (by decide) (by decide) (by decide) (by decide) (by decide) (B4_of_ne m ρ c main_arg3 (by decide)) (by decide) (by decide)
theorem B8_main_arg4 (c : Dev nD) : B8 m ρ c (Proc.devRef .tc main_arg4) = m ((c : Thread nD τ).loc main_arg4) :=
  B8_of_launch m ρ c main_arg4 (by decide) (by decide) (by decide) (by decide) (by decide) (B4_of_ne m ρ c main_arg4 (by decide)) (by decide) (by decide)
theorem B8_main_arg5 (c : Dev nD) : B8 m ρ c (Proc.devRef .tc main_arg5) = m ((c : Thread nD τ).loc main_arg5) :=
  B8_of_launch m ρ c main_arg5 (by decide) (by decide) (by decide) (by decide) (by decide) (B4_of_ne m ρ c main_arg5 (by decide)) (by decide) (by decide)

/-- The result array at the end: what region 2's write-backs fold to. -/
theorem B8_main_v57 (c : Dev nD) : B8 m ρ c (Proc.devRef .tc main_v57) = (dat2 (E7 m ρ) c).arrAt 5 cfg2.N :=
  B8_arr m ρ c 5

/-- THE FRAME, at any `F`: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun r h c => ⟨(h c _ (mem_uc main_arg0 (by decide))).trans (B8_main_arg0 m ρ c),
    (h c _ (mem_uc main_arg1 (by decide))).trans (B8_main_arg1 m ρ c),
    (h c _ (mem_uc main_arg2 (by decide))).trans (B8_main_arg2 m ρ c),
    (h c _ (mem_uc main_arg3 (by decide))).trans (B8_main_arg3 m ρ c),
    (h c _ (mem_uc main_arg4 (by decide))).trans (B8_main_arg4 m ρ c),
    (h c _ (mem_uc main_arg5 (by decide))).trans (B8_main_arg5 m ρ c)⟩) (run_all m ρ)

/-- THE RUN WITH THE RESULT NAMED: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v57) = B8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h c _ (mem_uc main_v57 (by decide)),
    (h c _ (mem_uc main_arg0 (by decide))).trans (B8_main_arg0 m ρ c),
    (h c _ (mem_uc main_arg1 (by decide))).trans (B8_main_arg1 m ρ c),
    (h c _ (mem_uc main_arg2 (by decide))).trans (B8_main_arg2 m ρ c),
    (h c _ (mem_uc main_arg3 (by decide))).trans (B8_main_arg3 m ρ c),
    (h c _ (mem_uc main_arg4 (by decide))).trans (B8_main_arg4 m ρ c),
    (h c _ (mem_uc main_arg5 (by decide))).trans (B8_main_arg5 m ρ c)⟩) (run_all m ρ)

end Cert.KernelIdeal.Hand

end
-- ==== Proof.Agg.lean ====
/-
  The normalised aggregation over the edges as ONE function of the transformed node features `h` and the edge list:
  gather the source rows of `h`, scale each by its edge's normalisation coefficient, and add the rows into their
  target nodes. Both programs apply exactly this function (the kernel to its own product, the reference to its own),
  so nothing here opens the gather or the accumulation: the function is named once, over the reference's stage
  functions, and the reference's aggregated features are it, applied to the reference's product.
-/
import proofs.«162183_j53549652247107_1_alg».proof.Proof.RefRead

noncomputable section

namespace Cert.Agg

open Cert.ReferenceIdeal Cert.ReferenceIdeal.ReadP Idealize.ShloMosaic

variable {F : FTy → Type} [FloatOps F]

/-- The aggregation of the rows of `h` along the edges `x1`. -/
def aggOf (h : (⟨S100000x64, .f32⟩ : BufTy).Contents (Elt F)) (x1 : (⟨S2x1000000, .i32⟩ : BufTy).Contents (Elt F)) :
    (⟨S100000x64, .f32⟩ : BufTy).Contents (Elt F) :=
  Host.scatterAdd scatter_S100000x64_S1100000x1_S1100000x64_1_0_0_1 (val_main_v42 (F := F)) (val_main_v43 (F := F) x1)
    (mulf (Host.gather gather_S100000x64_S1100000x1_S1100000x64_1_0_n_n_0_1_164 h (val_main_v37 (F := F) x1)) (val_main_v40 (F := F) x1))

/-- The reference's aggregated features are the aggregation of its own product. -/
theorem val_main_v44_eq (x0 : (⟨S100000x64, .f32⟩ : BufTy).Contents (Elt F)) (x1 : (⟨S2x1000000, .i32⟩ : BufTy).Contents (Elt F))
    (x2 : (⟨S64x64, .f32⟩ : BufTy).Contents (Elt F)) :
    val_main_v44 (F := F) x0 x1 x2 = aggOf (val_main_v31 (F := F) x0 x2) x1 := by
  unfold val_main_v44 val_main_v41 val_main_v38 aggOf
  rfl

end Cert.Agg

end
-- ==== Proof.Spec.lean ====
/-
  The mathematics both programs compute, over the extended reals, index by index: a linear map of the node
  features, a normalised aggregation over the edges (carried as one unopened function of the transformed features),
  bias and rectifier, the column mean and the (biased) column variance over the 100000 nodes, and the affine
  normalisation. The kernel takes the variance as the mean of squares minus the squared mean; the reference as the
  mean of squared deviations: one number when every activation is finite.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A matrix and a row of extended reals, indexed as the programs' arrays are. -/
abbrev Mat (n k : Nat) : Type := (⟨2, ![n, k]⟩ : Shape).Idx → EReal
abbrev Row (k : Nat) : Type := (⟨1, ![k]⟩ : Shape).Idx → EReal

/-- The linear transform: entry (r, j) is the sum over k of x (r, k) · w (k, j). -/
def lin (x : Mat 100000 64) (w : Mat 64 64) : Mat 100000 64 :=
  fun i => ∑ k : Fin 64, x (ix2 (i 0) k) * w (ix2 k (i 1))

/-- Bias and rectifier: entry (r, j) is max (agg (r, j) + b j, 0), the bias a 1 × 64 row. -/
def act (agg : Mat 100000 64) (b : Mat 1 64) : Mat 100000 64 :=
  fun i => max (agg i + b (ix2 (0 : Fin 1) (i 1))) 0

/-- The number of nodes as the programs write it: the single-precision pattern of 100000. -/
def nodes : EReal := Ideal.ofBits .f32 0x47C35000#32
/-- The variance's guard ε as the programs write it. -/
def eps : EReal := Ideal.ofBits .f32 0x3727C5AC#32

/-- Column sums of the activations and of their squares. -/
def colSum (a : Mat 100000 64) (j : Fin 64) : EReal := ∑ r : Fin 100000, a (ix2 r j)
def colSumSq (a : Mat 100000 64) (j : Fin 64) : EReal := ∑ r : Fin 100000, a (ix2 r j) * a (ix2 r j)

/-- The column mean. -/
def mean (a : Mat 100000 64) (j : Fin 64) : EReal := Ideal.div (colSum a j) nodes
/-- The column variance as the kernel takes it: the mean of squares minus the squared mean. -/
def varK (a : Mat 100000 64) (j : Fin 64) : EReal := Ideal.div (colSumSq a j) nodes - mean a j * mean a j
/-- The column variance as the reference takes it: the mean of the squared deviations from the mean. -/
def varR (a : Mat 100000 64) (j : Fin 64) : EReal :=
  Ideal.div (∑ r : Fin 100000, (a (ix2 r j) - mean a j) * (a (ix2 r j) - mean a j)) nodes

/-- The affine normalisation at (r, j): scale j · (a (r, j) − μ j) · (v j + ε)^(−1/2) + shift j. -/
def norm (a : Mat 100000 64) (μ v : Fin 64 → EReal) (γ β : Fin 64 → EReal) : Mat 100000 64 :=
  fun i => γ (i 1) * (a i - μ (i 1)) * Ideal.rsqrt (v (i 1) + eps) + β (i 1)

end Cert.Spec

end
-- ==== Proof.KiHost.lean ====
/-
  What the host arithmetic between the three kernel regions leaves in the arrays the regions and the result read, for
  an arbitrary state of the arrays at the stretch's entry. Before the first region: the edge list with one self-loop
  per node appended (source and target indices), and each edge's normalisation coefficient, the product of the inverse
  square roots of its end points' degrees. Between the first and the second: the aggregation of the transformed
  features along the edges, and the bias as a 1 × 64 row. Between the second and the third: the column mean (the column
  sums over the node count), the column variance as the mean of squares minus the squared mean, and the scale and shift
  as 1 × 64 rows; the activations are not touched. The index arithmetic and the aggregation are the same operations, in
  the same order, as the reference's, so those facts hold for every float family; the rows are read entry by entry at
  the extended reals.
-/
import proofs.«162183_j53549652247107_1_alg».proof.Proof.Gen.KernelIdeal.Launch
import proofs.«162183_j53549652247107_1_alg».proof.Proof.Gen.KernelIdeal.Regions
import proofs.«162183_j53549652247107_1_alg».proof.Proof.Agg
import proofs.«162183_j53549652247107_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Host

open Cert.KernelIdeal Cert.KernelIdeal.Gen
open Idealize.ShloMosaic.StableHlo (after_of_writes_sub)
open Idealize.ShloMosaic Idealize.ShloMosaic.TcCoe Idealize.ShloMosaic.ValueIdx Idealize.SL.Sem

/-! ## Layout operations of the statistics stretch, read at a column -/

/-- Row 0 of a 2 × 64 array, cut out as a 1 × 64 array, read at column `j`. -/
theorem stat_row0 (X : (⟨S2x64, .f32⟩ : BufTy).Contents (Elt Ideal)) (j : Fin 64) :
    extractStridedSlice S1x64 ![0, 0] X slices_S2x64_S1x64_0_0 (ix2 (0 : Fin 1) j) = X (ix2 (0 : Fin 2) j) :=
  slice2_axis0_apply 0 X slices_S2x64_S1x64_0_0 (0 : Fin 1) j (0 : Fin 2) rfl

/-- Row 1 of a 2 × 64 array, cut out as a 1 × 64 array, read at column `j`. -/
theorem stat_row1 (X : (⟨S2x64, .f32⟩ : BufTy).Contents (Elt Ideal)) (j : Fin 64) :
    extractStridedSlice S1x64 ![1, 0] X slices_S2x64_S1x64_1_0 (ix2 (0 : Fin 1) j) = X (ix2 (1 : Fin 2) j) :=
  slice2_axis0_apply 1 X slices_S2x64_S1x64_1_0 (0 : Fin 1) j (1 : Fin 2) rfl

/-- The node count, a scalar constant spread over a 1 × 64 row, is the node count at every column. -/
theorem nodes_row (j : Fin 64) :
    broadcastInDim S1x64 ![] bcast_S_S1x64 (constant (F := Ideal) S_ .f32 0x47C35000#32) (ix2 (0 : Fin 1) j)
      = Cert.Spec.nodes :=
  (broadcastInDim_scalar_apply bcast_S_S1x64 _ _).trans rfl

/-- A length-64 vector recast as a 1 × 64 row reads, at column `j`, the vector's entry `j`. -/
theorem row_of_vec (x : (⟨S64, .f32⟩ : BufTy).Contents (Elt Ideal)) (j : Fin 64) :
    shapeCast S1x64 x shapeCasts_S64_S1x64 (ix2 (0 : Fin 1) j) = x (ix1 j) :=
  shapeCast_a_1a_apply x shapeCasts_S64_S1x64 (0 : Fin 1) j

/-! ## The stretch between the second and the third kernel region -/

/-- The column mean: row 0 of the statistics (the column sums) over the node count. -/
theorem host2_mean (W : Valuation τ sig (Elt Ideal)) (j : Fin 64) :
    StableHlo.after hostOps2 W main_v49 (ix2 (0 : Fin 1) j)
      = Ideal.div (W main_v46_1 (ix2 (0 : Fin 2) j)) Cert.Spec.nodes := by
  open Idealize.ShloMosaic.StableHlo in after_results
  refine (hostDivf_apply _ _ _).trans ?_
  exact congrArg₂ Ideal.div (stat_row0 _ j) (nodes_row j)

/-- The column variance as this program takes it: row 1 of the statistics (the column sums of squares) over the node
    count, minus the square of the column mean. -/
theorem host2_var (W : Valuation τ sig (Elt Ideal)) (j : Fin 64) :
    StableHlo.after hostOps2 W main_v54 (ix2 (0 : Fin 1) j)
      = Ideal.div (W main_v46_1 (ix2 (1 : Fin 2) j)) Cert.Spec.nodes
        - Ideal.div (W main_v46_1 (ix2 (0 : Fin 2) j)) Cert.Spec.nodes * Ideal.div (W main_v46_1 (ix2 (0 : Fin 2) j)) Cert.Spec.nodes := by
  open Idealize.ShloMosaic.StableHlo in after_results
  refine (subf_apply _ _ _).trans ?_
  refine congrArg₂ (· - ·) ((hostDivf_apply _ _ _).trans (congrArg₂ Ideal.div (stat_row1 _ j) (nodes_row j))) ?_
  refine (mulf_apply _ _ _).trans ?_
  have e := (hostDivf_apply _ _ _).trans (congrArg₂ Ideal.div (stat_row0 (W main_v46_1) j) (nodes_row j))
  exact congrArg₂ (· * ·) e e

/-- The scale row: the scale vector recast as a 1 × 64 row. -/
theorem host2_gamma (W : Valuation τ sig (Elt Ideal)) (j : Fin 64) :
    StableHlo.after hostOps2 W main_v55 (ix2 (0 : Fin 1) j) = W main_arg4 (ix1 j) := by
  open Idealize.ShloMosaic.StableHlo in after_results
  exact row_of_vec _ j

/-- The shift row: the shift vector recast as a 1 × 64 row. -/
theorem host2_beta (W : Valuation τ sig (Elt Ideal)) (j : Fin 64) :
    StableHlo.after hostOps2 W main_v56 (ix2 (0 : Fin 1) j) = W main_arg5 (ix1 j) := by
  open Idealize.ShloMosaic.StableHlo in after_results
  exact row_of_vec _ j

/-! ## The bias row of the stretch between the first and the second kernel region -/

/-- The bias row: the bias vector recast as a 1 × 64 row. -/
theorem host1_bias (W : Valuation τ sig (Elt Ideal)) (j : Fin 64) :
    StableHlo.after hostOps1 W main_v45 (ix2 (0 : Fin 1) j) = W main_arg3 (ix1 j) := by
  open Idealize.ShloMosaic.StableHlo in after_results
  exact row_of_vec _ j

/-! # Facts that hold for every float family -/

section Generic
variable {F : FTy → Type} [FloatOps F]

/-! ## The activations cross the last stretch unchanged -/

/-- No operation between the second and the third region writes the activation array. -/
theorem host2_act (W : Valuation τ sig (Elt F)) :
    StableHlo.after hostOps2 W main_v46_0 = W main_v46_0 :=
  after_of_writes_sub hostOps2 W hostOps2_writes (by decide)

/-! ## The aggregation along the edges -/

/-- Entered with the self-looped source and target indices and the edge coefficients in place, the stretch between the
    first and the second region leaves in its result array the aggregation, along the edges, of whatever features the
    first region left: the source rows gathered (a negative index wrapped round first), each scaled by its edge's
    coefficient, and added into the target rows of a zero array. -/
theorem host1_v44 (W : Valuation τ sig (Elt F))
    (x1 : (⟨Cert.ReferenceIdeal.S2x1000000, .i32⟩ : BufTy).Contents (Elt F))
    (h3 : W main_v3 = Cert.ReferenceIdeal.ReadP.val_main_v3 x1)
    (h6 : W main_v6 = Cert.ReferenceIdeal.ReadP.val_main_v6 x1)
    (h30 : W main_v30 = Cert.ReferenceIdeal.ReadP.val_main_v30 x1) :
    StableHlo.after hostOps1 W main_v44 = Cert.Agg.aggOf (W main_v31) x1 := by
  open Idealize.ShloMosaic.StableHlo in after_results_simp
  rw [h3, h6, h30]
  generalize W main_v31 = h
  unfold Cert.Agg.aggOf Cert.ReferenceIdeal.ReadP.val_main_v43 Cert.ReferenceIdeal.ReadP.val_main_v42
    Cert.ReferenceIdeal.ReadP.val_main_cst_8 Cert.ReferenceIdeal.ReadP.val_main_v40 Cert.ReferenceIdeal.ReadP.val_main_v39
    Cert.ReferenceIdeal.ReadP.val_main_v37 Cert.ReferenceIdeal.ReadP.val_main_v36 Cert.ReferenceIdeal.ReadP.val_main_v35
    Cert.ReferenceIdeal.ReadP.val_main_v34 Cert.ReferenceIdeal.ReadP.val_main_c_7 Cert.ReferenceIdeal.ReadP.val_main_v33
    Cert.ReferenceIdeal.ReadP.val_main_v32 Cert.ReferenceIdeal.ReadP.val_main_c_6
  rfl

/-! ## The stretches before the first region: the self-looped edge list and the edge coefficients -/

/-- The source indices: row 0 of the edge list, with the node numbers 0 … 99999 appended (one self-loop per node). -/
theorem host0_v3 (W : Valuation τ sig (Elt F)) :
    StableHlo.after hostOps0_2 (StableHlo.after hostOps0_1 (StableHlo.after hostOps0 W)) main_v3
      = Cert.ReferenceIdeal.ReadP.val_main_v3 (W main_arg1) := by
  open Idealize.ShloMosaic.StableHlo in after_results_simp
  rfl

/-- The target indices: row 1 of the edge list, with the node numbers appended likewise. -/
theorem host0_v6 (W : Valuation τ sig (Elt F)) :
    StableHlo.after hostOps0_2 (StableHlo.after hostOps0_1 (StableHlo.after hostOps0 W)) main_v6
      = Cert.ReferenceIdeal.ReadP.val_main_v6 (W main_arg1) := by
  open Idealize.ShloMosaic.StableHlo in after_results_simp
  rfl

/-- The edge coefficients: with the degree of a node the number of self-looped edges that end in it, and its weight the
    inverse square root of its degree where the degree is positive and zero elsewhere, an edge's coefficient is the
    weight of its source times one times the weight of its target. -/
theorem host0_v30 (W : Valuation τ sig (Elt F)) :
    StableHlo.after hostOps0_2 (StableHlo.after hostOps0_1 (StableHlo.after hostOps0 W)) main_v30
      = Cert.ReferenceIdeal.ReadP.val_main_v30 (W main_arg1) := by
  open Idealize.ShloMosaic.StableHlo in after_results_simp
  rfl

end Generic

end Cert.KernelIdeal.Host

end
-- ==== Proof.KiVal0.lean ====
/-
  What region 0 leaves in its output array, at the extended reals: the linear transform of the node features.
-/
import proofs.«162183_j53549652247107_1_alg».proof.Proof.KiR0
import proofs.«162183_j53549652247107_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (V : (c : Dev nD) → (b : Ref sig .tc) → Buf (Elt Ideal) ((c : Thread nD τ).loc b))

/-- The product's dimension numbers: the left operand is read at (row of the entry, contraction index), -/
theorem prod_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem prod_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at (contraction index, column of the entry). -/
theorem prod_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem prod_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's payload at an entry of the block: over the extended reals the narrowing of the operands is the
    identity and the accumulator is zero, so entry (p, q) is the sum over k of x (p, k) · w (k, q). -/
theorem product_apply (x : Vec Ideal S10000x64 .f32) (w : Vec Ideal S64x64 .f32) (p : Fin 10000) (q : Fin 64) :
    k0_pay1 (F := Ideal) x w (ix2 p q) = ∑ k : Fin 64, x (ix2 p k) * w (ix2 k q) := by
  unfold k0_pay1
  refine (Ideal.matmul_constant_zero_apply dot_S10000x64_S64x64_S10000x64_1_0_0_1_n_n none _ _ (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact prod_lhs_0 _ _
    | ⟨1, _⟩ => exact (prod_lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (prod_rhs_0 _ _).trans hk
    | ⟨1, _⟩ => exact prod_rhs_1 _ _)
  rw [el, er]
  rfl

/-- One block entry from the arrays: if row p of the block of x is row r of the array x, and the block of w is the
    array w, then entry (p, q) of the body's payload is entry (r, q) of the linear transform. -/
theorem block_product (X : Cert.Spec.Mat 100000 64) (W : Cert.Spec.Mat 64 64) (x : Vec Ideal S10000x64 .f32) (w : Vec Ideal S64x64 .f32)
    (p : Fin 10000) (q : Fin 64) (r : Fin 100000)
    (hx : ∀ k : Fin 64, x (ix2 p k) = X (ix2 r k)) (hw : ∀ k j : Fin 64, w (ix2 k j) = W (ix2 k j)) :
    k0_pay1 (F := Ideal) x w (ix2 p q) = Cert.Spec.lin X W (ix2 r q) := by
  refine (product_apply x w p q).trans ?_
  show _ = ∑ k : Fin 64, X (ix2 r k) * W (ix2 k q)
  exact Finset.sum_congr rfl fun k _ => by rw [hx k, hw k q]

theorem hz : (![0, 0] : Fin 2 → Nat) = fun _ => 0 := funext fun a => by fin_cases a <;> rfl

/-- The printed index maps, decided over the grid: at point t the row-block window and the output window are at block
    (t, 0), the weight window at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the row-block window's block at point t is row 10000·t + p of x. -/
theorem xblock_apply (c : Dev nD) (t : Fin cfg0.N) (p : Fin 10000) (k : Fin 64) (r : Fin 100000) (hr : r.val = 10000 * t.val + p.val) :
    (iblk0 V c 0 t : Vec Ideal S10000x64 .f32) (ix2 p k) = (V c main_arg0 : S100000x64.Idx → EReal) (ix2 r k) := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The weight window's one block is the weight matrix. -/
theorem wblock_apply (c : Dev nD) (t : Fin cfg0.N) (k j : Fin 64) :
    (iblk0 V c 1 t : Vec Ideal S64x64 .f32) (ix2 k j) = (V c main_arg2 : S64x64.Idx → EReal) (ix2 k j) := by
  obtain ⟨-, -, e2, e3, -, -⟩ := block_indices t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * j.val = j.val; rw [e3]; omega

/-- What point t writes back is block t of the linear transform of the arrays as the region finds them. -/
theorem flushed_eq (c : Dev nD) (t : Fin cfg0.N) :
    (dat0 V c).flushed 2 t = ((cfg0.win 2).blk t).view.read (Elt Ideal) (Cert.Spec.lin (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨-, -, -, -, e4, e5⟩ := block_indices t
  funext y
  have hy0 : (y 0).val < 10000 := (y 0).isLt
  have hy1 : (y 1).val < 64 := (y 1).isLt
  have hr : 10000 * t.val + (y 0).val < 100000 := by
    have ht : t.val < 10 := lt_of_lt_of_eq t.isLt N_0
    omega
  have ey : (win0 2).xinj (grid0.coords t) y = ix2 (⟨(y 0).val, hy0⟩ : Fin 10000) (⟨(y 1).val, hy1⟩ : Fin 64) :=
    funext fun a => by match a with | ⟨0, _⟩ => rfl | ⟨1, _⟩ => rfl
  have ei : ((View.whole main_v31).slice ((win0 2).rect t)).emb y
      = ix2 (⟨10000 * t.val + (y 0).val, hr⟩ : Fin 100000) (⟨(y 1).val, hy1⟩ : Fin 64) :=
    funext fun a => Fin.ext (by
      match a with
      | ⟨0, _⟩ => show win0_2.index t (0 : Fin 2) * 10000 + 1 * (y 0).val = 10000 * t.val + (y 0).val; rw [e4]; omega
      | ⟨1, _⟩ => show win0_2.index t (1 : Fin 2) * 64 + 1 * (y 1).val = (y 1).val; rw [e5]; omega)
  show k0_pay1 (F := Ideal) (iblk0 V c 0 t) (iblk0 V c 1 t) ((win0 2).xinj (grid0.coords t) y)
    = Cert.Spec.lin (V c main_arg0) (V c main_arg2) (((View.whole main_v31).slice ((win0 2).rect t)).emb y)
  rw [ey, ei]
  exact block_product (V c main_arg0) (V c main_arg2) (iblk0 V c 0 t) (iblk0 V c 1 t) _ _ _
    (fun k => xblock_apply V c t _ k _ rfl) (fun k j => wblock_apply V c t k j)

/-- An index of the array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- The ten row blocks tile the array: row r lies in the block of point r / 10000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_block]
  obtain ⟨-, -, -, -, e4, e5⟩ := block_indices ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 64 ≤ (i 1).val ∧ (i 1).val < win0_2.index _ (1 : Fin 2) * 64 + 64; rw [e5]; omega

/-- The product array after region 0: entry (r, j) is the sum over k of x (r, k) · w (k, j), whatever the region is entered from. -/
theorem region0_value (c : Dev nD) :
    (dat0 (F := Ideal) V c).arrAt 2 cfg0.N = Cert.Spec.lin (V c main_arg0) (V c main_arg2) :=
  (dat0 V c).arrAt_eq_of_cover 2 (Cert.Spec.lin (V c main_arg0) (V c main_arg2)) (fun t _ => flushed_eq V c t) covered

end Cert.KernelIdeal.Val

end
-- ==== Proof.KiVal1a.lean ====
/-
  The values region 1's body stores, read at an index over the extended reals: the activation block is the rectified
  sum of the input block and the bias row; each accumulator grows by the block's column sum (of the activations, of
  their squares); a cleared accumulator is the zero row; the statistics rows are the accumulators' rows.
-/
import proofs.«162183_j53549652247107_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-- The bias row broadcast down the 10000 rows reads, at (p, q), the row's entry q. -/
theorem bcastRow_apply (b : Vec Ideal S1x64 .f32) (h : S1x64.Broadcasts S10000x64) (p : Fin 10000) (q : Fin 64) :
    broadcastTo S10000x64 b h (ix2 p q) = b (ix2 (0 : Fin 1) q) := by
  refine broadcastTo_apply b h (ix2 p q) (ix2 (0 : Fin 1) q) ?_
  intro a
  match a with
  | ⟨0, _⟩ => rfl
  | ⟨1, _⟩ => rfl

/-- The activation block at (p, q): max (x (p, q) + b (0, q), 0). -/
theorem pay3_apply (x : Vec Ideal S10000x64 .f32) (b : Vec Ideal S1x64 .f32) (p : Fin 10000) (q : Fin 64) :
    k1_pay3 x b (ix2 p q) = max (x (ix2 p q) + b (ix2 (0 : Fin 1) q)) 0 := by
  unfold k1_pay3
  simp only [shapeCast_self]
  show max (x (ix2 p q) + broadcastTo S10000x64 b _ (ix2 p q)) (Ideal.ofBits .f32 0x00000000#32) = _
  rw [bcastRow_apply, Ideal.ofBits_zero_f32]

/-- A 64-vector viewed as a 1 × 64 row reads, at (0, q), its entry q. -/
theorem rowOfVec_apply (v : FVec Ideal S64 .f32) (h : S64.ShapeCasts S1x64) (q : Fin 64) :
    shapeCast S1x64 v h (ix2 (0 : Fin 1) q) = v (ix1 q) := by
  refine shapeCast_apply v h (ix2 (0 : Fin 1) q) (ix1 q) ?_
  rw [Shape.rowMajor_val_one, Shape.rowMajor_val_two]
  show q.val = 0 * 64 + q.val
  omega

/-- A 1 × 64 row viewed as a 64-vector reads, at q, the row's entry (0, q). -/
theorem vecOfRow_apply (v : FVec Ideal S1x64 .f32) (h : S1x64.ShapeCasts S64) (q : Fin 64) :
    shapeCast S64 v h (ix1 q) = v (ix2 (0 : Fin 1) q) := by
  refine shapeCast_apply v h (ix1 q) (ix2 (0 : Fin 1) q) ?_
  rw [Shape.rowMajor_val_one, Shape.rowMajor_val_two]
  show 0 * 64 + q.val = q.val
  omega

/-- The column sum of a 10000 × 64 block at q: the sum over the 10000 rows of its entries in column q. -/
theorem colReduce_apply (v : FVec Ideal S10000x64 .f32) (h : S10000x64.Reduces [0] S64) (hφ : FKind.Formats .f32)
    (hacc : (0x00000000#32 : BitVec 32) = 0x00000000#32) (q : Fin 64) :
    multiReduction (F := Ideal) .add [0] S64 v 0x00000000#32 h hφ hacc (ix1 q) = ∑ p : Fin 10000, v (ix2 p q) := by
  refine (Ideal.multiReduction_add_single v 0x00000000#32 h hφ hacc (ix1 q)).trans ?_
  refine Finset.sum_congr rfl fun p _ => congrArg v ?_
  funext a
  match a with
  | ⟨0, _⟩ => rfl
  | ⟨1, _⟩ => rfl

/-- The sum accumulator after the body at (0, q): what it held plus the block's column sum of activations. -/
theorem pay4_apply (x : Vec Ideal S10000x64 .f32) (b s : Vec Ideal S1x64 .f32) (q : Fin 64) :
    k1_pay4 x b s (ix2 (0 : Fin 1) q) = s (ix2 (0 : Fin 1) q) + ∑ p : Fin 10000, k1_pay3 x b (ix2 p q) := by
  unfold k1_pay4
  simp only [shapeCast_self]
  show s (ix2 (0 : Fin 1) q) + shapeCast S1x64 _ _ (ix2 (0 : Fin 1) q) = _
  rw [rowOfVec_apply, colReduce_apply]

/-- The sum-of-squares accumulator after the body at (0, q): what it held plus the block's column sum of squares. -/
theorem pay5_apply (x : Vec Ideal S10000x64 .f32) (b s : Vec Ideal S1x64 .f32) (q : Fin 64) :
    k1_pay5 x b s (ix2 (0 : Fin 1) q)
      = s (ix2 (0 : Fin 1) q) + ∑ p : Fin 10000, k1_pay3 x b (ix2 p q) * k1_pay3 x b (ix2 p q) := by
  unfold k1_pay5
  simp only [shapeCast_self]
  show s (ix2 (0 : Fin 1) q) + shapeCast S1x64 _ _ (ix2 (0 : Fin 1) q) = _
  rw [rowOfVec_apply, colReduce_apply]
  rfl

/-- A cleared accumulator is the zero row. -/
theorem pay1_apply (q : Fin 64) : k1_pay1 (F := Ideal) (ix2 (0 : Fin 1) q) = 0 := by
  unfold k1_pay1
  simp only [shapeCast_self]
  exact Ideal.ofBits_zero_f32
theorem pay2_apply (q : Fin 64) : k1_pay2 (F := Ideal) (ix2 (0 : Fin 1) q) = 0 := by
  unfold k1_pay2
  simp only [shapeCast_self]
  exact Ideal.ofBits_zero_f32

/-- A row viewed as a vector and back is the row. -/
theorem pay6_apply (s : Vec Ideal S1x64 .f32) (q : Fin 64) : k1_pay6 s (ix2 (0 : Fin 1) q) = s (ix2 (0 : Fin 1) q) := by
  unfold k1_pay6
  rw [rowOfVec_apply, vecOfRow_apply]
theorem pay7_apply (s : Vec Ideal S1x64 .f32) (q : Fin 64) : k1_pay7 s (ix2 (0 : Fin 1) q) = s (ix2 (0 : Fin 1) q) := by
  unfold k1_pay7
  rw [rowOfVec_apply, vecOfRow_apply]

end Cert.KernelIdeal.Val

end
-- ==== Proof.KiVal1b.lean ====
/-
  Region 1's blocks as parts of its arrays, and the accumulation over the ten grid points. Point t reads rows
  10000·t … 10000·t + 9999 of the aggregated features and the whole bias row, so the block it stores is that stretch
  of the rectified activations; the two accumulators after point n hold, column by column, the sums of the
  activations (of their squares) over rows 0 … 10000·(n + 1) − 1, and after the last point over all 100000 rows.
-/
import proofs.«162183_j53549652247107_1_alg».proof.Proof.KiR1
import proofs.«162183_j53549652247107_1_alg».proof.Proof.KiVal1a
import proofs.«162183_j53549652247107_1_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Algebra.BigOperators.Intervals

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem

/-! ## Sums over the rows, as sums over a range of naturals -/

/-- Column q of a 100000-row matrix as a sequence over the naturals, zero past the last row. -/
def colSeq (a : Cert.Spec.Mat 100000 64) (q : Fin 64) (r : ℕ) : EReal :=
  if h : r < 100000 then a (ix2 (⟨r, h⟩ : Fin 100000) q) else 0

/-- Inside the matrix the sequence reads the entry. -/
theorem colSeq_of_lt (a : Cert.Spec.Mat 100000 64) (q : Fin 64) (r : ℕ) (h : r < 100000) :
    colSeq a q r = a (ix2 (⟨r, h⟩ : Fin 100000) q) := dif_pos h

/-- The whole column's sum is the sequence's sum over the first 100000 naturals. -/
theorem sum_colSeq (a : Cert.Spec.Mat 100000 64) (q : Fin 64) :
    ∑ r ∈ Finset.range 100000, colSeq a q r = ∑ r : Fin 100000, a (ix2 r q) := by
  rw [← Fin.sum_univ_eq_sum_range (fun r => colSeq a q r) 100000]
  exact Finset.sum_congr rfl fun r _ => colSeq_of_lt a q r.val r.isLt

/-- A quantity that starts at the first stretch's sum and grows by the next stretch's sum at every step is, after
    step n, the sum over the first n + 1 stretches laid end to end (stretches of 10000). -/
theorem acc_eq_sum (f : ℕ → EReal) (N : ℕ) (s : (n : ℕ) → n < N → EReal)
    (h0 : ∀ hn, s 0 hn = 0 + ∑ p ∈ Finset.range 10000, f (10000 * 0 + p))
    (hs : ∀ n hn, s (n + 1) hn = s n (Nat.lt_of_succ_lt hn) + ∑ p ∈ Finset.range 10000, f (10000 * (n + 1) + p)) :
    ∀ n hn, s n hn = ∑ r ∈ Finset.range (10000 * (n + 1)), f r
  | 0, hn => by
    rw [h0 hn, zero_add]
    exact Finset.sum_congr rfl fun p _ => by rw [Nat.mul_zero, Nat.zero_add]
  | n + 1, hn => by
    rw [hs n hn, acc_eq_sum f N s h0 hs n (Nat.lt_of_succ_lt hn), show 10000 * (n + 1 + 1) = 10000 * (n + 1) + 10000 from by ring,
      Finset.sum_range_add]

/-! ## The blocks the points read and store -/

variable (V : (c : Dev nD) → (b : Ref sig .tc) → Buf (Elt Ideal) ((c : Thread nD τ).loc b))

/-- The windows' index maps over the grid: the row windows (0 and 2) are at block (t, 0), the bias and the statistics
    (1 and 3) at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- A point's number is below ten. -/
theorem point_lt (t : Fin cfg1.N) : t.val < 10 := lt_of_lt_of_eq t.isLt N_1

/-- Row p of point t's block is row 10000·t + p of the array. -/
def rowAt (t : Fin cfg1.N) (p : Fin 10000) : Fin 100000 :=
  ⟨10000 * t.val + p.val, by have := point_lt t; have := p.isLt; omega⟩

/-- The features block and the bias block point t reads, at their literal shapes. -/
abbrev xblk (c : Dev nD) (t : Fin cfg1.N) : Vec Ideal S10000x64 .f32 := iblk1 V c 0 t
abbrev bblk (c : Dev nD) (t : Fin cfg1.N) : Vec Ideal S1x64 .f32 := iblk1 V c 1 t

/-- The features block at (p, q) is the aggregated features at (10000·t + p, q). -/
theorem xblk_apply (c : Dev nD) (t : Fin cfg1.N) (p : Fin 10000) (q : Fin 64) :
    xblk V c t (ix2 p q) = V c main_v44 (ix2 (rowAt t p) q) := by
  obtain ⟨e0, e1, -⟩ := idx_facts1 t
  show iblk1 V c 0 t (ix2 p q) = _
  unfold iblk1
  rw [View.read_apply]
  show V c main_v44 _ = V c main_v44 _
  refine congrArg (V c main_v44) ?_
  funext a
  apply Fin.ext
  match a with
  | ⟨0, _⟩ => show win1_0.index t (0 : Fin 2) * 10000 + 1 * p.val = 10000 * t.val + p.val; rw [e0]; omega
  | ⟨1, _⟩ => show win1_0.index t (1 : Fin 2) * 64 + 1 * q.val = q.val; rw [e1]; omega

/-- The bias block is the bias row. -/
theorem bblk_apply (c : Dev nD) (t : Fin cfg1.N) (q : Fin 64) :
    bblk V c t (ix2 (0 : Fin 1) q) = V c main_v45 (ix2 (0 : Fin 1) q) := by
  obtain ⟨-, -, e0, e1, -⟩ := idx_facts1 t
  show iblk1 V c 1 t (ix2 (0 : Fin 1) q) = _
  unfold iblk1
  rw [View.read_apply]
  show V c main_v45 _ = V c main_v45 _
  refine congrArg (V c main_v45) ?_
  funext a
  apply Fin.ext
  match a with
  | ⟨0, _⟩ => show win1_1.index t (0 : Fin 2) * 1 + 1 * 0 = 0; rw [e0]
  | ⟨1, _⟩ => show win1_1.index t (1 : Fin 2) * 64 + 1 * q.val = q.val; rw [e1]; omega

/-- The activations: bias and rectifier over the aggregated features. -/
abbrev actArr (c : Dev nD) : Cert.Spec.Mat 100000 64 := Cert.Spec.act (V c main_v44) (V c main_v45)
/-- and their squares. -/
abbrev sqArr (c : Dev nD) : Cert.Spec.Mat 100000 64 := fun i => actArr V c i * actArr V c i

/-- The activation block point t stores, at (p, q): the activation at (10000·t + p, q). -/
theorem actBlk_apply (c : Dev nD) (t : Fin cfg1.N) (p : Fin 10000) (q : Fin 64) :
    k1_pay3 (xblk V c t) (bblk V c t) (ix2 p q) = actArr V c (ix2 (rowAt t p) q) := by
  refine (pay3_apply (xblk V c t) (bblk V c t) p q).trans ?_
  rw [xblk_apply, bblk_apply]
  rfl

/-- A block's column sum of activations is the stretch of the column sequence the block covers; -/
theorem blkSum_eq (c : Dev nD) (t : Fin cfg1.N) (q : Fin 64) :
    ∑ p : Fin 10000, k1_pay3 (xblk V c t) (bblk V c t) (ix2 p q)
      = ∑ p ∈ Finset.range 10000, colSeq (actArr V c) q (10000 * t.val + p) := by
  rw [← Fin.sum_univ_eq_sum_range (fun p => colSeq (actArr V c) q (10000 * t.val + p)) 10000]
  refine Finset.sum_congr rfl fun p _ => ?_
  rw [actBlk_apply]
  exact (colSeq_of_lt (actArr V c) q (10000 * t.val + p.val) (rowAt t p).isLt).symm

/-- and likewise its column sum of squares. -/
theorem blkSumSq_eq (c : Dev nD) (t : Fin cfg1.N) (q : Fin 64) :
    ∑ p : Fin 10000, k1_pay3 (xblk V c t) (bblk V c t) (ix2 p q) * k1_pay3 (xblk V c t) (bblk V c t) (ix2 p q)
      = ∑ p ∈ Finset.range 10000, colSeq (sqArr V c) q (10000 * t.val + p) := by
  rw [← Fin.sum_univ_eq_sum_range (fun p => colSeq (sqArr V c) q (10000 * t.val + p)) 10000]
  refine Finset.sum_congr rfl fun p _ => ?_
  rw [actBlk_apply]
  exact (colSeq_of_lt (sqArr V c) q (10000 * t.val + p.val) (rowAt t p).isLt).symm

/-! ## The accumulators -/

/-- One point's step of the sum accumulator, at (0, q). -/
theorem sumOut_step (c : Dev nD) (t : Fin cfg1.N) (s : Vec Ideal S1x64 .f32) (q : Fin 64) :
    sumOut (xblk V c t) (bblk V c t) s (ix2 (0 : Fin 1) q)
      = s (ix2 (0 : Fin 1) q) + ∑ p ∈ Finset.range 10000, colSeq (actArr V c) q (10000 * t.val + p) := by
  rw [sumOut_eq, pay4_apply, blkSum_eq]

/-- One point's step of the sum-of-squares accumulator, at (0, q). -/
theorem sqOut_step (c : Dev nD) (t : Fin cfg1.N) (s : Vec Ideal S1x64 .f32) (q : Fin 64) :
    sqOut (xblk V c t) (bblk V c t) s (ix2 (0 : Fin 1) q)
      = s (ix2 (0 : Fin 1) q) + ∑ p ∈ Finset.range 10000, colSeq (sqArr V c) q (10000 * t.val + p) := by
  rw [sqOut_eq, pay5_apply, blkSumSq_eq]

/-- A cleared accumulator reads zero. -/
theorem zero1_apply (q : Fin 64) : (zero1 : Vec Ideal S1x64 .f32) (ix2 (0 : Fin 1) q) = 0 := by
  rw [zero1_eq, pay1_apply]

/-- THE SUM ACCUMULATOR after point n, at (0, q): the activations' column q summed over rows 0 … 10000·(n + 1) − 1. -/
theorem scAt1_sum (c : Dev nD) (q : Fin 64) (n : ℕ) (hn : n < cfg1.N) :
    (scAt1 V c n hn).1 (ix2 (0 : Fin 1) q) = ∑ r ∈ Finset.range (10000 * (n + 1)), colSeq (actArr V c) q r := by
  refine acc_eq_sum (colSeq (actArr V c) q) cfg1.N (fun n hn => (scAt1 V c n hn).1 (ix2 (0 : Fin 1) q)) ?_ ?_ n hn
  · intro h
    show sumOut (xblk V c ⟨0, h⟩) (bblk V c ⟨0, h⟩) zero1 (ix2 (0 : Fin 1) q) = _
    rw [sumOut_step, zero1_apply]
  · intro n h
    show sumOut (xblk V c ⟨n + 1, h⟩) (bblk V c ⟨n + 1, h⟩) (scAt1 V c n (Nat.lt_of_succ_lt h)).1 (ix2 (0 : Fin 1) q) = _
    rw [sumOut_step]

/-- THE SUM-OF-SQUARES ACCUMULATOR after point n, at (0, q): the squares' column q over the same rows. -/
theorem scAt1_sumsq (c : Dev nD) (q : Fin 64) (n : ℕ) (hn : n < cfg1.N) :
    (scAt1 V c n hn).2 (ix2 (0 : Fin 1) q) = ∑ r ∈ Finset.range (10000 * (n + 1)), colSeq (sqArr V c) q r := by
  refine acc_eq_sum (colSeq (sqArr V c) q) cfg1.N (fun n hn => (scAt1 V c n hn).2 (ix2 (0 : Fin 1) q)) ?_ ?_ n hn
  · intro h
    show sqOut (xblk V c ⟨0, h⟩) (bblk V c ⟨0, h⟩) zero1 (ix2 (0 : Fin 1) q) = _
    rw [sqOut_step, zero1_apply]
  · intro n h
    show sqOut (xblk V c ⟨n + 1, h⟩) (bblk V c ⟨n + 1, h⟩) (scAt1 V c n (Nat.lt_of_succ_lt h)).2 (ix2 (0 : Fin 1) q) = _
    rw [sqOut_step]

/-- After the last point the two accumulators hold the column sums over all 100000 rows. -/
theorem scAt1_last_sum (c : Dev nD) (q : Fin 64) (hn : 9 < cfg1.N) :
    (scAt1 V c 9 hn).1 (ix2 (0 : Fin 1) q) = Cert.Spec.colSum (actArr V c) q := by
  rw [scAt1_sum]
  exact sum_colSeq (actArr V c) q
theorem scAt1_last_sumsq (c : Dev nD) (q : Fin 64) (hn : 9 < cfg1.N) :
    (scAt1 V c 9 hn).2 (ix2 (0 : Fin 1) q) = Cert.Spec.colSumSq (actArr V c) q := by
  rw [scAt1_sumsq]
  exact sum_colSeq (sqArr V c) q

end Cert.KernelIdeal.Val

end
-- ==== Proof.KiVal1.lean ====
/-
  What region 1 leaves in its two output arrays, at the extended reals: the rectified activations, and their column
  sums and column sums of squares accumulated block by block over the ten grid points.
-/
import proofs.«162183_j53549652247107_1_alg».proof.Proof.KiR1
import proofs.«162183_j53549652247107_1_alg».proof.Proof.KiVal1a
import proofs.«162183_j53549652247107_1_alg».proof.Proof.KiVal1b
import proofs.«162183_j53549652247107_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The activation array: every point writes back its stretch of rows -/

/-- What point t writes back into the activation array is block t of the activations. -/
theorem flushedAct_eq (c : Dev nD) (t : Fin cfg1.N) :
    (dat1 (F := Ideal) V c).flushed 2 t = ((cfg1.win 2).blk t).view.read (Elt Ideal) (actArr V c) := by
  obtain ⟨-, -, -, -, e0, e1, -⟩ := idx_facts1 t
  show (cfg1.win 2).cut (grid1.coords t) ((dat1 (F := Ideal) V c).after 2 t) = _
  rw [after1_2, aOut_eq]
  funext j
  obtain ⟨p, q, rfl⟩ : ∃ (p : Fin 10000) (q : Fin 64), j = ix2 p q := ⟨j 0, j 1, eq_ix2 j⟩
  rw [View.read_apply]
  show k1_pay3 (xblk V c t) (bblk V c t) (ix2 p q) = actArr V c _
  rw [actBlk_apply]
  refine congrArg (actArr V c) ?_
  funext a
  apply Fin.ext
  match a with
  | ⟨0, _⟩ => show 10000 * t.val + p.val = win1_2.index t (0 : Fin 2) * 10000 + 1 * p.val; rw [e0]; omega
  | ⟨1, _⟩ => show q.val = win1_2.index t (1 : Fin 2) * 64 + 1 * q.val; rw [e1]; omega

/-- An index of the activation array is in point t's block iff each coordinate is in the block's range on its axis. -/
theorem mem_blkAct (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v46_0).slice (win1_2.rect t)).set ↔ _
  rw [View.set_slice_whole, Rect.mem_set_unit]
  exact Iff.rfl

/-- Row r is in the block of point r / 10000, which writes back like every point. -/
theorem coverAct (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 10000 < cfg1.N := lt_of_lt_of_eq (by omega : (i 0).val / 10000 < 10) N_1.symm
  obtain ⟨-, -, -, -, e0, e1, -⟩ := idx_facts1 ⟨(i 0).val / 10000, ht⟩
  refine ⟨⟨(i 0).val / 10000, ht⟩, flush1_2 _, ?_⟩
  rw [mem_blkAct]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e1]
    omega

/-- The activation array after region 1: bias and rectifier over the aggregated features the region is entered with. -/
theorem region1_act (c : Dev nD) :
    (dat1 (F := Ideal) V c).arrAt 2 cfg1.N = Cert.Spec.act (V c main_v44) (V c main_v45) :=
  (dat1 (F := Ideal) V c).arrAt_eq_of_cover 2 (actArr V c) (fun t _ => flushedAct_eq V c t) coverAct

/-! ## The statistics array: the last point alone writes back, and its one block is the whole array -/

/-- The last point's position is inside the grid. -/
theorem nine_lt : 9 < cfg1.N := lt_of_lt_of_eq (by decide : 9 < 10) N_1.symm

/-- The statistics block the last point stores: its rows are the two accumulators after the last point. -/
abbrev statsLast (c : Dev nD) : Vec Ideal S2x64 .f32 := statsOut (scAt1 V c 9 nine_lt).1 (scAt1 V c 9 nine_lt).2

/-- The one write-back into the statistics array writes that block, and the block is the whole 2 × 64 array. -/
theorem flushedStats_eq (c : Dev nD) (t : Fin cfg1.N) (hf : (cfg1.win 3).flush t = true) :
    (dat1 (F := Ideal) V c).flushed 3 t = ((cfg1.win 3).blk t).view.read (Elt Ideal) (statsLast V c) := by
  obtain ⟨-, -, -, -, -, -, e0, e1⟩ := idx_facts1 t
  have h9 : t.val = 9 := by have := (flush1_3 t).mp hf; have := point_lt t; omega
  obtain ⟨tv, ht⟩ := t
  have h9' : tv = 9 := h9
  subst h9'
  show (cfg1.win 3).cut (grid1.coords ⟨9, ht⟩) ((dat1 (F := Ideal) V c).after 3 ⟨9, ht⟩) = _
  rw [after1_3]
  funext j
  obtain ⟨r, q, rfl⟩ : ∃ (r : Fin 2) (q : Fin 64), j = ix2 r q := ⟨j 0, j 1, eq_ix2 j⟩
  rw [View.read_apply]
  show statsLast V c (ix2 r q) = statsLast V c _
  refine congrArg (statsLast V c) ?_
  funext a
  apply Fin.ext
  match a with
  | ⟨0, _⟩ => show r.val = win1_3.index ⟨9, ht⟩ (0 : Fin 2) * 2 + 1 * r.val; rw [e0]; omega
  | ⟨1, _⟩ => show q.val = win1_3.index ⟨9, ht⟩ (1 : Fin 2) * 64 + 1 * q.val; rw [e1]; omega

/-- An index of the statistics array is in a point's block iff each coordinate is in the block's range on its axis. -/
theorem mem_blkStats (t : Fin cfg1.N) (i : S2x64.Idx) :
    i ∈ ((cfg1.win 3).blk t).view.set ↔ ∀ a : Fin 2, win1_3.index t a * S2x64.size a ≤ (i a).val
      ∧ (i a).val < win1_3.index t a * S2x64.size a + S2x64.size a := by
  show i ∈ ((View.whole main_v46_1).slice (win1_3.rect t)).set ↔ _
  rw [View.set_slice_whole, Rect.mem_set_unit]
  exact Iff.rfl

/-- Every index of the statistics array is in the last point's block. -/
theorem coverStats (i : S2x64.Idx) :
    ∃ t : Fin cfg1.N, (cfg1.win 3).flush t = true ∧ i ∈ ((cfg1.win 3).blk t).view.set := by
  have hi0 : (i 0).val < 2 := (i 0).isLt
  have hi1 : (i 1).val < 64 := (i 1).isLt
  obtain ⟨-, -, -, -, -, -, e0, e1⟩ := idx_facts1 ⟨9, nine_lt⟩
  refine ⟨⟨9, nine_lt⟩, (flush1_3 _).mpr rfl, ?_⟩
  rw [mem_blkStats]
  intro a
  match a with
  | ⟨0, _⟩ =>
    show win1_3.index ⟨9, nine_lt⟩ (0 : Fin 2) * 2 ≤ (i 0).val ∧ (i 0).val < win1_3.index ⟨9, nine_lt⟩ (0 : Fin 2) * 2 + 2
    rw [e0]; omega
  | ⟨1, _⟩ =>
    show win1_3.index ⟨9, nine_lt⟩ (1 : Fin 2) * 64 ≤ (i 1).val ∧ (i 1).val < win1_3.index ⟨9, nine_lt⟩ (1 : Fin 2) * 64 + 64
    rw [e1]; omega

/-- So the statistics array ends holding the last point's block. -/
theorem statsArr_eq (c : Dev nD) : (dat1 (F := Ideal) V c).arrAt 3 cfg1.N = statsLast V c :=
  (dat1 (F := Ideal) V c).arrAt_eq_of_cover 3 (statsLast V c) (flushedStats_eq V c) coverStats

/-- Row 0 of the statistics array after region 1: the column sums of the activations over all 100000 rows. -/
theorem region1_sum (c : Dev nD) (j : Fin 64) :
    (dat1 (F := Ideal) V c).arrAt 3 cfg1.N (ix2 (0 : Fin 2) j) = Cert.Spec.colSum (Cert.Spec.act (V c main_v44) (V c main_v45)) j := by
  refine (congrFun (statsArr_eq V c) (ix2 (0 : Fin 2) j)).trans ?_
  show statsOut (scAt1 V c 9 nine_lt).1 (scAt1 V c 9 nine_lt).2 (ix2 (0 : Fin 2) j) = _
  rw [statsOut_row0, pay6_apply]
  exact scAt1_last_sum V c j nine_lt
/-- Row 1: the column sums of their squares. -/
theorem region1_sumsq (c : Dev nD) (j : Fin 64) :
    (dat1 (F := Ideal) V c).arrAt 3 cfg1.N (ix2 (1 : Fin 2) j) = Cert.Spec.colSumSq (Cert.Spec.act (V c main_v44) (V c main_v45)) j := by
  refine (congrFun (statsArr_eq V c) (ix2 (1 : Fin 2) j)).trans ?_
  show statsOut (scAt1 V c 9 nine_lt).1 (scAt1 V c 9 nine_lt).2 (ix2 (1 : Fin 2) j) = _
  rw [statsOut_row1, pay7_apply]
  exact scAt1_last_sumsq V c j nine_lt

end Cert.KernelIdeal.Val

end
-- ==== Proof.KiVal2.lean ====
/-
  What region 2 leaves in its output array, at the extended reals: the affine normalisation. First the body's
  arithmetic at one entry (row p, column q of a block of 10000 rows); then each grid point's block of activations and
  the four resident rows read off their arrays, so that the block written back at point t is block t of the
  normalised array; then the ten blocks cover the 100000 rows, so the array ends holding the normalisation.
-/
import proofs.«162183_j53549652247107_1_alg».proof.Proof.KiR2
import proofs.«162183_j53549652247107_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem

/-- The body's arithmetic at row p, column q: the scale row times the centred activation times the inverse square
    root of the guarded variance row, plus the shift row; every row read at its one row 0. -/
theorem pay_norm_apply (v γ : Vec Ideal S1x64 .f32) (a : Vec Ideal S10000x64 .f32) (μ β : Vec Ideal S1x64 .f32)
    (p : Fin 10000) (q : Fin 64) :
    k2_pay1 v γ a μ β (ix2 p q)
      = γ (ix2 (0 : Fin 1) q) * (a (ix2 p q) - μ (ix2 (0 : Fin 1) q)) * Ideal.rsqrt (v (ix2 (0 : Fin 1) q) + Cert.Spec.eps)
        + β (ix2 (0 : Fin 1) q) := by
  unfold k2_pay1
  simp only [shapeCast_self]
  rw [addf_apply, mulf_apply, mulf_apply, subf_apply,
    broadcastTo_1b_ab_apply γ broadcasts_S1x64_S10000x64 p q,
    broadcastTo_1b_ab_apply μ broadcasts_S1x64_S10000x64 p q,
    broadcastTo_1b_ab_apply β broadcasts_S1x64_S10000x64 p q,
    broadcastTo_1b_ab_apply _ broadcasts_S1x64_S10000x64 p q]
  rfl

/-- The same, with the block and the rows known as entries of an activation matrix and of four 1 × 64 rows: the
    normalisation of that matrix at the row the block's row p is. -/
theorem pay_norm_of (A : Cert.Spec.Mat 100000 64) (M W G B : Cert.Spec.Mat 1 64)
    (x0 : Vec Ideal S10000x64 .f32) (x1 x2 x3 x4 : Vec Ideal S1x64 .f32)
    (p : Fin 10000) (q : Fin 64) (r : Fin 100000)
    (h0 : x0 (ix2 p q) = A (ix2 r q)) (h1 : x1 (ix2 (0 : Fin 1) q) = M (ix2 (0 : Fin 1) q))
    (h2 : x2 (ix2 (0 : Fin 1) q) = W (ix2 (0 : Fin 1) q)) (h3 : x3 (ix2 (0 : Fin 1) q) = G (ix2 (0 : Fin 1) q))
    (h4 : x4 (ix2 (0 : Fin 1) q) = B (ix2 (0 : Fin 1) q)) :
    k2_pay1 x2 x3 x0 x1 x4 (ix2 p q)
      = Cert.Spec.norm A (fun j => M (ix2 (0 : Fin 1) j)) (fun j => W (ix2 (0 : Fin 1) j))
          (fun j => G (ix2 (0 : Fin 1) j)) (fun j => B (ix2 (0 : Fin 1) j)) (ix2 r q) := by
  rw [pay_norm_apply, h0, h1, h2, h3, h4]
  rfl

variable (V : (c : Dev nD) → (b : Ref sig .tc) → Buf (Elt Ideal) ((c : Thread nD τ).loc b))

/-- The zero offsets of a whole-block access, as a constant function. -/
theorem zeros2 : (![0, 0] : Fin 2 → Nat) = fun _ => 0 := funext fun a => by fin_cases a <;> rfl

/-- The index maps over the grid: point t's activation block and result block are block t of their arrays'
    rows, column block 0; each row window stays on its one block. -/
theorem block_index : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The normalisation of the activation array by the four rows, as the region finds them. -/
abbrev normOf (c : Dev nD) : Cert.Spec.Mat 100000 64 :=
  Cert.Spec.norm (V c main_v46_0) (fun j => V c main_v49 (ix2 (0 : Fin 1) j)) (fun j => V c main_v54 (ix2 (0 : Fin 1) j))
    (fun j => V c main_v55 (ix2 (0 : Fin 1) j)) (fun j => V c main_v56 (ix2 (0 : Fin 1) j))

/-- What point t writes back is block t of the normalised array: rows 10000·t … 10000·t + 9999, all 64 columns. -/
theorem flushed_norm (c : Dev nD) (t : Fin cfg2.N) :
    (dat2 (F := Ideal) V c).flushed 5 t = ((cfg2.win 5).blk t).view.read (Elt Ideal) (normOf V c) := by
  show (cfg2.win 5).cut (grid2.coords t) ((dat2 V c).after 5 t) = _
  rw [after2_5]
  unfold out2_5
  rw [View.canon_unit_zero zeros2]
  simp only [View.ld_unit_zero (S := S10000x64) zeros2, View.ld_unit_zero (S := S1x64) zeros2]
  obtain ⟨a0, a1, o0, o1, m0, m1, w0, w1, g0, g1, b0, b1⟩ := block_index t
  have ht : t.val < 10 := lt_of_lt_of_eq t.isLt N_2
  refine funext fun (j : S10000x64.Idx) => ?_
  obtain ⟨p, q, rfl⟩ : ∃ (p : Fin 10000) (q : Fin 64), j = ix2 p q := ⟨j 0, j 1, eq_ix2 j⟩
  have hp : p.val < 10000 := p.isLt
  have hq : q.val < 64 := q.isLt
  have eo : ((cfg2.win 5).blk t).view.emb (ix2 p q) = ix2 (⟨t.val * 10000 + p.val, by omega⟩ : Fin 100000) q := by
    funext a; apply Fin.ext
    match a with
    | ⟨0, _⟩ => show win2_5.index t (0 : Fin 2) * 10000 + 1 * p.val = t.val * 10000 + p.val; omega
    | ⟨1, _⟩ => show win2_5.index t (1 : Fin 2) * 64 + 1 * q.val = q.val; omega
  have ea : ((cfg2.win 0).blk t).view.emb (ix2 p q) = ix2 (⟨t.val * 10000 + p.val, by omega⟩ : Fin 100000) q := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * q.val = q.val; omega
  have em : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 64 + 1 * q.val = q.val; omega
  have ew : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 64 + 1 * q.val = q.val; omega
  have eg : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 64 + 1 * q.val = q.val; omega
  have eb : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 64 + 1 * q.val = q.val; omega
  show k2_pay1 (iblk2 V c 2 t) (iblk2 V c 3 t) (iblk2 V c 0 t) (iblk2 V c 1 t) (iblk2 V c 4 t) (ix2 p q)
    = normOf V c (((cfg2.win 5).blk t).view.emb (ix2 p q))
  rw [eo]
  refine pay_norm_of (V c main_v46_0) (V c main_v49) (V c main_v54) (V c main_v55) (V c main_v56)
    (iblk2 V c 0 t) (iblk2 V c 1 t) (iblk2 V c 2 t) (iblk2 V c 3 t) (iblk2 V c 4 t) p q
    (⟨t.val * 10000 + p.val, by omega⟩ : Fin 100000) ?_ ?_ ?_ ?_ ?_
  · show V c main_v46_0 (((cfg2.win 0).blk t).view.emb (ix2 p q)) = _
    rw [ea]
  · show V c main_v49 (((cfg2.win 1).blk t).view.emb (ix2 (0 : Fin 1) q)) = _
    rw [em]
  · show V c main_v54 (((cfg2.win 2).blk t).view.emb (ix2 (0 : Fin 1) q)) = _
    rw [ew]
  · show V c main_v55 (((cfg2.win 3).blk t).view.emb (ix2 (0 : Fin 1) q)) = _
    rw [eg]
  · show V c main_v56 (((cfg2.win 4).blk t).view.emb (ix2 (0 : Fin 1) q)) = _
    rw [eb]

/-- An index of the result array is in point t's block iff each coordinate is in the block's range on its axis. -/
theorem mem_blk_norm (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v57).slice (win2_5.rect t)).set ↔ _
  rw [View.set_slice_whole, Rect.mem_set_unit]
  exact Iff.rfl

/-- Row r of the result lies in the block of point r / 10000, and every point writes its block back: the ten blocks
    cover the array, which therefore ends holding the normalisation. -/
theorem final_norm (c : Dev nD) : (dat2 (F := Ideal) V c).arrAt 5 cfg2.N = normOf V c :=
  (dat2 V c).arrAt_eq_of_cover 5 (normOf V c) (fun t _ => flushed_norm V c t) fun i => by
    have hi0 : (i 0).val < 100000 := (i 0).isLt
    have hi1 : (i 1).val < 64 := (i 1).isLt
    obtain ⟨t, ht⟩ : ∃ t : Fin cfg2.N, t.val = (i 0).val / 10000 :=
      ⟨⟨(i 0).val / 10000, by rw [show cfg2.N = 10 from N_2]; omega⟩, rfl⟩
    obtain ⟨-, -, o0, o1, -⟩ := block_index t
    refine ⟨t, flush2_5 t, ?_⟩
    rw [mem_blk_norm]
    intro a
    match a with
    | ⟨0, _⟩ =>
      show win2_5.index t (0 : Fin 2) * 10000 ≤ (i 0).val ∧ (i 0).val < win2_5.index t (0 : Fin 2) * 10000 + 10000
      omega
    | ⟨1, _⟩ =>
      show win2_5.index t (1 : Fin 2) * 64 ≤ (i 1).val ∧ (i 1).val < win2_5.index t (1 : Fin 2) * 64 + 64
      omega

/-- The result array after region 2: the affine normalisation of the activations by the four rows the region is entered with. -/
theorem region2_value (c : Dev nD) :
    (dat2 (F := Ideal) V c).arrAt 5 cfg2.N
      = Cert.Spec.norm (V c main_v46_0) (fun j => V c main_v49 (ix2 (0 : Fin 1) j)) (fun j => V c main_v54 (ix2 (0 : Fin 1) j))
          (fun j => V c main_v55 (ix2 (0 : Fin 1) j)) (fun j => V c main_v56 (ix2 (0 : Fin 1) j)) := final_norm V c

end Cert.KernelIdeal.Val

end
-- ==== Proof.RefVal.lean ====
/-
  The reference's result at the extended reals, index by index: the affine normalisation of its activations by their
  column mean and by the mean of the squared deviations, the activations being bias and rectifier over the
  aggregation (unopened) of the linear transform.
-/
import proofs.«162183_j53549652247107_1_alg».proof.Proof.RefRead
import proofs.«162183_j53549652247107_1_alg».proof.Proof.Spec
import proofs.«162183_j53549652247107_1_alg».proof.Proof.Agg
import Idealize.ShloMosaic.Lib.Pipeline.Value
import Idealize.ShloMosaic.Lib.ValueIdx
import Idealize.ShloMosaic.PureOps.Ideal.Laws

noncomputable section

open scoped BigOperators

namespace Cert.RefVal

open Cert.ReferenceIdeal Cert.ReferenceIdeal.ReadP Idealize.ShloMosaic Idealize.ShloMosaic.ValueIdx

/-- The reference's activations: bias and rectifier over the aggregation of the product. -/
def refAct (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal)) : Cert.Spec.Mat 100000 64 :=
  Cert.Spec.act (Cert.Agg.aggOf (F := Ideal) (Cert.Spec.lin x0 x2) x1) (fun i => x3 (ix1 (i 1)))

/-- The reference's product is the linear transform. -/
theorem ref_lin (x0 : (⟨S100000x64, .f32⟩ : BufTy).Contents (Elt Ideal)) (x2 : (⟨S64x64, .f32⟩ : BufTy).Contents (Elt Ideal)) :
    val_main_v31 (F := Ideal) x0 x2 = Cert.Spec.lin x0 x2 := by
  funext i
  rw [val_main_v31_apply]
  unfold Cert.Spec.lin
  refine Finset.sum_congr rfl fun k _ => ?_
  have el : lidx_main_v31 i k = ix2 (i 0) k :=
    funext fun a => Fin.ext (by match a with | ⟨0, _⟩ => rfl | ⟨1, _⟩ => rfl)
  have er : ridx_main_v31 i k = ix2 k (i 1) :=
    funext fun a => Fin.ext (by match a with | ⟨0, _⟩ => rfl | ⟨1, _⟩ => rfl)
  rw [el, er]
  rfl

/-- The reference's activations, as an array, are bias and rectifier over the aggregation of the linear transform:
    the bias row is read at the column, and the rectifier's second operand is the constant zero. -/
theorem ref_act (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal)) :
    val_main_v48 (F := Ideal) x0 x1 x2 x3 = refAct x0 x1 x2 x3 := by
  funext i
  rw [val_main_v48_apply, val_main_v47_apply, Cert.Agg.val_main_v44_eq, ref_lin, val_main_v46_apply, val_main_v45_apply,
    val_main_call1_v0_apply, val_main_call1_cst_apply]
  unfold refAct Cert.Spec.act
  generalize Cert.Agg.aggOf (F := Ideal) (Cert.Spec.lin x0 x2) x1 = g
  have eb : idx_main_v45 (idx_main_v46 i) = ix1 (i 1) :=
    funext fun a => Fin.ext (by match a with | ⟨0, _⟩ => rfl)
  rw [eb]
  simp only [Ideal.maximumf_def, Ideal.addf_def, Ideal.ofBits_def, Ideal.ofBits_zero_f32]
  rfl

/-- The reference's column mean: its float sum over the 100000 rows starts from the constant zero and reads the
    activations at (row, column); the quotient by the number of nodes is the specification's. -/
theorem ref_mean (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal)) (j : Fin 64) :
    val_main_v51 (F := Ideal) x0 x1 x2 x3 (ix1 j) = Cert.Spec.mean (refAct x0 x1 x2 x3) j := by
  rw [val_main_v51_apply, val_main_v49_apply, val_main_v50_apply, val_main_cst_10_apply, val_main_cst_9_apply, ref_act]
  generalize refAct x0 x1 x2 x3 = a
  have hs : (∑ k : Fin 100000, a (idx_main_v49 (ix1 j) k)) = ∑ r : Fin 100000, a (ix2 r j) :=
    Finset.sum_congr rfl fun k _ =>
      congrArg a (funext fun d => Fin.ext (by match d with | ⟨0, _⟩ => rfl | ⟨1, _⟩ => rfl))
  rw [hs]
  unfold Cert.Spec.mean Cert.Spec.colSum Cert.Spec.nodes
  simp only [Ideal.hostDivf_def, Ideal.ofBits_def, Ideal.ofBits_zero_f32, zero_add]

/-- The reference's column variance: the mean over the rows of the squared deviations from the column mean. -/
theorem ref_var (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal)) (j : Fin 64) :
    val_main_v58 (F := Ideal) x0 x1 x2 x3 (ix1 j) = Cert.Spec.varR (refAct x0 x1 x2 x3) j := by
  have hk : ∀ k : Fin 100000, val_main_v55 (F := Ideal) x0 x1 x2 x3 (idx_main_v56 (ix1 j) k)
      = (refAct x0 x1 x2 x3 (ix2 k j) - Cert.Spec.mean (refAct x0 x1 x2 x3) j)
        * (refAct x0 x1 x2 x3 (ix2 k j) - Cert.Spec.mean (refAct x0 x1 x2 x3) j) := by
    intro k
    have e1 : idx_main_v56 (ix1 j) k = ix2 k j :=
      funext fun d => Fin.ext (by match d with | ⟨0, _⟩ => rfl | ⟨1, _⟩ => rfl)
    have e2 : idx_main_v52 (idx_main_v53 (ix2 k j)) = ix1 j :=
      funext fun d => Fin.ext (by match d with | ⟨0, _⟩ => rfl)
    rw [e1, val_main_v55_apply, val_main_v54_apply, val_main_v53_apply, val_main_v52_apply, e2, ref_mean, ref_act]
    simp only [Ideal.mulf_def, Ideal.subf_def]
  rw [val_main_v58_apply, val_main_v56_apply, val_main_v57_apply, val_main_cst_12_apply, val_main_cst_11_apply,
    Finset.sum_congr rfl fun k _ => hk k]
  unfold Cert.Spec.varR Cert.Spec.nodes
  simp only [Ideal.hostDivf_def, Ideal.ofBits_def, Ideal.ofBits_zero_f32, zero_add]

/-- The reference's result. -/
theorem ref_value (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 x4 x5 : (⟨S64, .f32⟩ : BufTy).Contents (Elt Ideal)) :
    val_main_v73 (F := Ideal) x0 x1 x2 x3 x4 x5
      = Cert.Spec.norm (refAct x0 x1 x2 x3) (Cert.Spec.mean (refAct x0 x1 x2 x3)) (Cert.Spec.varR (refAct x0 x1 x2 x3))
          (fun j => x4 (ix1 j)) (fun j => x5 (ix1 j)) := by
  funext i
  obtain ⟨r, j, rfl⟩ : ∃ (r : Fin 100000) (j : Fin 64), i = ix2 r j := ⟨i 0, i 1, eq_ix2 i⟩
  have e59 : idx_main_v59 (idx_main_v60 (ix2 r j)) = ix1 j :=
    funext fun d => Fin.ext (by match d with | ⟨0, _⟩ => rfl)
  have e68 : idx_main_v68 (idx_main_v69 (ix2 r j)) = ix1 j :=
    funext fun d => Fin.ext (by match d with | ⟨0, _⟩ => rfl)
  have e62 : idx_main_v62 (idx_main_v63 (ix2 r j)) = ix1 j :=
    funext fun d => Fin.ext (by match d with | ⟨0, _⟩ => rfl)
  have e71 : idx_main_v71 (idx_main_v72 (ix2 r j)) = ix1 j :=
    funext fun d => Fin.ext (by match d with | ⟨0, _⟩ => rfl)
  rw [val_main_v73_apply, val_main_v70_apply, val_main_v64_apply, val_main_v61_apply, val_main_v72_apply, val_main_v71_apply,
    val_main_v69_apply, val_main_v68_apply, val_main_v67_apply, val_main_v66_apply, val_main_v65_apply, val_main_cst_13_apply,
    val_main_v63_apply, val_main_v62_apply, val_main_v60_apply, val_main_v59_apply, e59, e68, e62, e71, ref_mean, ref_var, ref_act]
  generalize refAct x0 x1 x2 x3 = a
  unfold Cert.Spec.norm Cert.Spec.eps
  simp only [Ideal.addf_def, Ideal.mulf_def, Ideal.subf_def, Ideal.hostUnary_rsqrt_def, Ideal.ofBits_def]

end Cert.RefVal

end
-- ==== Proof.KiValue.lean ====
/-
  The kernel program's result at the extended reals. Boundary by boundary: region 0 leaves the linear transform of the
  node features; the host stretch after it aggregates the product along the edges (one unopened function) and lays the
  bias out as a row; region 1 leaves the rectified activations and their column sums and sums of squares; the next
  stretch divides by the number of nodes (mean; mean of squares minus squared mean); region 2 normalises. So the result
  array is the affine normalisation of the activations by their mean and by the variance taken as the mean of squares
  minus the squared mean.
-/
import proofs.«162183_j53549652247107_1_alg».proof.Proof.KiRun
import proofs.«162183_j53549652247107_1_alg».proof.Proof.KiHost
import proofs.«162183_j53549652247107_1_alg».proof.Proof.KiVal0
import proofs.«162183_j53549652247107_1_alg».proof.Proof.KiVal1
import proofs.«162183_j53549652247107_1_alg».proof.Proof.KiVal2
import proofs.«162183_j53549652247107_1_alg».proof.Proof.RefVal

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- Bias and rectifier read the bias through its one row only. -/
theorem act_congr (agg : Cert.Spec.Mat 100000 64) (b b' : Cert.Spec.Mat 1 64)
    (h : ∀ j : Fin 64, b (ix2 (0 : Fin 1) j) = b' (ix2 (0 : Fin 1) j)) : Cert.Spec.act agg b = Cert.Spec.act agg b' := by
  funext i
  exact congrArg (fun z => max (agg i + z) 0) (h (i 1))

/-- The activations both programs compute, from the launch contents of core `c`. -/
abbrev acts (c : Dev nD) : Cert.Spec.Mat 100000 64 :=
  Cert.RefVal.refAct (m ((c : Thread nD τ).loc main_arg0)) (m ((c : Thread nD τ).loc main_arg1)) (m ((c : Thread nD τ).loc main_arg2)) (m ((c : Thread nD τ).loc main_arg3))

/-! ## Buffers that reach a boundary with their launch contents -/

theorem B3_launch (c : Dev nD) (r : Ref sig .tc) (h0 : r ∉ Gen.hostOps0_W) (h1 : r ∉ Gen.hostOps0_1_W) (h2 : r ∉ Gen.hostOps0_2_W) :
    B3 m ρ c (Proc.devRef .tc r) = m ((c : Thread nD τ).loc r) :=
  (B3_of_B0 m ρ c r h0 h1 h2).trans rfl
theorem B4_launch (c : Dev nD) (r : Ref sig .tc) (h0 : r ∉ Gen.hostOps0_W) (h1 : r ∉ Gen.hostOps0_1_W) (h2 : r ∉ Gen.hostOps0_2_W)
    (hr : ∀ w, Pipeline.arrRef spec0 w ≠ r) : B4 m ρ c (Proc.devRef .tc r) = m ((c : Thread nD τ).loc r) :=
  (B4_of_ne m ρ c r hr).trans (B3_launch m ρ c r h0 h1 h2)
theorem B6_launch (c : Dev nD) (r : Ref sig .tc) (h0 : r ∉ Gen.hostOps0_W) (h1 : r ∉ Gen.hostOps0_1_W) (h2 : r ∉ Gen.hostOps0_2_W)
    (h4 : r ∉ Gen.hostOps1_W) (hr0 : ∀ w, Pipeline.arrRef spec0 w ≠ r) (hr1 : ∀ w, Pipeline.arrRef spec1 w ≠ r) :
    B6 m ρ c (Proc.devRef .tc r) = m ((c : Thread nD τ).loc r) :=
  (B6_of_ne m ρ c r hr1).trans ((B5_of m ρ c r h4).trans (B4_launch m ρ c r h0 h1 h2 hr0))

/-! ## Region 0 and the aggregation -/

/-- After region 0 the product buffer holds the linear transform of the launched features. -/
theorem B4_product (c : Dev nD) :
    B4 m ρ c (Proc.devRef .tc main_v31) = Cert.Spec.lin (m ((c : Thread nD τ).loc main_arg0)) (m ((c : Thread nD τ).loc main_arg2)) := by
  have h := region0_value (E3 m ρ) c
  rw [show E3 m ρ c main_arg0 = (m ((c : Thread nD τ).loc main_arg0)) from B3_launch m ρ c main_arg0 (by decide) (by decide) (by decide),
    show E3 m ρ c main_arg2 = (m ((c : Thread nD τ).loc main_arg2)) from B3_launch m ρ c main_arg2 (by decide) (by decide) (by decide)] at h
  exact (B4_arr m ρ c 2).trans h

/-- The edge indices and coefficients region 0 leaves untouched are the reference's stages of the launched edge list. -/
theorem B4_src (c : Dev nD) : B4 m ρ c (Proc.devRef .tc main_v3) = Cert.ReferenceIdeal.ReadP.val_main_v3 (F := Ideal) (m ((c : Thread nD τ).loc main_arg1)) :=
  (B4_of_ne m ρ c main_v3 (by decide)).trans (Cert.KernelIdeal.Host.host0_v3 (B0 m ρ c))
theorem B4_dst (c : Dev nD) : B4 m ρ c (Proc.devRef .tc main_v6) = Cert.ReferenceIdeal.ReadP.val_main_v6 (F := Ideal) (m ((c : Thread nD τ).loc main_arg1)) :=
  (B4_of_ne m ρ c main_v6 (by decide)).trans (Cert.KernelIdeal.Host.host0_v6 (B0 m ρ c))
theorem B4_coef (c : Dev nD) : B4 m ρ c (Proc.devRef .tc main_v30) = Cert.ReferenceIdeal.ReadP.val_main_v30 (F := Ideal) (m ((c : Thread nD τ).loc main_arg1)) :=
  (B4_of_ne m ρ c main_v30 (by decide)).trans (Cert.KernelIdeal.Host.host0_v30 (B0 m ρ c))

/-- Region 1 is entered with the aggregation of the product along the launched edges, -/
theorem E5_agg (c : Dev nD) :
    E5 m ρ c main_v44 = Cert.Agg.aggOf (F := Ideal) (Cert.Spec.lin (m ((c : Thread nD τ).loc main_arg0)) (m ((c : Thread nD τ).loc main_arg2))) (m ((c : Thread nD τ).loc main_arg1)) := by
  have h := Cert.KernelIdeal.Host.host1_v44 (B4 m ρ c) (m ((c : Thread nD τ).loc main_arg1)) (B4_src m ρ c) (B4_dst m ρ c) (B4_coef m ρ c)
  rw [B4_product m ρ c] at h
  exact h
/-- and with the launched bias as its row. -/
theorem E5_bias (c : Dev nD) (j : Fin 64) : E5 m ρ c main_v45 (ix2 (0 : Fin 1) j) = (m ((c : Thread nD τ).loc main_arg3)) (ix1 j) :=
  (Cert.KernelIdeal.Host.host1_bias (B4 m ρ c) j).trans
    (congrFun (B4_launch m ρ c main_arg3 (by decide) (by decide) (by decide) (by decide)) (ix1 j))

/-! ## Region 1 -/

/-- The activations region 1 computes are the common ones. -/
theorem E5_acts (c : Dev nD) : Cert.Spec.act (E5 m ρ c main_v44) (E5 m ρ c main_v45) = acts m c := by
  unfold acts Cert.RefVal.refAct
  rw [E5_agg m ρ c]
  exact act_congr _ _ _ fun j => (E5_bias m ρ c j).trans rfl

theorem B6_acts (c : Dev nD) : B6 m ρ c (Proc.devRef .tc main_v46_0) = acts m c :=
  (B6_arr m ρ c 2).trans ((region1_act (E5 m ρ) c).trans (E5_acts m ρ c))
theorem B6_sum (c : Dev nD) (j : Fin 64) :
    B6 m ρ c (Proc.devRef .tc main_v46_1) (ix2 (0 : Fin 2) j) = Cert.Spec.colSum (acts m c) j :=
  (congrFun (B6_arr m ρ c 3) _).trans ((region1_sum (E5 m ρ) c j).trans (by rw [E5_acts m ρ c]))
theorem B6_sumsq (c : Dev nD) (j : Fin 64) :
    B6 m ρ c (Proc.devRef .tc main_v46_1) (ix2 (1 : Fin 2) j) = Cert.Spec.colSumSq (acts m c) j :=
  (congrFun (B6_arr m ρ c 3) _).trans ((region1_sumsq (E5 m ρ) c j).trans (by rw [E5_acts m ρ c]))

/-! ## The statistics and region 2 -/

theorem E7_acts (c : Dev nD) : E7 m ρ c main_v46_0 = acts m c :=
  (Cert.KernelIdeal.Host.host2_act (B6 m ρ c)).trans (B6_acts m ρ c)
theorem E7_mean (c : Dev nD) (j : Fin 64) : E7 m ρ c main_v49 (ix2 (0 : Fin 1) j) = Cert.Spec.mean (acts m c) j := by
  rw [show E7 m ρ c main_v49 (ix2 (0 : Fin 1) j) = _ from Cert.KernelIdeal.Host.host2_mean (B6 m ρ c) j, B6_sum m ρ c j]
  rfl
theorem E7_var (c : Dev nD) (j : Fin 64) : E7 m ρ c main_v54 (ix2 (0 : Fin 1) j) = Cert.Spec.varK (acts m c) j := by
  rw [show E7 m ρ c main_v54 (ix2 (0 : Fin 1) j) = _ from Cert.KernelIdeal.Host.host2_var (B6 m ρ c) j, B6_sum m ρ c j, B6_sumsq m ρ c j]
  rfl
theorem E7_scale (c : Dev nD) (j : Fin 64) : E7 m ρ c main_v55 (ix2 (0 : Fin 1) j) = (m ((c : Thread nD τ).loc main_arg4)) (ix1 j) :=
  (Cert.KernelIdeal.Host.host2_gamma (B6 m ρ c) j).trans
    (congrFun (B6_launch m ρ c main_arg4 (by decide) (by decide) (by decide) (by decide) (by decide) (by decide)) (ix1 j))
theorem E7_shift (c : Dev nD) (j : Fin 64) : E7 m ρ c main_v56 (ix2 (0 : Fin 1) j) = (m ((c : Thread nD τ).loc main_arg5)) (ix1 j) :=
  (Cert.KernelIdeal.Host.host2_beta (B6 m ρ c) j).trans
    (congrFun (B6_launch m ρ c main_arg5 (by decide) (by decide) (by decide) (by decide) (by decide) (by decide)) (ix1 j))

/-- THE KERNEL PROGRAM'S RESULT: the affine normalisation of the activations by their column mean and by the mean of
    squares minus the squared mean. -/
theorem kernel_value (c : Dev nD) :
    B8 m ρ c (Proc.devRef .tc main_v57)
      = Cert.Spec.norm (acts m c) (Cert.Spec.mean (acts m c)) (Cert.Spec.varK (acts m c))
          (fun j => (m ((c : Thread nD τ).loc main_arg4)) (ix1 j)) (fun j => (m ((c : Thread nD τ).loc main_arg5)) (ix1 j)) := by
  rw [B8_main_v57 m ρ c, region2_value (E7 m ρ) c, E7_acts m ρ c,
    show (fun j => E7 m ρ c main_v49 (ix2 (0 : Fin 1) j)) = Cert.Spec.mean (acts m c) from funext (E7_mean m ρ c),
    show (fun j => E7 m ρ c main_v54 (ix2 (0 : Fin 1) j)) = Cert.Spec.varK (acts m c) from funext (E7_var m ρ c),
    show (fun j => E7 m ρ c main_v55 (ix2 (0 : Fin 1) j)) = (fun j => (m ((c : Thread nD τ).loc main_arg4)) (ix1 j)) from funext (E7_scale m ρ c),
    show (fun j => E7 m ρ c main_v56 (ix2 (0 : Fin 1) j)) = (fun j => (m ((c : Thread nD τ).loc main_arg5)) (ix1 j)) from funext (E7_shift m ρ c)]

end Cert.KernelIdeal.Val

end
-- ==== Proof.MathFacts.lean ====
/-
  The one law that joins the two programs: over finitely many REAL activations the mean of squares minus the squared
  mean is the mean of the squared deviations from the mean (the divisor being the number of terms); and that the
  precondition makes the float inputs real.
-/
import proofs.«162183_j53549652247107_1_alg».proof.Proof.Spec
import proofs.«162183_j53549652247107_1_alg».proof.Pre_finite_inputs
import Idealize.ShloMosaic.Lib.ValueIdx
import Idealize.ShloMosaic.Lib.ReduceAll
import Idealize.ShloMosaic.Lib.IdealHost
import Idealize.ShloMosaic.PureOps.Ideal.Laws
import Mathlib.Algebra.BigOperators.Field
import Mathlib.Tactic.FieldSimp
import Mathlib.Tactic.Ring

noncomputable section

open scoped BigOperators

namespace Cert.MathFacts

open Idealize.ShloMosaic Idealize.ShloMosaic.ValueIdx

/-! ### The divisor -/

/-- The divisor's pattern denotes 100000: sign 0, exponent field 143 (so 2¹⁶), significand 2²³ + 4411392, and
(2²³ + 4411392) · 2⁻⁷ = 12800000 / 128 = 100000. -/
theorem nodes_eq : Cert.Spec.nodes = ((100000 : ℝ) : EReal) := by
  unfold Cert.Spec.nodes
  simp [Ideal.ofBits, Ideal.ieee, -EReal.coe_mul]; norm_num

/-! ### The variance law -/

/-- The coercion of the reals into the extended reals commutes with finite sums. -/
theorem coe_sum {ι : Type} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- Over a finite index set of N terms, in the reals: the mean of squares minus the squared mean is the mean of the
squared deviations from the mean. Expanding (f r − μ)² = f r² − 2 μ f r + μ² and summing gives
Σ f² − 2 μ Σ f + N μ²; at μ = (Σ f) / N the last two terms are −N μ². -/
theorem real_var {ι : Type} [Fintype ι] (f : ι → ℝ) (N : ℝ) (hN : (Fintype.card ι : ℝ) = N) (h0 : N ≠ 0) :
    (∑ r, f r * f r) * (1 / N) - ((∑ r, f r) * (1 / N)) * ((∑ r, f r) * (1 / N))
      = (∑ r, (f r - (∑ r, f r) * (1 / N)) * (f r - (∑ r, f r) * (1 / N))) * (1 / N) := by
  have e : ∀ μ : ℝ, ∑ r, (f r - μ) * (f r - μ) = (∑ r, f r * f r) - 2 * μ * (∑ r, f r) + N * (μ * μ) := by
    intro μ
    have : ∀ r, (f r - μ) * (f r - μ) = f r * f r - 2 * μ * f r + μ * μ := fun r => by ring
    simp only [this]
    rw [Finset.sum_add_distrib, Finset.sum_sub_distrib, ← Finset.mul_sum, Finset.sum_const, Finset.card_univ,
      nsmul_eq_mul, hN]
  rw [e]; field_simp; ring

/-- THE VARIANCE LAW, column by column, for real activations: every sum, product, difference and quotient by 100000
of reals is the coercion of the same expression in the reals, where the law is `real_var` over the 100000 rows. -/
theorem var_eq (a : Cert.Spec.Mat 100000 64) (hfin : ∀ i, ∃ r : ℝ, a i = (r : EReal)) (j : Fin 64) :
    Cert.Spec.varK a j = Cert.Spec.varR a j := by
  choose f hf using hfin
  have hN : (100000 : ℝ) ≠ 0 := by norm_num
  have hS : Cert.Spec.colSum a j = ((∑ r : Fin 100000, f (ix2 r j) : ℝ) : EReal) := by
    unfold Cert.Spec.colSum; rw [← coe_sum]; exact Finset.sum_congr rfl fun r _ => hf _
  have hQ : Cert.Spec.colSumSq a j = ((∑ r : Fin 100000, f (ix2 r j) * f (ix2 r j) : ℝ) : EReal) := by
    unfold Cert.Spec.colSumSq; rw [← coe_sum]
    exact Finset.sum_congr rfl fun r _ => by rw [hf, ← EReal.coe_mul]
  have hM : Cert.Spec.mean a j = (((∑ r : Fin 100000, f (ix2 r j)) * (1 / 100000) : ℝ) : EReal) := by
    unfold Cert.Spec.mean; rw [nodes_eq, Ideal.div_coe hN, hS, ← EReal.coe_mul]
  have hD : ∀ μ : ℝ, (∑ r : Fin 100000, (a (ix2 r j) - (μ : EReal)) * (a (ix2 r j) - (μ : EReal)))
      = ((∑ r : Fin 100000, (f (ix2 r j) - μ) * (f (ix2 r j) - μ) : ℝ) : EReal) := by
    intro μ; rw [← coe_sum]
    exact Finset.sum_congr rfl fun r _ => by rw [hf, ← EReal.coe_sub, ← EReal.coe_mul]
  unfold Cert.Spec.varK Cert.Spec.varR
  rw [hM, hQ, hD, nodes_eq, Ideal.div_coe hN, Ideal.div_coe hN, ← EReal.coe_mul, ← EReal.coe_mul, ← EReal.coe_mul,
    ← EReal.coe_sub]
  exact congrArg _ (real_var (fun r => f (ix2 r j)) 100000 (by simp) hN)

/-! ### The precondition: every float entry is a real -/

/-- The pattern with exponent field all ones and significand zero denotes +∞. -/
theorem inf_eq : Ideal.ofBits .f32 0x7F800000#32 = (⊤ : EReal) := by
  simp [Ideal.ofBits, Ideal.ieee]

/-- A one-bit word made from a Boolean is 1 only when the Boolean is true. -/
theorem ofBool_one {b : Bool} (h : BitVec.ofBool b = 1#1) : b = true := by
  cases b
  · exact absurd h (by decide)
  · rfl

/-- An extended real whose absolute value max x (−x) is below +∞ is a real: at −∞ and at +∞ that maximum is +∞. -/
theorem real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [inf_eq] at h
  have h' : max x (-x) < ⊤ := of_decide_eq_true (ofBool_one h)
  induction x using EReal.rec with
  | bot => simp at h'
  | coe r => exact ⟨r, rfl⟩
  | top => simp at h'

/-- The conjunction over all entries of |x| < +∞, for an array of any shape: when it is 1, every entry is a real. -/
theorem all_real {T : Shape} (hb : Cert.Pre_finite_inputs.S_.BroadcastsInDim T (![] : Fin 0 → Fin T.rank))
    {axes : List (Fin T.rank)} (hr : T.ReducesTo axes Cert.Pre_finite_inputs.S_)
    (hu : 0 < Cert.Pre_finite_inputs.S_.numel) (x : FVec Ideal T .f32)
    (e : Host.reduce IntOp.andi (cmpf .olt (Host.absf x)
        (broadcastInDim T ![] hb (constant (F := Ideal) Cert.Pre_finite_inputs.S_ .f32 0x7F800000#32)))
        (constantI Cert.Pre_finite_inputs.S_ 1 1#1) hr hu ix0 = 1#1) (i : T.Idx) : ∃ r : ℝ, x i = (r : EReal) := by
  haveI : Subsingleton Cert.Pre_finite_inputs.S_.Idx := ⟨fun a b => funext fun d => d.elim0⟩
  have h := Host.reduce_andi_all _ _ hr hu ix0 e i
  rw [cmpf_apply, broadcastInDim_scalar_apply, constant_apply] at h
  exact real_of_abs_lt (x i) h

/-- Under the precondition the node features, the weights and the bias are real at every index: the precondition is
the conjunction of five such tests, one per float input, of which the first three are read here. -/
theorem pre_real [hP : Cert.Pre_finite_inputs.Facts]
    (x0 : (⟨Cert.Pre_finite_inputs.S100000x64, .f32⟩ : BufTy).Contents (Elt Ideal)) (x1 : (⟨Cert.Pre_finite_inputs.S2x1000000, .i32⟩ : BufTy).Contents (Elt Ideal))
    (x2 : (⟨Cert.Pre_finite_inputs.S64x64, .f32⟩ : BufTy).Contents (Elt Ideal)) (x3 x4 x5 : (⟨Cert.Pre_finite_inputs.S64, .f32⟩ : BufTy).Contents (Elt Ideal))
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, e3⟩ := IntOp.andi_eq_one.1 h2
  obtain ⟨e0, e2⟩ := IntOp.andi_eq_one.1 h3
  exact ⟨all_real _ _ _ x0 e0, all_real _ _ _ x2 e2, all_real _ _ _ x3 e3⟩

end Cert.MathFacts

end
-- ==== Proof.LibClamp.lean ====
/-
  The start index of a host gather, read as the operation reads it: the word taken as a signed integer and clamped
  into the table's rows 0 … N − 1 (a negative index reads row 0, one past the end reads the last row).
-/
import Mathlib.Data.BitVec
import Mathlib.Order.Basic

namespace Cert.LibClamp

/-- A word read signed and clamped into the rows 0 … N − 1 of a table with at least one row. -/
def clampTo {w : Nat} (N : Nat) (hN : 0 < N) (v : BitVec w) : Fin N := ⟨min v.toInt.toNat (N - 1), by omega⟩

end Cert.LibClamp
-- ==== Proof.LibGatherScatter.lean ====
/-
  The host's row gather and accumulating row scatter, read at one element, for abstract dimension records whose
  printed fields are given as hypotheses. A row gather over an [N × C] table with an [n × 1] column of start indices
  reads, at (e, j), the table's row named by the e-th index — taken as a signed integer and clamped into the rows
  0 … N − 1 — at column j. The accumulating row scatter adds, into element (c, j), column j of every update row
  whose index, taken signed and NOT clamped, is exactly c; an index that is negative or at least N adds nowhere. The
  same two readings are given for a rank-1 table.
-/
import Idealize.ShloMosaic.PureOps.Ideal
import Idealize.ShloMosaic.PureOps.Ideal.Laws
import Idealize.ShloMosaic.Lib.ValueIdx
import Idealize.ShloMosaic.Lib.StableHlo.Predicate
import proofs.«162183_j53549652247107_1_alg».proof.Proof.LibClamp

open scoped BigOperators

namespace Cert.LibGatherScatter

open Idealize.ShloMosaic Idealize.ShloMosaic.ValueIdx Idealize.ShloMosaic.StableHlo.Predicate
open Cert.LibClamp

/-! ## Where an update lands -/

/-- An update index lands at operand index `i` exactly when, on every operand axis, the window's start (read signed,
    not clamped) plus the window coordinate is `i`'s coordinate: inside the operand by being a coordinate of it. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

/-- The accumulating row scatter's dimension numbers, read at update index `(e, j')`: on the operand's row axis the
    window starts at the `e`-th scatter index and has no extent; on the column axis it starts at `0` and the update's
    column is the window coordinate. -/
theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

/-- Update `(e, j')` of the row scatter lands at operand element `(c, j)` exactly when it is in column `j` and the
    `e`-th scatter index, read signed, is the row `c`: a negative index, or one past the last row, lands nowhere. -/
theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-! ## The accumulating row scatter at an element -/

/-- THE ROW SCATTER READ AT `(c, j)`. The accumulation of update rows into the rows of an [N × C] table, the scatter indices an
    [n × 1] column: element `(c, j)` is the operand's plus the sum of column `j` of the update rows `e` whose scatter
    index, read SIGNED and NOT clamped, is `c`. A row whose index is negative or at least `N` adds nowhere. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

/-! ## The row gather at an element -/

/-- The row gather's dimension numbers, read at result index `(e, j)`: the operand's row is the `e`-th start index read
    signed and clamped into `0 … N − 1` (the slice is one row high), its column is `j` (the slice starts at column 0,
    and the result's second axis is the offset along it). -/
theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- THE ROW GATHER READ AT `(e, j)`: the table's row named by the `e`-th start index, read SIGNED and CLAMPED into the rows
    `0 … N − 1` (a negative index reads row 0, one past the end reads the last row), at column `j`. -/
theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

/-! ## The accumulating scatter into a rank-1 table at an element -/

/-- The rank-1 scatter's dimension numbers, read at update index `e`: on the operand's one axis the window starts at
    the `e`-th scatter index and has no extent. -/
theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

/-- Update `e` of the rank-1 scatter lands at operand element `q` exactly when the `e`-th scatter index, read signed, is
    `q`: a negative index, or one past the last entry, lands nowhere. -/
theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- THE RANK-1 SCATTER READ AT `q`. The accumulation of scalar updates into a table of `G` entries, the scatter indices an
    [n × 1] column: entry `q` is the operand's plus the sum of the updates `e` whose scatter index, read SIGNED and NOT
    clamped, is `q`. An update whose index is negative or at least `G` adds nowhere. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

/-! ## The rank-1 gather at an element -/

/-- A rank-1 index built from its coordinate is the same index however it is written. -/
theorem ofFin_eq_ix1 {n : Nat} (k : Fin n) : (Shape.Idx.ofFin k : (⟨1, ![n]⟩ : Shape).Idx) = ix1 k := by
  funext a
  match a with
  | ⟨0, _⟩ => rfl

/-- THE RANK-1 GATHER READ AT `e`: the table's entry named by the `e`-th start index, read SIGNED and CLAMPED into the
    positions `0 … N − 1` (a negative index reads entry 0, one past the end reads the last). -/
theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.Finite.lean ====
/-
  The activations are real when the node features, the weights and the bias are. The linear transform is a finite sum
  of products of reals. A node's degree is zero plus a one for every edge that ends at it, a real; its normalisation
  coefficient is the inverse square root of the degree where the degree is positive, a real, and zero elsewhere. A
  gathered entry is an entry of the table, whatever the index word (the row is clamped into the table); an edge's
  coefficient is a product of two gathered node coefficients; an accumulated row is zero plus the sum of finitely many
  real rows (an index word outside the table adds nowhere); bias and rectifier keep reals real.
-/
import proofs.«162183_j53549652247107_1_alg».proof.Proof.Spec
import proofs.«162183_j53549652247107_1_alg».proof.Proof.Agg
import proofs.«162183_j53549652247107_1_alg».proof.Proof.LibGatherScatter
import Idealize.ShloMosaic.Lib.Pipeline.Value
import Idealize.ShloMosaic.Lib.ValueIdx
import Idealize.ShloMosaic.PureOps.Ideal.Laws

noncomputable section

open scoped BigOperators

namespace Cert.Finite

open Idealize.ShloMosaic Idealize.ShloMosaic.ValueIdx Idealize.ShloMosaic.StableHlo.Predicate
open Cert.ReferenceIdeal Cert.ReferenceIdeal.ReadP Cert.LibGatherScatter Cert.LibClamp

/-! ## Real numbers among the extended reals -/

/-- An extended real that is a real number. -/
def IsReal (x : EReal) : Prop := ∃ r : ℝ, x = (r : EReal)

theorem IsReal.of_eq {x y : EReal} (h : x = y) (hy : IsReal y) : IsReal x := h ▸ hy

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is a real. -/
theorem IsReal.sum {ι : Type} (s : Finset ι) (f : ι → EReal) (h : ∀ i ∈ s, IsReal (f i)) : IsReal (∑ i ∈ s, f i) :=
  Finset.sum_induction f IsReal (fun _ _ ha hb => ha.add hb) IsReal.zero h

/-- The inverse square root of a positive real is a real. -/
theorem rsqrt_real_of_pos {r : ℝ} (h : 0 < r) : IsReal (Ideal.rsqrt (r : EReal)) := by
  show IsReal (if r < 0 then ⊥ else if r = 0 then ⊤ else (((Real.sqrt r)⁻¹ : ℝ) : EReal))
  rw [if_neg (not_lt.mpr h.le), if_neg h.ne']
  exact ⟨_, rfl⟩

/-- A choice between two values is real when the fallback is, and the first is wherever it is the one chosen. -/
theorem select_real {c : BitVec 1} {a b : EReal} (ha : c = 1#1 → IsReal a) (hb : IsReal b) :
    IsReal (Scalar.select c a b) := by
  unfold Scalar.select
  split
  · next h => exact ha h
  · exact hb

/-- The single-precision pattern of one denotes a real. -/
theorem one_real : IsReal (Ideal.ofBits .f32 0x3F800000#32) := by
  refine ⟨1, ?_⟩
  simp [Ideal.ofBits, Ideal.ieee]
  norm_cast
  norm_num

/-- The single-precision pattern of zero denotes a real. -/
theorem zero_real : IsReal (Ideal.ofBits .f32 0x00000000#32) := by
  rw [Ideal.ofBits_zero_f32]; exact IsReal.zero

/-! ## The stages of the aggregation, each real at every index -/

section stages

variable (x1 : (⟨S2x1000000, .i32⟩ : BufTy).Contents (Elt Ideal))

/-- What each edge adds to its target's degree: one. -/
theorem v7_real (i : S1100000.Idx) : IsReal (val_main_v7 (F := Ideal) i) := by
  rw [val_main_v7_apply, val_main_cst_apply, Ideal.ofBits_def]
  exact one_real

/-- The degree count starts from zero. -/
theorem v8_real (i : S100000.Idx) : IsReal (val_main_v8 (F := Ideal) i) := by
  rw [val_main_v8_apply, val_main_cst_0_apply, Ideal.ofBits_def]
  exact zero_real

/-- A node's degree: zero plus a one for every edge whose target word, read signed, is the node. -/
theorem v10_real (i : S100000.Idx) : IsReal (val_main_v10 (F := Ideal) x1 i) := by
  obtain ⟨q, rfl⟩ : ∃ q : Fin 100000, i = ix1 q := ⟨i 0, eq_ix1 i⟩
  unfold val_main_v10
  refine IsReal.of_eq (scatterAdd_vec_apply (φ := .f32) scatter_S100000_S1100000x1_S1100000_n_0_0_1 rfl rfl rfl rfl
    (val_main_v8 (F := Ideal)) (val_main_v9 (F := Ideal) x1) (val_main_v7 (F := Ideal)) q) ?_
  exact (v8_real _).add (IsReal.sum _ _ fun e _ => v7_real _)

/-- A node's normalisation coefficient: the inverse square root of its degree where the degree is positive, a real
    there; zero elsewhere. -/
theorem v14_real (i : S100000.Idx) : IsReal (val_main_v14 (F := Ideal) x1 i) := by
  rw [val_main_v14_apply]
  refine select_real (fun hc => ?_) ?_
  · rw [val_main_v12_apply, val_main_v11_apply, val_main_cst_1_apply, Ideal.ofBits_def, Ideal.ofBits_zero_f32,
      Ideal.cmpf_def] at hc
    rw [val_main_v13_apply, Ideal.hostUnary_rsqrt_def]
    obtain ⟨r, hr⟩ := v10_real x1 i
    rw [hr] at hc ⊢
    have hpos : (0 : EReal) < (r : EReal) := by
      by_contra hn
      have h0 : Ideal.cmp .ogt (r : EReal) 0 = 0#1 := by simp [Ideal.cmp, hn]
      rw [h0] at hc
      exact absurd hc (by decide)
    exact rsqrt_real_of_pos (EReal.coe_pos.mp hpos)
  · rw [val_main_call0_v1_apply, val_main_call0_v0_apply, val_main_cst_2_apply, Ideal.ofBits_def]
    exact zero_real

/-- The coefficient of an edge's source node: an entry of the table of node coefficients. -/
theorem v21_real (i : S1100000.Idx) : IsReal (val_main_v21 (F := Ideal) x1 i) := by
  obtain ⟨e, rfl⟩ : ∃ e : Fin 1100000, i = ix1 e := ⟨i 0, eq_ix1 i⟩
  unfold val_main_v21
  exact IsReal.of_eq (gather_vec_apply (by decide) gather_S100000_S1100000x1_S1100000_n_0_n_n_0_1_1 rfl rfl rfl rfl
    (val_main_v14 (F := Ideal) x1) (val_main_v20 (F := Ideal) x1) e) (v14_real x1 _)

theorem v22_real (i : S1100000.Idx) : IsReal (val_main_v22 (F := Ideal) x1 i) := by
  rw [val_main_v22_apply, Ideal.mulf_def]
  exact (v21_real x1 i).mul (v7_real i)

/-- The coefficient of an edge's target node: an entry of the same table. -/
theorem v29_real (i : S1100000.Idx) : IsReal (val_main_v29 (F := Ideal) x1 i) := by
  obtain ⟨e, rfl⟩ : ∃ e : Fin 1100000, i = ix1 e := ⟨i 0, eq_ix1 i⟩
  unfold val_main_v29
  exact IsReal.of_eq (gather_vec_apply (by decide) gather_S100000_S1100000x1_S1100000_n_0_n_n_0_1_1 rfl rfl rfl rfl
    (val_main_v14 (F := Ideal) x1) (val_main_v28 (F := Ideal) x1) e) (v14_real x1 _)

/-- An edge's coefficient: the product of its two nodes' coefficients. -/
theorem v30_real (i : S1100000.Idx) : IsReal (val_main_v30 (F := Ideal) x1 i) := by
  rw [val_main_v30_apply, Ideal.mulf_def]
  exact (v22_real x1 i).mul (v29_real x1 i)

/-- The edge coefficients as a column. -/
theorem v39_real (i : S1100000x1.Idx) : IsReal (val_main_v39 (F := Ideal) x1 i) := by
  rw [val_main_v39_apply]
  exact v30_real x1 _

/-- The edge coefficients repeated along each row. -/
theorem v40_real (i : S1100000x64.Idx) : IsReal (val_main_v40 (F := Ideal) x1 i) := by
  rw [val_main_v40_apply]
  exact v39_real x1 _

/-- The accumulation starts from zero. -/
theorem v42_real (i : S100000x64.Idx) : IsReal (val_main_v42 (F := Ideal) i) := by
  rw [val_main_v42_apply, val_main_cst_8_apply, Ideal.ofBits_def]
  exact zero_real

/-- The aggregation of a table of reals is real at every entry: zero plus, over the edges whose target word read
    signed is the row, the edge's coefficient times an entry of the table. -/
theorem aggOf_real (h : (⟨S100000x64, .f32⟩ : BufTy).Contents (Elt Ideal)) (hh : ∀ i, IsReal (h i)) (i : S100000x64.Idx) :
    IsReal (Cert.Agg.aggOf (F := Ideal) h x1 i) := by
  obtain ⟨c, j, rfl⟩ : ∃ (c : Fin 100000) (j : Fin 64), i = ix2 c j := ⟨i 0, i 1, eq_ix2 i⟩
  unfold Cert.Agg.aggOf
  refine IsReal.of_eq (scatterAdd_rows_apply (φ := .f32) scatter_S100000x64_S1100000x1_S1100000x64_1_0_0_1 rfl rfl rfl rfl
    (val_main_v42 (F := Ideal)) (val_main_v43 (F := Ideal) x1)
    (mulf (Host.gather gather_S100000x64_S1100000x1_S1100000x64_1_0_n_n_0_1_164 h (val_main_v37 (F := Ideal) x1))
      (val_main_v40 (F := Ideal) x1)) c j) ?_
  refine (v42_real _).add (IsReal.sum _ _ fun e _ => ?_)
  rw [mulf_apply]
  refine IsReal.mul ?_ (v40_real x1 _)
  exact IsReal.of_eq (gather_rows_apply (by decide) gather_S100000x64_S1100000x1_S1100000x64_1_0_n_n_0_1_164
    rfl rfl rfl rfl rfl h (val_main_v37 (F := Ideal) x1) e j) (hh _)

end stages

/-- The linear transform of real features by real weights is real: a finite sum of products. -/
theorem lin_real (x0 : Cert.Spec.Mat 100000 64) (x2 : Cert.Spec.Mat 64 64)
    (h0 : ∀ i, IsReal (x0 i)) (h2 : ∀ i, IsReal (x2 i)) (i : (⟨2, ![100000, 64]⟩ : Shape).Idx) :
    IsReal (Cert.Spec.lin x0 x2 i) := by
  unfold Cert.Spec.lin
  exact IsReal.sum _ _ fun k _ => (h0 _).mul (h2 _)

/-- Every activation is a real number. -/
theorem act_real (x0 : Cert.Spec.Mat 100000 64) (x1 : (⟨Cert.ReferenceIdeal.S2x1000000, .i32⟩ : BufTy).Contents (Elt Ideal)) (x2 : Cert.Spec.Mat 64 64) (b : Cert.Spec.Mat 1 64)
    (h0 : ∀ i, ∃ r : ℝ, x0 i = (r : EReal)) (h2 : ∀ i, ∃ r : ℝ, x2 i = (r : EReal)) (hb : ∀ i, ∃ r : ℝ, b i = (r : EReal)) :
    ∀ i, ∃ r : ℝ, Cert.Spec.act (Cert.Agg.aggOf (F := Ideal) (Cert.Spec.lin x0 x2) x1) b i = (r : EReal) := by
  intro i
  unfold Cert.Spec.act
  exact ((aggOf_real x1 _ (lin_real x0 x2 h0 h2) i).add (hb _)).max IsReal.zero

end Cert.Finite

end
-- ==== Proof.lean ====
/-
  The certificate. Both programs compute, at every node r and feature j,
      scale j · (a (r, j) − μ j) · (σ² j + ε)^(−1/2) + shift j,
  a = max (agg + bias, 0) the rectified aggregation along the edges of the linear transform x · W, μ the column mean of a
  over the 100000 nodes. The kernel does it in three pipelined regions (the product block by block; the activations with
  their column sums and sums of squares accumulated over the grid; the normalisation) and takes σ² as the mean of squares
  minus the squared mean; the reference takes σ² as the mean of the squared deviations. Under the precondition every
  activation is a real number (finite sums and products of reals along the way), and for real activations the two
  variances are one number: that is the one law the equivalence uses. The frames: each program runs to the end, faults
  nowhere and leaves its arguments as launched — for the kernel's two programs by the run of its eight segments, read
  at the last boundary; for the reference by its run with the result dropped. The idealized kernel is the kernel's own
  text read over the extended reals (no operation was rewritten).
-/
import proofs.«162183_j53549652247107_1_alg».proof.Defs
import proofs.«162183_j53549652247107_1_alg».proof.Proof.Gen.Kernel
import proofs.«162183_j53549652247107_1_alg».proof.Proof.Gen.KernelIdeal
import proofs.«162183_j53549652247107_1_alg».proof.Proof.Gen.ReferenceIdeal
import proofs.«162183_j53549652247107_1_alg».proof.Proof.Gen.Pre_finite_inputs
import proofs.«162183_j53549652247107_1_alg».proof.Proof.KbRun
import proofs.«162183_j53549652247107_1_alg».proof.Proof.KiRun
import proofs.«162183_j53549652247107_1_alg».proof.Proof.KiValue
import proofs.«162183_j53549652247107_1_alg».proof.Proof.RefVal
import proofs.«162183_j53549652247107_1_alg».proof.Proof.MathFacts
import proofs.«162183_j53549652247107_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Hand.frame_all m ρ
/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame_all m ρ
/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The two idealized programs end with one result: the kernel's by its run read at the last boundary, the reference's
    by its run; the two results are the same normalisation of the same activations, the variances equal because the
    activations are real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.B8 m ρ c (Proc.devRef .tc Cert.KernelIdeal.main_v57), Cert.KernelIdeal.Hand.run_value m ρ, ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5⟩ := hagree c
  obtain ⟨hx, hw, hb⟩ := Cert.MathFacts.pre_real _ _ _ _ _ _ (hpre c)
  have hreal : ∀ i, ∃ r : ℝ, Cert.KernelIdeal.Val.acts m c i = (r : EReal) :=
    Cert.Finite.act_real _ _ _ _ hx hw (fun i => hb _)
  show Cert.ReferenceIdeal.ValueP.res_main_v73 m' c = Cert.KernelIdeal.Hand.B8 m ρ c (Proc.devRef .tc Cert.KernelIdeal.main_v57)
  rw [Cert.ReferenceIdeal.ReadP.val_main_v73_eq, e0, e1, e2, e3, e4, e5, Cert.RefVal.ref_value, Cert.KernelIdeal.Val.kernel_value m ρ c,
    show Cert.Spec.varR (Cert.KernelIdeal.Val.acts m c) = Cert.Spec.varK (Cert.KernelIdeal.Val.acts m c) from
      funext fun j => (Cert.MathFacts.var_eq _ hreal j).symm]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
